-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S3072x1024 : Shape := ⟨2, ![3072, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S4x2048x1024 .f32) (main_arg1 : FVec F S3072x1024 .f32) (main_arg2 : FVec F S1024x1024 .f32) (main_arg3 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S4x2048x1024 : Shape := ⟨3, ![4, 2048, 1024]⟩
abbrev S3072x1024 : Shape := ⟨2, ![3072, 1024]⟩
abbrev S1024x1024 : Shape := ⟨2, ![1024, 1024]⟩
abbrev S1024 : Shape := ⟨1, ![1024]⟩
abbrev S8192x1024 : Shape := ⟨2, ![8192, 1024]⟩
abbrev S8192x3072 : Shape := ⟨2, ![8192, 3072]⟩
abbrev S1024x3072 : Shape := ⟨2, ![1024, 3072]⟩
abbrev S4x2048x3x16x64 : Shape := ⟨5, ![4, 2048, 3, 16, 64]⟩
abbrev S4x2048x16x64 : Shape := ⟨4, ![4, 2048, 16, 64]⟩
abbrev S1x256x1x16x64 : Shape := ⟨5, ![1, 256, 1, 16, 64]⟩
abbrev S1x2048x1x16x64 : Shape := ⟨5, ![1, 2048, 1, 16, 64]⟩
abbrev S1x256x16x64 : Shape := ⟨4, ![1, 256, 16, 64]⟩
abbrev S1x256x1x1x64 : Shape := ⟨5, ![1, 256, 1, 1, 64]⟩
abbrev S256x64 : Shape := ⟨2, ![256, 64]⟩
abbrev S1x2048x1x1x64 : Shape := ⟨5, ![1, 2048, 1, 1, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩
abbrev S1x256x1x64 : Shape := ⟨4, ![1, 256, 1, 64]⟩
abbrev S1x256x2x64 : Shape := ⟨4, ![1, 256, 2, 64]⟩
abbrev S1x1024 : Shape := ⟨2, ![1, 1024]⟩

abbrev nBuf : Space → Nat
  | .hbm => 15
  | .vmem => 17
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S8192x1024, .f32⟩
  | .hbm, ⟨5, _⟩ => ⟨S8192x1024, .bf16⟩
  | .hbm, ⟨6, _⟩ => ⟨S3072x1024, .bf16⟩
  | .hbm, ⟨7, _⟩ => ⟨S1024x1024, .bf16⟩
  | .hbm, ⟨8, _⟩ => ⟨S8192x3072, .bf16⟩
  | .hbm, ⟨9, _⟩ => ⟨S4x2048x3x16x64, .bf16⟩
  | .hbm, ⟨10, _⟩ => ⟨S4x2048x16x64, .bf16⟩
  | .hbm, ⟨11, _⟩ => ⟨S8192x1024, .bf16⟩
  | .hbm, ⟨12, _⟩ => ⟨S1x1024, .f32⟩
  | .hbm, ⟨13, _⟩ => ⟨S8192x1024, .f32⟩
  | .hbm, ⟨14, _⟩ => ⟨S4x2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S3072x1024, .bf16⟩
  | .local _ .vmem, ⟨3, _⟩ => ⟨S1024x3072, .bf16⟩
  | .local _ .vmem, ⟨4, _⟩ => ⟨S1024x3072, .bf16⟩
  | .local _ .vmem, ⟨5, _⟩ => ⟨S1x256x1x16x64, .bf16⟩
  | .local _ .vmem, ⟨6, _⟩ => ⟨S1x256x1x16x64, .bf16⟩
  | .local _ .vmem, ⟨7, _⟩ => ⟨S1x2048x1x16x64, .bf16⟩
  | .local _ .vmem, ⟨8, _⟩ => ⟨S1x2048x1x16x64, .bf16⟩
  | .local _ .vmem, ⟨9, _⟩ => ⟨S1x256x16x64, .bf16⟩
  | .local _ .vmem, ⟨10, _⟩ => ⟨S1x256x16x64, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 8], ![false, false]⟩

def cc1_transform_0 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc1_transform_1 (i : grid1.Coords) : Fin 5 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![arg0.toNat, c0_i32.toNat, c1_i32.toNat, c0_i32_0.toNat, c0_i32_1.toNat]

def cc1_transform_2 (i : grid1.Coords) : Fin 5 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  let c0_i32_1 : BitVec 32 := 0#32
  let c0_i32_2 : BitVec 32 := 0#32
  ![arg0.toNat, c0_i32.toNat, c2_i32.toNat, c0_i32_0.toNat, c0_i32_1.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x256x1x16x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x2048x1x16x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 1 → Memref sig .tc .vmem S1x2048x1x16x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false]

abbrev stage1_3 : Fin 2 → Memref sig .tc .vmem S1x256x16x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S4x2048x1024_S8192x1024 : S4x2048x1024.ShapeCasts S8192x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S1024x3072_S1024x3072_0_0 : ∀ a, (![0, 0] : Fin 2 → Nat) a + S1024x3072.size a ≤ S1024x3072.size a
  h_S1024x3072 : 0 < S1024x3072.numel
  packedbf16_S1024x3072_S1024x3072_0_0 : (Rect.unit (s := S1024x3072) ![0, 0] S1024x3072.size inb_S1024x3072_S1024x3072_0_0).PackedRows (EltTy.packing .bf16)
  shapeCasts_S8192x3072_S4x2048x3x16x64 : S8192x3072.ShapeCasts S4x2048x3x16x64
  inb_S1x256x1x16x64_S1x256x1x1x64_0_0_0_0_0 : ∀ a, (![0, 0, 0, 0, 0] : Fin 5 → Nat) a + S1x256x1x1x64.size a ≤ S1x256x1x16x64.size a
  h_S1x256x1x1x64 : 0 < S1x256x1x1x64.numel
  shapeCasts_S1x256x1x1x64_S256x64 : S1x256x1x1x64.ShapeCasts S256x64
  inb_S1x2048x1x16x64_S1x2048x1x1x64_0_0_0_0_0 : ∀ a, (![0, 0, 0, 0, 0] : Fin 5 → Nat) a + S1x2048x1x1x64.size a ≤ S1x2048x1x16x64.size a
  h_S1x2048x1x1x64 : 0 < S1x2048x1x1x64.numel
  shapeCasts_S1x2048x1x1x64_S2048x64 : S1x2048x1x1x64.ShapeCasts S2048x64
  reduces_S256x2048_S256 : S256x2048.Reduces [1] S256
  shapeCasts_S256_S256x1 : S256.ShapeCasts S256x1
  broadcasts_S256x1_S256x2048 : S256x1.Broadcasts S256x2048
  broadcasts_S256x1_S256x64 : S256x1.Broadcasts S256x64
  inb_S1x256x16x64_S1x256x1x64_0_0_0_0 : ∀ a, (![0, 0, 0, 0] : Fin 4 → Nat) a + S1x256x1x64.size a ≤ S1x256x16x64.size a
  h_S1x256x1x64 : 0 < S1x256x1x64.numel
  shapeCasts_S1x256x1x64_S256x64 : S1x256x1x64.ShapeCasts S256x64
  shapeCasts_S256x64_S1x256x1x64 : S256x64.ShapeCasts S1x256x1x64
  inb_S1x256x16x64_S1x256x2x64_0_0_0_0 : ∀ a, (![0, 0, 0, 0] : Fin 4 → Nat) a + S1x256x2x64.size a ≤ S1x256x16x64.size a
  h_S1x256x2x64 : 0 < S1x256x2x64.numel
  slices_S1x256x2x64_S1x256x1x64_0_0_0_0 : S1x256x2x64.Slices ![0, 0, 0, 0] S1x256x1x64
  packedbf16_S1x256x16x64_S1x256x2x64_0_0_0_0 : (Rect.unit (s := S1x256x16x64) ![0, 0, 0, 0] S1x256x2x64.size inb_S1x256x16x64_S1x256x2x64_0_0_0_0).PackedRows (EltTy.packing .bf16)
  inb_S1x256x1x16x64_S1x256x1x1x64_0_0_0_1_0 : ∀ a, (![0, 0, 0, 1, 0] : Fin 5 → Nat) a + S1x256x1x1x64.size a ≤ S1x256x1x16x64.size a
  inb_S1x2048x1x16x64_S1x2048x1x1x64_0_0_0_1_0 : ∀ a, (![0, 0, 0, 1, 0] : Fin 5 → Nat) a + S1x2048x1x1x64.size a ≤ S1x2048x1x16x64.size a
  inb_S1x256x16x64_S1x256x1x64_0_0_1_0 : ∀ a, (![0, 0, 1, 0] : Fin 4 → Nat) a + S1x256x1x64.size a ≤ S1x256x16x64.size a
  slices_S1x256x2x64_S1x256x1x64_0_0_1_0 : S1x256x2x64.Slices ![0, 0, 1, 0] S1x256x1x64
  inb_S1x256x1x16x64_S1x256x1x1x64_0_0_0_2_0 : ∀ a, (![0, 0, 0, 2, 0] : Fin 5 → Nat) a + S1x256x1x1x64.size a ≤ S1x256x1x16x64.size a
  inb_S1x2048x1x16x64_S1x2048x1x1x64_0_0_0_2_0 : ∀ a, (![0, 0, 0, 2, 0] : Fin 5 → Nat) a + S1x2048x1x1x64.size a ≤ S1x2048x1x16x64.size a
  inb_S1x256x16x64_S1x256x1x64_0_0_2_0 : ∀ a, (![0, 0, 2, 0] : Fin 4 → Nat) a + S1x256x1x64.size a ≤ S1x256x16x64.size a
  inb_S1x256x16x64_S1x256x2x64_0_0_2_0 : ∀ a, (![0, 0, 2, 0] : Fin 4 → Nat) a + S1x256x2x64.size a ≤ S1x256x16x64.size a
  packedbf16_S1x256x16x64_S1x256x2x64_0_0_2_0 : (Rect.unit (s := S1x256x16x64) ![0, 0, 2, 0] S1x256x2x64.size inb_S1x256x16x64_S1x256x2x64_0_0_2_0).PackedRows (EltTy.packing .bf16)
  inb_S1x256x1x16x64_S1x256x1x1x64_0_0_0_3_0 : ∀ a, (![0, 0, 0, 3, 0] : Fin 5 → Nat) a + S1x256x1x1x64.size a ≤ S1x256x1x16x64.size a
  inb_S1x2048x1x16x64_S1x2048x1x1x64_0_0_0_3_0 : ∀ a, (![0, 0, 0, 3, 0] : Fin 5 → Nat) a + S1x2048x1x1x64.size a ≤ S1x2048x1x16x64.size a
  inb_S1x256x16x64_S1x256x1x64_0_0_3_0 : ∀ a, (![0, 0, 3, 0] : Fin 4 → Nat) a + S1x256x1x64.size a ≤ S1x256x16x64.size a
  inb_S1x256x1x16x64_S1x256x1x1x64_0_0_0_4_0 : ∀ a, (![0, 0, 0, 4, 0] : Fin 5 → Nat) a + S1x256x1x1x64.size a ≤ S1x256x1x16x64.size a
  inb_S1x2048x1x16x64_S1x2048x1x1x64_0_0_0_4_0 : ∀ a, (![0, 0, 0, 4, 0] : Fin 5 → Nat) a + S1x2048x1x1x64.size a ≤ S1x2048x1x16x64.size a
  inb_S1x256x16x64_S1x256x1x64_0_0_4_0 : ∀ a, (![0, 0, 4, 0] : Fin 4 → Nat) a + S1x256x1x64.size a ≤ S1x256x16x64.size a
  inb_S1x256x16x64_S1x256x2x64_0_0_4_0 : ∀ a, (![0, 0, 4, 0] : Fin 4 → Nat) a + S1x256x2x64.size a ≤ S1x256x16x64.size a
  packedbf16_S1x256x16x64_S1x256x2x64_0_0_4_0 : (Rect.unit (s := S1x256x16x64) ![0, 0, 4, 0] S1x256x2x64.size inb_S1x256x16x64_S1x256x2x64_0_0_4_0).PackedRows (EltTy.packing .bf16)
  inb_S1x256x1x16x64_S1x256x1x1x64_0_0_0_5_0 : ∀ a, (![0, 0, 0, 5, 0] : Fin 5 → Nat) a + S1x256x1x1x64.size a ≤ S1x256x1x16x64.size a
  inb_S1x2048x1x16x64_S1x2048x1x1x64_0_0_0_5_0 : ∀ a, (![0, 0, 0, 5, 0] : Fin 5 → Nat) a + S1x2048x1x1x64.size a ≤ S1x2048x1x16x64.size a
  inb_S1x256x16x64_S1x256x1x64_0_0_5_0 : ∀ a, (![0, 0, 5, 0] : Fin 4 → Nat) a + S1x256x1x64.size a ≤ S1x256x16x64.size a
  inb_S1x256x1x16x64_S1x256x1x1x64_0_0_0_6_0 : ∀ a, (![0, 0, 0, 6, 0] : Fin 5 → Nat) a + S1x256x1x1x64.size a ≤ S1x256x1x16x64.size a
  inb_S1x2048x1x16x64_S1x2048x1x1x64_0_0_0_6_0 : ∀ a, (![0, 0, 0, 6, 0] : Fin 5 → Nat) a + S1x2048x1x1x64.size a ≤ S1x2048x1x16x64.size a
  inb_S1x256x16x64_S1x256x1x64_0_0_6_0 : ∀ a, (![0, 0, 6, 0] : Fin 4 → Nat) a + S1x256x1x64.size a ≤ S1x256x16x64.size a
  inb_S1x256x16x64_S1x256x2x64_0_0_6_0 : ∀ a, (![0, 0, 6, 0] : Fin 4 → Nat) a + S1x256x2x64.size a ≤ S1x256x16x64.size a
  packedbf16_S1x256x16x64_S1x256x2x64_0_0_6_0 : (Rect.unit (s := S1x256x16x64) ![0, 0, 6, 0] S1x256x2x64.size inb_S1x256x16x64_S1x256x2x64_0_0_6_0).PackedRows (EltTy.packing .bf16)
  inb_S1x256x1x16x64_S1x256x1x1x64_0_0_0_7_0 : ∀ a, (![0, 0, 0, 7, 0] : Fin 5 → Nat) a + S1x256x1x1x64.size a ≤ S1x256x1x16x64.size a
  inb_S1x2048x1x16x64_S1x2048x1x1x64_0_0_0_7_0 : ∀ a, (![0, 0, 0, 7, 0] : Fin 5 → Nat) a + S1x2048x1x1x64.size a ≤ S1x2048x1x16x64.size a
  inb_S1x256x16x64_S1x256x1x64_0_0_7_0 : ∀ a, (![0, 0, 7, 0] : Fin 4 → Nat) a + S1x256x1x64.size a ≤ S1x256x16x64.size a
  inb_S1x256x1x16x64_S1x256x1x1x64_0_0_0_8_0 : ∀ a, (![0, 0, 0, 8, 0] : Fin 5 → Nat) a + S1x256x1x1x64.size a ≤ S1x256x1x16x64.size a
  inb_S1x2048x1x16x64_S1x2048x1x1x64_0_0_0_8_0 : ∀ a, (![0, 0, 0, 8, 0] : Fin 5 → Nat) a + S1x2048x1x1x64.size a ≤ S1x2048x1x16x64.size a
  inb_S1x256x16x64_S1x256x1x64_0_0_8_0 : ∀ a, (![0, 0, 8, 0] : Fin 4 → Nat) a + S1x256x1x64.size a ≤ S1x256x16x64.size a
  inb_S1x256x16x64_S1x256x2x64_0_0_8_0 : ∀ a, (![0, 0, 8, 0] : Fin 4 → Nat) a + S1x256x2x64.size a ≤ S1x256x16x64.size a
  packedbf16_S1x256x16x64_S1x256x2x64_0_0_8_0 : (Rect.unit (s := S1x256x16x64) ![0, 0, 8, 0] S1x256x2x64.size inb_S1x256x16x64_S1x256x2x64_0_0_8_0).PackedRows (EltTy.packing .bf16)
  inb_S1x256x1x16x64_S1x256x1x1x64_0_0_0_9_0 : ∀ a, (![0, 0, 0, 9, 0] : Fin 5 → Nat) a + S1x256x1x1x64.size a ≤ S1x256x1x16x64.size a
  inb_S1x2048x1x16x64_S1x2048x1x1x64_0_0_0_9_0 : ∀ a, (![0, 0, 0, 9, 0] : Fin 5 → Nat) a + S1x2048x1x1x64.size a ≤ S1x2048x1x16x64.size a
  inb_S1x256x16x64_S1x256x1x64_0_0_9_0 : ∀ a, (![0, 0, 9, 0] : Fin 4 → Nat) a + S1x256x1x64.size a ≤ S1x256x16x64.size a
  inb_S1x256x1x16x64_S1x256x1x1x64_0_0_0_10_0 : ∀ a, (![0, 0, 0, 10, 0] : Fin 5 → Nat) a + S1x256x1x1x64.size a ≤ S1x256x1x16x64.size a
  inb_S1x2048x1x16x64_S1x2048x1x1x64_0_0_0_10_0 : ∀ a, (![0, 0, 0, 10, 0] : Fin 5 → Nat) a + S1x2048x1x1x64.size a ≤ S1x2048x1x16x64.size a
  inb_S1x256x16x64_S1x256x1x64_0_0_10_0 : ∀ a, (![0, 0, 10, 0] : Fin 4 → Nat) a + S1x256x1x64.size a ≤ S1x256x16x64.size a
  inb_S1x256x16x64_S1x256x2x64_0_0_10_0 : ∀ a, (![0, 0, 10, 0] : Fin 4 → Nat) a + S1x256x2x64.size a ≤ S1x256x16x64.size a
  packedbf16_S1x256x16x64_S1x256x2x64_0_0_10_0 : (Rect.unit (s := S1x256x16x64) ![0, 0, 10, 0] S1x256x2x64.size inb_S1x256x16x64_S1x256x2x64_0_0_10_0).PackedRows (EltTy.packing .bf16)
  inb_S1x256x1x16x64_S1x256x1x1x64_0_0_0_11_0 : ∀ a, (![0, 0, 0, 11, 0] : Fin 5 → Nat) a + S1x256x1x1x64.size a ≤ S1x256x1x16x64.size a
  inb_S1x2048x1x16x64_S1x2048x1x1x64_0_0_0_11_0 : ∀ a, (![0, 0, 0, 11, 0] : Fin 5 → Nat) a + S1x2048x1x1x64.size a ≤ S1x2048x1x16x64.size a
  inb_S1x256x16x64_S1x256x1x64_0_0_11_0 : ∀ a, (![0, 0, 11, 0] : Fin 4 → Nat) a + S1x256x1x64.size a ≤ S1x256x16x64.size a
  inb_S1x256x1x16x64_S1x256x1x1x64_0_0_0_12_0 : ∀ a, (![0, 0, 0, 12, 0] : Fin 5 → Nat) a + S1x256x1x1x64.size a ≤ S1x256x1x16x64.size a
  inb_S1x2048x1x16x64_S1x2048x1x1x64_0_0_0_12_0 : ∀ a, (![0, 0, 0, 12, 0] : Fin 5 → Nat) a + S1x2048x1x1x64.size a ≤ S1x2048x1x16x64.size a
  inb_S1x256x16x64_S1x256x1x64_0_0_12_0 : ∀ a, (![0, 0, 12, 0] : Fin 4 → Nat) a + S1x256x1x64.size a ≤ S1x256x16x64.size a
  inb_S1x256x16x64_S1x256x2x64_0_0_12_0 : ∀ a, (![0, 0, 12, 0] : Fin 4 → Nat) a + S1x256x2x64.size a ≤ S1x256x16x64.size a
  packedbf16_S1x256x16x64_S1x256x2x64_0_0_12_0 : (Rect.unit (s := S1x256x16x64) ![0, 0, 12, 0] S1x256x2x64.size inb_S1x256x16x64_S1x256x2x64_0_0_12_0).PackedRows (EltTy.packing .bf16)
  inb_S1x256x1x16x64_S1x256x1x1x64_0_0_0_13_0 : ∀ a, (![0, 0, 0, 13, 0] : Fin 5 → Nat) a + S1x256x1x1x64.size a ≤ S1x256x1x16x64.size a
  inb_S1x2048x1x16x64_S1x2048x1x1x64_0_0_0_13_0 : ∀ a, (![0, 0, 0, 13, 0] : Fin 5 → Nat) a + S1x2048x1x1x64.size a ≤ S1x2048x1x16x64.size a
  inb_S1x256x16x64_S1x256x1x64_0_0_13_0 : ∀ a, (![0, 0, 13, 0] : Fin 4 → Nat) a + S1x256x1x64.size a ≤ S1x256x16x64.size a
  inb_S1x256x1x16x64_S1x256x1x1x64_0_0_0_14_0 : ∀ a, (![0, 0, 0, 14, 0] : Fin 5 → Nat) a + S1x256x1x1x64.size a ≤ S1x256x1x16x64.size a
  inb_S1x2048x1x16x64_S1x2048x1x1x64_0_0_0_14_0 : ∀ a, (![0, 0, 0, 14, 0] : Fin 5 → Nat) a + S1x2048x1x1x64.size a ≤ S1x2048x1x16x64.size a
  inb_S1x256x16x64_S1x256x1x64_0_0_14_0 : ∀ a, (![0, 0, 14, 0] : Fin 4 → Nat) a + S1x256x1x64.size a ≤ S1x256x16x64.size a
  inb_S1x256x16x64_S1x256x2x64_0_0_14_0 : ∀ a, (![0, 0, 14, 0] : Fin 4 → Nat) a + S1x256x2x64.size a ≤ S1x256x16x64.size a
  packedbf16_S1x256x16x64_S1x256x2x64_0_0_14_0 : (Rect.unit (s := S1x256x16x64) ![0, 0, 14, 0] S1x256x2x64.size inb_S1x256x16x64_S1x256x2x64_0_0_14_0).PackedRows (EltTy.packing .bf16)
  inb_S1x256x1x16x64_S1x256x1x1x64_0_0_0_15_0 : ∀ a, (![0, 0, 0, 15, 0] : Fin 5 → Nat) a + S1x256x1x1x64.size a ≤ S1x256x1x16x64.size a
  inb_S1x2048x1x16x64_S1x2048x1x1x64_0_0_0_15_0 : ∀ a, (![0, 0, 0, 15, 0] : Fin 5 → Nat) a + S1x2048x1x1x64.size a ≤ S1x2048x1x16x64.size a
  inb_S1x256x16x64_S1x256x1x64_0_0_15_0 : ∀ a, (![0, 0, 15, 0] : Fin 4 → Nat) a + S1x256x1x64.size a ≤ S1x256x16x64.size a
  shapeCasts_S4x2048x16x64_S8192x1024 : S4x2048x16x64.ShapeCasts S8192x1024
  shapeCasts_S1024_S1x1024 : S1024.ShapeCasts S1x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x1024_S4x2048x1024 : S8192x1024.ShapeCasts S4x2048x1024
  dot_S1024x1024_S3072x1024_S1024x3072_1_1_0_0_n_n_wf : DotDims.WF S1024x1024 S3072x1024 S1024x3072 [1] [1] [0] [0] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .bf16 = 32 ∨ (Rect.block (s := S8192x1024) S1024x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x3072.size a ≤ S8192x3072.size a
  hwx0_2 : ∀ i : grid0.Coords, EltTy.bits .bf16 = 32 ∨ (Rect.block (s := S8192x3072) S1024x3072.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1x16x64.size a ≤ S4x2048x3x16x64.size a
  hwx1_0 : ∀ i : grid1.Coords, EltTy.bits .bf16 = 32 ∨ (Rect.block (s := S4x2048x3x16x64) S1x256x1x16x64.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x2048x1x16x64.size a ≤ S4x2048x3x16x64.size a
  hwx1_1 : ∀ i : grid1.Coords, EltTy.bits .bf16 = 32 ∨ (Rect.block (s := S4x2048x3x16x64) S1x2048x1x16x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048x1x16x64.size a ≤ S4x2048x3x16x64.size a
  hwx1_2 : ∀ i : grid1.Coords, EltTy.bits .bf16 = 32 ∨ (Rect.block (s := S4x2048x3x16x64) S1x2048x1x16x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x16x64.size a ≤ S4x2048x16x64.size a
  hwx1_3 : ∀ i : grid1.Coords, EltTy.bits .bf16 = 32 ∨ (Rect.block (s := S4x2048x16x64) S1x256x16x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .bf16 = 32 ∨ (Rect.block (s := S8192x1024) S1024x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x1024.size a
  hwx2_3 : ∀ i : grid2.Coords, EltTy.bits .f32 = 32 ∨ (Rect.block (s := S8192x1024) S1024x1024.size (cc2_transform_3 i) (hinb2_3 i)).WholeWords (EltTy.packing .f32)

variable [Facts₀]

def dot_S1024x1024_S3072x1024_S1024x3072_1_1_0_0_n_n : DotDims S1024x1024 S3072x1024 S1024x3072 where
  lhsContracting := [1]
  rhsContracting := [1]
  lhsNonContracting := [0]
  rhsNonContracting := [0]
  lhsBatch := []
  rhsBatch := []
  wf := dot_S1024x1024_S3072x1024_S1024x3072_1_1_0_0_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x3072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v5) S1x256x1x16x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x2048x1x16x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x2048x1x16x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x256x16x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v7) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v9) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S3072x1024 : Shape := ⟨2, ![3072, 1024]⟩
abbrev S1024x1024 : Shape := ⟨2, ![1024, 1024]⟩
abbrev S1024 : Shape := ⟨1, ![1024]⟩
abbrev S4x2048x3072 : Shape := ⟨3, ![4, 2048, 3072]⟩
abbrev S4x2048x3x16x64 : Shape := ⟨5, ![4, 2048, 3, 16, 64]⟩
abbrev S3x4x16x2048x64 : Shape := ⟨5, ![3, 4, 16, 2048, 64]⟩
abbrev S1x4x16x2048x64 : Shape := ⟨5, ![1, 4, 16, 2048, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩
abbrev S4x2048x16x64 : Shape := ⟨4, ![4, 2048, 16, 64]⟩
abbrev S1x1x1024 : Shape := ⟨3, ![1, 1, 1024]⟩

abbrev nBuf : Space → Nat
  | .hbm => 38
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S3072x1024, .f32⟩
  | .hbm, ⟨2, _⟩ => ⟨S1024x1024, .f32⟩
  | .hbm, ⟨3, _⟩ => ⟨S1024, .f32⟩
  | .hbm, ⟨4, _⟩ => ⟨S4x2048x3072, .f32⟩
  | .hbm, ⟨5, _⟩ => ⟨S4x2048x3x16x64, .f32⟩
  | .hbm, ⟨6, _⟩ => ⟨S3x4x16x2048x64, .f32⟩
  | .hbm, ⟨7, _⟩ => ⟨S1x4x16x2048x64, .f32⟩
  | .hbm, ⟨8, _⟩ => ⟨S4x16x2048x64, .f32⟩
  | .hbm, ⟨9, _⟩ => ⟨S1x4x16x2048x64, .f32⟩
  | .hbm, ⟨10, _⟩ => ⟨S4x16x2048x64, .f32⟩
  | .hbm, ⟨11, _⟩ => ⟨S1x4x16x2048x64, .f32⟩
  | .hbm, ⟨12, _⟩ => ⟨S4x16x2048x64, .f32⟩
  | .hbm, ⟨13, _⟩ => ⟨S4x16x2048x2048, .f32⟩
  | .hbm, ⟨14, _⟩ => ⟨S_, .f32⟩
  | .hbm, ⟨15, _⟩ => ⟨S4x16x2048x2048, .f32⟩
  | .hbm, ⟨16, _⟩ => ⟨S4x16x2048x2048, .f32⟩
  | .hbm, ⟨17, _⟩ => ⟨S_, .f32⟩
  | .hbm, ⟨18, _⟩ => ⟨S4x16x2048, .f32⟩
  | .hbm, ⟨19, _⟩ => ⟨S_, .f32⟩
  | .hbm, ⟨20, _⟩ => ⟨S4x16x2048, .f32⟩
  | .hbm, ⟨21, _⟩ => ⟨S4x16x2048, .f32⟩
  | .hbm, ⟨22, _⟩ => ⟨S4x16x2048x1, .f32⟩
  | .hbm, ⟨23, _⟩ => ⟨S4x16x2048x2048, .f32⟩
  | .hbm, ⟨24, _⟩ => ⟨S4x16x2048x2048, .f32⟩
  | .hbm, ⟨25, _⟩ => ⟨S4x16x2048x2048, .f32⟩
  | .hbm, ⟨26, _⟩ => ⟨S_, .f32⟩
  | .hbm, ⟨27, _⟩ => ⟨S4x16x2048, .f32⟩
  | .hbm, ⟨28, _⟩ => ⟨S4x16x2048x1, .f32⟩
  | .hbm, ⟨29, _⟩ => ⟨S4x16x2048x2048, .f32⟩
  | .hbm, ⟨30, _⟩ => ⟨S4x16x2048x2048, .f32⟩
  | .hbm, ⟨31, _⟩ => ⟨S4x16x2048x64, .f32⟩
  | .hbm, ⟨32, _⟩ => ⟨S4x2048x16x64, .f32⟩
  | .hbm, ⟨33, _⟩ => ⟨S4x2048x1024, .f32⟩
  | .hbm, ⟨34, _⟩ => ⟨S4x2048x1024, .f32⟩
  | .hbm, ⟨35, _⟩ => ⟨S1x1x1024, .f32⟩
  | .hbm, ⟨36, _⟩ => ⟨S4x2048x1024, .f32⟩
  | .hbm, ⟨37, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩

abbrev nD : Nat := 1
abbrev τ : Topo := Topo.v7x

variable {F : FTy → Type} [FloatOps F]

class Facts₀ : Prop where
  shapeCasts_S4x2048x3072_S4x2048x3x16x64 : S4x2048x3072.ShapeCasts S4x2048x3x16x64
  transposes_S4x2048x3x16x64_S3x4x16x2048x64_2_0_3_1_4 : S4x2048x3x16x64.Transposes [2, 0, 3, 1, 4] S3x4x16x2048x64
  slices_S3x4x16x2048x64_S1x4x16x2048x64_0_0_0_0_0 : S3x4x16x2048x64.Slices ![0, 0, 0, 0, 0] S1x4x16x2048x64
  shapeCasts_S1x4x16x2048x64_S4x16x2048x64 : S1x4x16x2048x64.ShapeCasts S4x16x2048x64
  slices_S3x4x16x2048x64_S1x4x16x2048x64_1_0_0_0_0 : S3x4x16x2048x64.Slices ![1, 0, 0, 0, 0] S1x4x16x2048x64
  slices_S3x4x16x2048x64_S1x4x16x2048x64_2_0_0_0_0 : S3x4x16x2048x64.Slices ![2, 0, 0, 0, 0] S1x4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S3072x1024_S4x2048x3072_2_1_01_0_n_n_wf : DotDims.WF S4x2048x1024 S3072x1024 S4x2048x3072 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]
  dot_S4x2048x1024_S1024x1024_S4x2048x1024_2_1_01_0_n_n_wf : DotDims.WF S4x2048x1024 S1024x1024 S4x2048x1024 [2] [1] [0, 1] [0] [] []

variable [Facts₀]

def dot_S4x2048x1024_S3072x1024_S4x2048x3072_2_1_01_0_n_n : DotDims S4x2048x1024 S3072x1024 S4x2048x3072 where
  lhsContracting := [2]
  rhsContracting := [1]
  lhsNonContracting := [0, 1]
  rhsNonContracting := [0]
  lhsBatch := []
  rhsBatch := []
  wf := dot_S4x2048x1024_S3072x1024_S4x2048x3072_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf
def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf

class Facts : Prop extends Facts₀ where

variable [Facts]
-- ==== Proof.K.R0.lean ====
/-
  The first linear layer's region, at the buffer contents `V` the region is entered from: the grid has eight points,
  point `t` reads rows 1024·t … 1024·t + 1023 of the activations and the whole weight matrix, and leaves in the
  output window's staging buffer the product of the two blocks (one store of the whole block).
-/
import proofs.«423178_j21577915695182_3_alg».proof.Proof.Gen.Kernel.Launch
import proofs.«423178_j21577915695182_3_alg».proof.Proof.Gen.Kernel.Skeleton
import proofs.«423178_j21577915695182_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_a : Rect S1024x1024 := Rect.unit (s := S1024x1024) ![0, 0] S1024x1024.size inb_S1024x1024_S1024x1024_0_0
abbrev r0_b : Rect S3072x1024 := Rect.unit (s := S3072x1024) ![0, 0] S3072x1024.size inb_S3072x1024_S3072x1024_0_0
abbrev r0_o : Rect S1024x3072 := Rect.unit (s := S1024x3072) ![0, 0] S1024x3072.size inb_S1024x3072_S1024x3072_0_0

/-- What the body leaves in the output window's buffer: its one store, of the product of the two input blocks. -/
def out0_2 (x0 : Vec F S1024x1024 .bf16) (x1 : Vec F S3072x1024 .bf16) : Vec F S1024x3072 .bf16 :=
  View.canon [⟨r0_o, k0_pay1 (View.ld x0 r0_a) (View.ld x1 r0_b)⟩]

theorem cover0_2 (p0 : Vec F S1024x3072 .bf16) (y : S1024x3072.Idx) :
    ∃ pc ∈ ([⟨r0_o, p0⟩] : List (View.Piece (Elt F) S1024x3072 .bf16)), y ∈ pc.1.set :=
  View.cover_of_tiled [⟨r0_o, p0⟩] S1024x3072.size (by rfl) y

set_option maxHeartbeats 1000000 in
/-- The body on whole staging buffers: the inputs' are kept, the output's ends at `out0_2` of the inputs'. -/
theorem sound_kernel0 (c : Dev nD) (E : Set ℕ) (i : grid0.Coords)
    (arg1 : Memref sig .tc .vmem S1024x1024 .bf16) (harg1 : arg1.IsWhole) (arg2 : Memref sig .tc .vmem S3072x1024 .bf16) (harg2 : arg2.IsWhole)
    (arg3 : Memref sig .tc .vmem S1024x3072 .bf16) (harg3 : arg3.IsWhole)
    (x0 : Vec F S1024x1024 .bf16) (x1 : Vec F S3072x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__linear_nobias_kernel i arg1 harg1 arg2 harg2 arg3 harg3) K := by
  simp only [cc0__linear_nobias_kernel_eq_skeleton]; unfold cc0__linear_nobias_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of this pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of this pipeline, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
/-
  The attention region, at the buffer contents `V` the region is entered from. The grid is 4 × 8: point `(b, i)`
  reads query rows 256·i … 256·i + 255 of batch `b` (all sixteen heads) and the batch's 2048 key and value rows,
  all three windows blocks of the one fused projection array, and leaves in the output window's staging buffer, head by
  head, the softmax-weighted values of the block's rows. Each head's result is stored as one bf16 row of a two-row word:
  the store reads the word pair's block back and writes it with that head's rows replaced, so after the sixteen stores
  every entry of the buffer is the head's result there, whatever the buffer held before.
-/
import proofs.«423178_j21577915695182_3_alg».proof.Proof.Gen.Kernel.Launch
import proofs.«423178_j21577915695182_3_alg».proof.Proof.Gen.Kernel.Skeleton
import proofs.«423178_j21577915695182_3_alg».proof.Proof.Gen.Kernel.Points
import Idealize.ShloMosaic.Lib.ValueIdx
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- One head's attention on its 256 query rows, 2048 key rows and 2048 value rows: the scaled scores, their row maxima,
    the exponentials, their row sums, the weighted values, the quotient — the body's operations for one head, in order. -/
def head1 (q : FVec F S256x64 .bf16) (k : FVec F S2048x64 .bf16) (v : FVec F S2048x64 .bf16) : FVec F S256x64 .bf16 :=
  have cst : FVec F S256x2048 .f32 := constant S256x2048 .f32 0x00000000#32
  have v6 : FVec F S256x2048 .f32 := matmul dot_S256x64_S2048x64_S256x2048_1_1_0_0_n_n none q k cst
  have cst_14 : F .f32 := Scalar.ofBits .f32 0x3E000000#32
  have v7 : FVec F S256x2048 .f32 := broadcast S256x2048 cst_14
  have v8 : FVec F S256x2048 .f32 := mulf v6 v7
  have v9 : FVec F S256 .f32 := multiReduction .maximumf [1] S256 v8 0xFF800000#32 reduces_S256x2048_S256 (.inl rfl) rfl
  have v10 : FVec F S256x1 .f32 := shapeCast S256x1 v9 shapeCasts_S256_S256x1
  have v11 : FVec F S256x2048 .f32 := broadcastTo S256x2048 v10 broadcasts_S256x1_S256x2048
  have v12 : FVec F S256x2048 .f32 := subf v8 v11
  have v13 : FVec F S256x2048 .f32 := exp v12
  have v14 : FVec F S256 .f32 := multiReduction .add [1] S256 v13 0x00000000#32 reduces_S256x2048_S256 (.inl rfl) rfl
  have v15 : FVec F S256x1 .f32 := shapeCast S256x1 v14 shapeCasts_S256_S256x1
  have v16 : FVec F S256x2048 .bf16 := truncf .bf16 v13 bitsLt_bf16_f32
  have cst_17 : FVec F S256x64 .f32 := constant S256x64 .f32 0x00000000#32
  have v17 : FVec F S256x64 .f32 := matmul dot_S256x2048_S2048x64_S256x64_1_0_0_1_n_n none v16 v cst_17
  have v18 : FVec F S256x64 .f32 := broadcastTo S256x64 v15 broadcasts_S256x1_S256x64
  have v19 : FVec F S256x64 .f32 := divf v17 v18
  have v20 : FVec F S256x64 .bf16 := truncf .bf16 v19 bitsLt_bf16_f32
  v20

/-- What the body leaves in the output window's buffer: at row `r`, head `h`, lane `d` of the block, head `h`'s
    attention of the query block's head-`h` rows against the key and value blocks' head-`h` rows, at `(r, d)`. -/
def out1_3 (x0 : Vec F S1x256x1x16x64 .bf16) (x1 : Vec F S1x2048x1x16x64 .bf16) (x2 : Vec F S1x2048x1x16x64 .bf16) : Vec F S1x256x16x64 .bf16 :=
  fun y => head1 (fun j => x0 (ix5 (0 : Fin 1) (j 0) (0 : Fin 1) (y 2) (j 1)))
    (fun j => x1 (ix5 (0 : Fin 1) (j 0) (0 : Fin 1) (y 2) (j 1)))
    (fun j => x2 (ix5 (0 : Fin 1) (j 0) (0 : Fin 1) (y 2) (j 1))) (ix2 (y 1) (y 3))

/-! ### The two shape casts of one head, read at an index -/

/-- One head's rows of a block `[1, n, 1, 16, 64]`, loaded as `[1, n, 1, 1, 64]` and viewed `[n, 64]`: row `i`, lane `l`
    is the block at `(0, i, 0, h, l)`. -/
theorem headRows_eq {α : Type} {n : ℕ} (X : (⟨5, ![1, n, 1, 16, 64]⟩ : Shape).Idx → α) (h : ℕ) (hh : h < 16)
    (inb : ∀ a, (![0, 0, 0, h, 0] : Fin 5 → ℕ) a + (![1, n, 1, 1, 64] : Fin 5 → ℕ) a ≤ (⟨5, ![1, n, 1, 16, 64]⟩ : Shape).size a)
    (c : (⟨5, ![1, n, 1, 1, 64]⟩ : Shape).ShapeCasts ⟨2, ![n, 64]⟩) :
    shapeCast ⟨2, ![n, 64]⟩ (fun x => X ((Rect.unit (s := ⟨5, ![1, n, 1, 16, 64]⟩) ![0, 0, 0, h, 0] ![1, n, 1, 1, 64] inb).idx x)) c
      = fun j => X (ix5 (0 : Fin 1) (j 0) (0 : Fin 1) (⟨h, hh⟩ : Fin 16) (j 1)) := by
  funext j
  refine (shapeCast_apply _ c j (ix5 (0 : Fin 1) (j 0) (0 : Fin 1) (0 : Fin 1) (j 1)) ?_).trans ?_
  · rw [Shape.rowMajor_val_five, Shape.rowMajor_val_two]
    show ((((0 * n + (j 0).val) * 1 + 0) * 1 + 0) * 64 + (j 1).val) = (j 0).val * 64 + (j 1).val
    simp only [Nat.zero_mul, Nat.zero_add, Nat.mul_one, Nat.add_zero]
  · refine congrArg X (funext fun a => Fin.ext ?_)
    match a with
    | ⟨0, _⟩ => rfl
    | ⟨1, _⟩ => show 0 + 1 * (j 0).val = (j 0).val; omega
    | ⟨2, _⟩ => rfl
    | ⟨3, _⟩ => show h + 1 * 0 = h; omega
    | ⟨4, _⟩ => show 0 + 1 * (j 1).val = (j 1).val; omega

/-- A `[256, 64]` value stored as a `[1, 256, 1, 64]` piece reads, at `(0, r, 0, l)`, the value at `(r, l)`. -/
theorem headPiece_apply {α : Type} (V : (⟨2, ![256, 64]⟩ : Shape).Idx → α)
    (c : (⟨2, ![256, 64]⟩ : Shape).ShapeCasts ⟨4, ![1, 256, 1, 64]⟩) (r : Fin 256) (l : Fin 64) :
    shapeCast ⟨4, ![1, 256, 1, 64]⟩ V c (ix4 (0 : Fin 1) r (0 : Fin 1) l) = V (ix2 r l) :=
  shapeCast_apply V c _ _ (by
    rw [Shape.rowMajor_val_four, Shape.rowMajor_val_two]
    show r.val * 64 + l.val = ((0 * 256 + r.val) * 1 + 0) * 64 + l.val
    simp only [Nat.zero_mul, Nat.zero_add, Nat.mul_one, Nat.add_zero])

/-- The value stored for head `h`, at row `r` and lane `l` of its piece, is `out1_3` there. -/
theorem headVal_apply (X0 : Vec F S1x256x1x16x64 .bf16) (X1 : Vec F S1x2048x1x16x64 .bf16) (X2 : Vec F S1x2048x1x16x64 .bf16)
    (h : ℕ) (hh : h < 16)
    (inbq : ∀ a, (![0, 0, 0, h, 0] : Fin 5 → ℕ) a + S1x256x1x1x64.size a ≤ S1x256x1x16x64.size a)
    (inbk : ∀ a, (![0, 0, 0, h, 0] : Fin 5 → ℕ) a + S1x2048x1x1x64.size a ≤ S1x2048x1x16x64.size a)
    (inbv : ∀ a, (![0, 0, 0, h, 0] : Fin 5 → ℕ) a + S1x2048x1x1x64.size a ≤ S1x2048x1x16x64.size a)
    (cq : S1x256x1x1x64.ShapeCasts S256x64) (ck : S1x2048x1x1x64.ShapeCasts S2048x64) (cv : S1x2048x1x1x64.ShapeCasts S2048x64)
    (co : S256x64.ShapeCasts S1x256x1x64) (r : Fin 256) (l : Fin 64) :
    shapeCast S1x256x1x64
        (head1 (shapeCast S256x64 (View.ld X0 (Rect.unit (s := S1x256x1x16x64) ![0, 0, 0, h, 0] S1x256x1x1x64.size inbq)) cq)
          (shapeCast S2048x64 (View.ld X1 (Rect.unit (s := S1x2048x1x16x64) ![0, 0, 0, h, 0] S1x2048x1x1x64.size inbk)) ck)
          (shapeCast S2048x64 (View.ld X2 (Rect.unit (s := S1x2048x1x16x64) ![0, 0, 0, h, 0] S1x2048x1x1x64.size inbv)) cv))
        co (ix4 (0 : Fin 1) r (0 : Fin 1) l)
      = out1_3 X0 X1 X2 (ix4 (0 : Fin 1) r (⟨h, hh⟩ : Fin 16) l) := by
  refine (headPiece_apply _ co r l).trans ?_
  have eq := headRows_eq X0 h hh inbq cq
  have ek := headRows_eq X1 h hh inbk ck
  have ev := headRows_eq X2 h hh inbv cv
  show head1 _ _ _ (ix2 r l) = head1 _ _ _ (ix2 r l)
  exact congrArg (fun t => t (ix2 r l)) (congr (congr (congrArg head1 eq) ek) ev)

/-! ### Two heads' stores into one two-row block -/

section Blocks
variable {sg : RefSig} {κ : Kind} {sp : Space} {Val : EltTy → Type} {e : EltTy}

/-- A block of two heads' rows in which head 0's are `A` and head 1's are `B`, whatever it held, read at an index. -/
theorem twoHeads_apply {α : Type} (old : S1x256x2x64.Idx → α) (A B : S1x256x1x64.Idx → α)
    (h0 : S1x256x2x64.Slices ![0, 0, 0, 0] S1x256x1x64) (h1 : S1x256x2x64.Slices ![0, 0, 1, 0] S1x256x1x64)
    (x : S1x256x2x64.Idx) :
    updateSlice (updateSlice old A ![0, 0, 0, 0] h0) B ![0, 0, 1, 0] h1 x
      = if (x 2).val = 0 then A (ix4 (0 : Fin 1) (x 1) (0 : Fin 1) (x 3)) else B (ix4 (0 : Fin 1) (x 1) (0 : Fin 1) (x 3)) := by
  have b0 : (x 0).val < 1 := (x 0).isLt
  have b1 : (x 1).val < 256 := (x 1).isLt
  have b2 : (x 2).val < 2 := (x 2).isLt
  have b3 : (x 3).val < 64 := (x 3).isLt
  by_cases hx : (x 2).val = 0
  · rw [if_pos hx]
    unfold updateSlice
    rw [dif_neg (fun hin => by have := (hin 2).1; change 1 ≤ (x 2).val at this; omega)]
    rw [dif_pos (fun a => match a with
      | ⟨0, _⟩ => ⟨Nat.zero_le _, by show (x 0).val < 0 + 1; omega⟩
      | ⟨1, _⟩ => ⟨Nat.zero_le _, by show (x 1).val < 0 + 256; omega⟩
      | ⟨2, _⟩ => ⟨Nat.zero_le _, by show (x 2).val < 0 + 1; omega⟩
      | ⟨3, _⟩ => ⟨Nat.zero_le _, by show (x 3).val < 0 + 64; omega⟩)]
    refine congrArg A (funext fun b => Fin.ext ?_)
    match b with
    | ⟨0, _⟩ => show (x 0).val - 0 = 0; omega
    | ⟨1, _⟩ => show (x 1).val - 0 = (x 1).val; omega
    | ⟨2, _⟩ => show (x 2).val - 0 = 0; omega
    | ⟨3, _⟩ => show (x 3).val - 0 = (x 3).val; omega
  · rw [if_neg hx]
    unfold updateSlice
    rw [dif_pos (fun a => match a with
      | ⟨0, _⟩ => ⟨Nat.zero_le _, by show (x 0).val < 0 + 1; omega⟩
      | ⟨1, _⟩ => ⟨Nat.zero_le _, by show (x 1).val < 0 + 256; omega⟩
      | ⟨2, _⟩ => ⟨by show 1 ≤ (x 2).val; omega, by show (x 2).val < 1 + 1; omega⟩
      | ⟨3, _⟩ => ⟨Nat.zero_le _, by show (x 3).val < 0 + 64; omega⟩)]
    refine congrArg B (funext fun b => Fin.ext ?_)
    match b with
    | ⟨0, _⟩ => show (x 0).val - 0 = 0; omega
    | ⟨1, _⟩ => show (x 1).val - 0 = (x 1).val; omega
    | ⟨2, _⟩ => show (x 2).val - 1 = 0; omega
    | ⟨3, _⟩ => show (x 3).val - 0 = (x 3).val; omega

variable (v : View sg κ sp S1x256x16x64 e) (f : v.ty.Contents Val) (G : S1x256x16x64.Idx → Val e)

/-- After the stores `L`, every entry of a head below `n` is `G`'s. -/
def HeadsDone (n : ℕ) (L : List (View.Piece Val S1x256x16x64 e)) : Prop :=
  ∀ y : S1x256x16x64.Idx, (y 2).val < n → v.read Val (v.writes Val f L) y = G y

theorem headsDone_zero (L : List (View.Piece Val S1x256x16x64 e)) : HeadsDone v f G 0 L :=
  fun y hy => absurd hy (Nat.not_lt_zero _)

/-- Two more heads: the block of heads `o`, `o + 1` stored once with head `o`'s rows replaced, read back, and stored again
    with head `o + 1`'s replaced too. -/
theorem headsDone_step [∀ e, Nonempty (Val e)] (o n : ℕ) (ho : o + 2 ≤ 16) (hn : n = o + 2)
    (inb : ∀ a, (![0, 0, o, 0] : Fin 4 → ℕ) a + S1x256x2x64.size a ≤ S1x256x16x64.size a)
    (old : (Rect.unit (s := S1x256x16x64) ![0, 0, o, 0] S1x256x2x64.size inb).shape.Idx → Val e)
    (A B : S1x256x1x64.Idx → Val e)
    (h0 : S1x256x2x64.Slices ![0, 0, 0, 0] S1x256x1x64) (h1 : S1x256x2x64.Slices ![0, 0, 1, 0] S1x256x1x64)
    (L : List (View.Piece Val S1x256x16x64 e))
    (hL : HeadsDone v f G o L)
    (hA : ∀ (r : Fin 256) (l : Fin 64), A (ix4 (0 : Fin 1) r (0 : Fin 1) l) = G (ix4 (0 : Fin 1) r (⟨o, by omega⟩ : Fin 16) l))
    (hB : ∀ (r : Fin 256) (l : Fin 64), B (ix4 (0 : Fin 1) r (0 : Fin 1) l) = G (ix4 (0 : Fin 1) r (⟨o + 1, by omega⟩ : Fin 16) l)) :
    HeadsDone v f G n
      (⟨Rect.unit (s := S1x256x16x64) ![0, 0, o, 0] S1x256x2x64.size inb,
          updateSlice (v.readCov (⟨Rect.unit (s := S1x256x16x64) ![0, 0, o, 0] S1x256x2x64.size inb, updateSlice old A ![0, 0, 0, 0] h0⟩ :: L)
            (Rect.unit (s := S1x256x16x64) ![0, 0, o, 0] S1x256x2x64.size inb).toLoadRect) B ![0, 0, 1, 0] h1⟩
        :: ⟨Rect.unit (s := S1x256x16x64) ![0, 0, o, 0] S1x256x2x64.size inb, updateSlice old A ![0, 0, 0, 0] h0⟩ :: L) := by
  subst hn
  intro y hy
  by_cases hlo : (y 2).val < o
  · rw [View.read_writes_cons_unit_of_not_mem v f inb _ _ y rfl 2 (Or.inl hlo),
      View.read_writes_cons_unit_of_not_mem v f inb _ _ y rfl 2 (Or.inl hlo)]
    exact hL y hlo
  · have b0 : (y 0).val < 1 := (y 0).isLt
    have b1 : (y 1).val < 256 := (y 1).isLt
    have b3 : (y 3).val < 64 := (y 3).isLt
    have hm : y ∈ (Rect.unit (s := S1x256x16x64) ![0, 0, o, 0] S1x256x2x64.size inb).set :=
      Rect.mem_set_unit.mpr fun a => match a with
        | ⟨0, _⟩ => ⟨Nat.zero_le _, by show (y 0).val < 0 + 1; omega⟩
        | ⟨1, _⟩ => ⟨Nat.zero_le _, by show (y 1).val < 0 + 256; omega⟩
        | ⟨2, _⟩ => ⟨by show o ≤ (y 2).val; omega, by show (y 2).val < o + 2; omega⟩
        | ⟨3, _⟩ => ⟨Nat.zero_le _, by show (y 3).val < 0 + 64; omega⟩
    obtain ⟨x, rfl⟩ := (Rect.unit (s := S1x256x16x64) ![0, 0, o, 0] S1x256x2x64.size inb).exists_idx_of_mem hm
    refine (View.read_writes_cons_emb v f _ _ _ x).trans ?_
    rw [View.readCov_cons_toLoadRect]
    refine (twoHeads_apply old A B h0 h1 x).trans ?_
    have c2 : (x 2).val < 2 := (x 2).isLt
    have e0 : ∀ (t : Fin 16), (t.val = o + (x 2).val) →
        ((Rect.unit (s := S1x256x16x64) ![0, 0, o, 0] S1x256x2x64.size inb).toLoadRect.idx x) = ix4 (0 : Fin 1) (x 1) t (x 3) := by
      intro t ht
      funext a
      refine Fin.ext ?_
      match a with
      | ⟨0, _⟩ => show 0 + 1 * (x 0).val = 0; have := (x 0).isLt; change (x 0).val < 1 at this; omega
      | ⟨1, _⟩ => show 0 + 1 * (x 1).val = (x 1).val; omega
      | ⟨2, _⟩ => show o + 1 * (x 2).val = t.val; omega
      | ⟨3, _⟩ => show 0 + 1 * (x 3).val = (x 3).val; omega
    by_cases hx : (x 2).val = 0
    · rw [if_pos hx]
      exact (hA _ _).trans (congrArg G (e0 ⟨o, by omega⟩ (by show o = o + (x 2).val; omega)).symm)
    · rw [if_neg hx]
      exact (hB _ _).trans (congrArg G (e0 ⟨o + 1, by omega⟩ (by show o + 1 = o + (x 2).val; omega)).symm)

end Blocks

theorem headsDone_all {sg : RefSig} {κ : Kind} {sp : Space} {Val : EltTy → Type} {e : EltTy}
    (v : View sg κ sp S1x256x16x64 e) (f : v.ty.Contents Val) (G : S1x256x16x64.Idx → Val e)
    (L : List (View.Piece Val S1x256x16x64 e)) (h : HeadsDone v f G 16 L) : v.read Val (v.writes Val f L) = G :=
  funext fun y => h y (y 2).isLt

set_option maxHeartbeats 4000000 in
/-- The body on whole staging buffers: the inputs' are kept, the output's ends at `out1_3` of the inputs', whatever it held. -/
theorem sound_kernel1 (c : Dev nD) (E : Set ℕ) (i : grid1.Coords)
    (arg2 : Memref sig .tc .vmem S1x256x1x16x64 .bf16) (harg2 : arg2.IsWhole)
    (arg3 : Memref sig .tc .vmem S1x2048x1x16x64 .bf16) (harg3 : arg3.IsWhole)
    (arg4 : Memref sig .tc .vmem S1x2048x1x16x64 .bf16) (harg4 : arg4.IsWhole)
    (arg5 : Memref sig .tc .vmem S1x256x16x64 .bf16) (harg5 : arg5.IsWhole)
    (x0 : Vec F S1x256x1x16x64 .bf16) (x1 : Vec F S1x2048x1x16x64 .bf16) (x2 : Vec F S1x2048x1x16x64 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine headsDone_all arg5.view f3 _ _ ?_
  -- heads 14, 15
  unfold sound_kernel1.sl.H3_15
  refine headsDone_step arg5.view f3 _ 14 16 (by decide) rfl _ _ _ _ _ _ _ ?_ (fun r l => ?_) (fun r l => ?_)
  rotate_left
  · exact headVal_apply (arg2.view.read (Elt F) f0) (arg3.view.read (Elt F) f1) (arg4.view.read (Elt F) f2) 14 (by decide) _ _ _ _ _ _ _ r l
  · exact headVal_apply (arg2.view.read (Elt F) f0) (arg3.view.read (Elt F) f1) (arg4.view.read (Elt F) f2) 15 (by decide) _ _ _ _ _ _ _ r l
  -- heads 12, 13
  unfold sound_kernel1.sl.H3_13
  refine headsDone_step arg5.view f3 _ 12 14 (by decide) rfl _ _ _ _ _ _ _ ?_ (fun r l => ?_) (fun r l => ?_)
  rotate_left
  · exact headVal_apply (arg2.view.read (Elt F) f0) (arg3.view.read (Elt F) f1) (arg4.view.read (Elt F) f2) 12 (by decide) _ _ _ _ _ _ _ r l
  · exact headVal_apply (arg2.view.read (Elt F) f0) (arg3.view.read (Elt F) f1) (arg4.view.read (Elt F) f2) 13 (by decide) _ _ _ _ _ _ _ r l
  -- heads 10, 11
  unfold sound_kernel1.sl.H3_11
  refine headsDone_step arg5.view f3 _ 10 12 (by decide) rfl _ _ _ _ _ _ _ ?_ (fun r l => ?_) (fun r l => ?_)
  rotate_left
  · exact headVal_apply (arg2.view.read (Elt F) f0) (arg3.view.read (Elt F) f1) (arg4.view.read (Elt F) f2) 10 (by decide) _ _ _ _ _ _ _ r l
  · exact headVal_apply (arg2.view.read (Elt F) f0) (arg3.view.read (Elt F) f1) (arg4.view.read (Elt F) f2) 11 (by decide) _ _ _ _ _ _ _ r l
  -- heads 8, 9
  unfold sound_kernel1.sl.H3_9
  refine headsDone_step arg5.view f3 _ 8 10 (by decide) rfl _ _ _ _ _ _ _ ?_ (fun r l => ?_) (fun r l => ?_)
  rotate_left
  · exact headVal_apply (arg2.view.read (Elt F) f0) (arg3.view.read (Elt F) f1) (arg4.view.read (Elt F) f2) 8 (by decide) _ _ _ _ _ _ _ r l
  · exact headVal_apply (arg2.view.read (Elt F) f0) (arg3.view.read (Elt F) f1) (arg4.view.read (Elt F) f2) 9 (by decide) _ _ _ _ _ _ _ r l
  -- heads 6, 7
  unfold sound_kernel1.sl.H3_7
  refine headsDone_step arg5.view f3 _ 6 8 (by decide) rfl _ _ _ _ _ _ _ ?_ (fun r l => ?_) (fun r l => ?_)
  rotate_left
  · exact headVal_apply (arg2.view.read (Elt F) f0) (arg3.view.read (Elt F) f1) (arg4.view.read (Elt F) f2) 6 (by decide) _ _ _ _ _ _ _ r l
  · exact headVal_apply (arg2.view.read (Elt F) f0) (arg3.view.read (Elt F) f1) (arg4.view.read (Elt F) f2) 7 (by decide) _ _ _ _ _ _ _ r l
  -- heads 4, 5
  unfold sound_kernel1.sl.H3_5
  refine headsDone_step arg5.view f3 _ 4 6 (by decide) rfl _ _ _ _ _ _ _ ?_ (fun r l => ?_) (fun r l => ?_)
  rotate_left
  · exact headVal_apply (arg2.view.read (Elt F) f0) (arg3.view.read (Elt F) f1) (arg4.view.read (Elt F) f2) 4 (by decide) _ _ _ _ _ _ _ r l
  · exact headVal_apply (arg2.view.read (Elt F) f0) (arg3.view.read (Elt F) f1) (arg4.view.read (Elt F) f2) 5 (by decide) _ _ _ _ _ _ _ r l
  -- heads 2, 3
  unfold sound_kernel1.sl.H3_3
  refine headsDone_step arg5.view f3 _ 2 4 (by decide) rfl _ _ _ _ _ _ _ ?_ (fun r l => ?_) (fun r l => ?_)
  rotate_left
  · exact headVal_apply (arg2.view.read (Elt F) f0) (arg3.view.read (Elt F) f1) (arg4.view.read (Elt F) f2) 2 (by decide) _ _ _ _ _ _ _ r l
  · exact headVal_apply (arg2.view.read (Elt F) f0) (arg3.view.read (Elt F) f1) (arg4.view.read (Elt F) f2) 3 (by decide) _ _ _ _ _ _ _ r l
  -- heads 0, 1
  unfold sound_kernel1.sl.H3_1
  refine headsDone_step arg5.view f3 _ 0 2 (by decide) rfl _ _ _ _ _ _ _ ?_ (fun r l => ?_) (fun r l => ?_)
  rotate_left
  · exact headVal_apply (arg2.view.read (Elt F) f0) (arg3.view.read (Elt F) f1) (arg4.view.read (Elt F) f2) 0 (by decide) _ _ _ _ _ _ _ r l
  · exact headVal_apply (arg2.view.read (Elt F) f0) (arg3.view.read (Elt F) f1) (arg4.view.read (Elt F) f2) 1 (by decide) _ _ _ _ _ _ _ r l
  exact headsDone_zero arg5.view f3 _ []

/-- The proof data of this pipeline on core `c`: the three input windows share the fused projection's array, each at a third
    of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of this pipeline, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2.lean ====
/-
  The output projection's region, at the buffer contents `V` the region is entered from: the grid has eight points,
  point `t` reads rows 1024·t … 1024·t + 1023 of the attention outputs, the whole weight matrix and the bias row, and
  leaves in the output window's staging buffer the product of the two blocks plus the bias (one store of the whole block).
-/
import proofs.«423178_j21577915695182_3_alg».proof.Proof.Gen.Kernel.Launch
import proofs.«423178_j21577915695182_3_alg».proof.Proof.Gen.Kernel.Skeleton
import proofs.«423178_j21577915695182_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_a : Rect S1024x1024 := Rect.unit (s := S1024x1024) ![0, 0] S1024x1024.size inb_S1024x1024_S1024x1024_0_0
abbrev r2_c : Rect S1x1024 := Rect.unit (s := S1x1024) ![0, 0] S1x1024.size inb_S1x1024_S1x1024_0_0

/-- What the body leaves in the output window's buffer: its one store, of the product of the two blocks plus the bias row. -/
def out2_3 (x0 : Vec F S1024x1024 .bf16) (x1 : Vec F S1024x1024 .bf16) (x2 : Vec F S1x1024 .f32) : Vec F S1024x1024 .f32 :=
  View.canon [⟨r2_a, k2_pay1 (View.ld x0 r2_a) (View.ld x1 r2_a) (View.ld x2 r2_c)⟩]

theorem cover2_3 (p0 : Vec F S1024x1024 .f32) (y : S1024x1024.Idx) :
    ∃ pc ∈ ([⟨r2_a, p0⟩] : List (View.Piece (Elt F) S1024x1024 .f32)), y ∈ pc.1.set :=
  View.cover_of_tiled [⟨r2_a, p0⟩] S1024x1024.size (by rfl) y

set_option maxHeartbeats 1000000 in
/-- The body on whole staging buffers: the inputs' are kept, the output's ends at `out2_3` of the inputs'. -/
theorem sound_kernel2 (c : Dev nD) (E : Set ℕ) (i : grid2.Coords)
    (arg1 : Memref sig .tc .vmem S1024x1024 .bf16) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S1024x1024 .f32) (harg4 : arg4.IsWhole)
    (x0 : Vec F S1024x1024 .bf16) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_bias_kernel i arg1 harg1 arg2 harg2 arg3 harg3 arg4 harg4) K := by
  simp only [cc2__linear_bias_kernel_eq_skeleton]; unfold cc2__linear_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of this pipeline on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of this pipeline, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Share1.lean ====
/-
  The attention region's three input windows are blocks of ONE array, the fused projection. The region holds that array's
  buffer in three shares that compose to the full share — one per window — and its output array's buffer outright: so the
  two buffers behind the four windows, each whole at the full share, are exactly the region's arrays at contents read off
  the same valuation, and back.
-/
import proofs.«423178_j21577915695182_3_alg».proof.Proof.Gen.Kernel.Launch
import proofs.«423178_j21577915695182_3_alg».proof.Proof.Gen.Kernel.Skeleton
import proofs.«423178_j21577915695182_3_alg».proof.Proof.Gen.Kernel.Points
import proofs.«423178_j21577915695182_3_alg».proof.Proof.K.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A buffer whole at the full share is the buffer at three shares: the left half, and the two halves of the right half. -/
theorem pointsTo_thirds {ℓ : Loc nD τ sig} (f : Buf (Elt F) ℓ) :
    (ℓ ↦{fullShare} f : sProp 𝕄) = iprop((ℓ ↦{fullShare.left} f) ∗ (ℓ ↦{fullShare.right.left} f) ∗ (ℓ ↦{fullShare.right.right} f)) := by
  have h1 := pointsTo_share (Ix := Unit) (Name := ℕ) (U := UR sig nD τ) (Lvl := ℕ) (ℓ := ℓ) (I := Finset.univ) (f := f) (PosShare.mem_left_op_right fullShare)
  have h2 := pointsTo_share (Ix := Unit) (Name := ℕ) (U := UR sig nD τ) (Lvl := ℕ) (ℓ := ℓ) (I := Finset.univ) (f := f) (PosShare.mem_left_op_right fullShare.right)
  rw [BI.Entails.antisymm h1.1 h1.2, BI.Entails.antisymm h2.1 h2.2]

/-- The two buffers behind the four windows, one by one. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v5) ↦{fullShare} W main_v5) ∗ (((c : Thread nD τ).loc main_v6) ↦{fullShare} W main_v6)) := by
  unfold Pipeline.arrBufs
  exact bigSep_eq_bigSepL_of_eq [main_v5, main_v6] (by decide) (by decide) _

/-- The four windows' arrays, read off one valuation, are the shared buffer at its three shares and the output's whole. -/
theorem arrays1_eq (c : Dev nD) (W : (b : Ref sig .tc) → Buf (Elt F) ((c : Thread nD τ).loc b))
    (G : (w : Fin cfg1.W) → Buf (Elt F) ((cfg1.win w).arr.view.loc (c : Thread nD τ))) (hG : ∀ w, G w = W (Pipeline.arrRef spec1 w)) :
    ((dat1 V c).arrays G : sProp 𝕄)
      = iprop((((c : Thread nD τ).loc main_v5) ↦{fullShare.left} W main_v5) ∗ (((c : Thread nD τ).loc main_v5) ↦{fullShare.right.left} W main_v5)
          ∗ (((c : Thread nD τ).loc main_v5) ↦{fullShare.right.right} W main_v5) ∗ (((c : Thread nD τ).loc main_v6) ↦{fullShare} W main_v6)) := by
  unfold Dat.arrays
  rw [bigSep_W1, (arr_whole1 0).set_eq_univ, (arr_whole1 3).set_eq_univ,
    hG 0, hG 1, hG 2, hG 3]
  rfl

/-- ENTRY: the two buffers whole at `W` give the four windows' arrays, the shared one split in three. -/
theorem arrays1_of_bufs (c : Dev nD) (W : (b : Ref sig .tc) → Buf (Elt F) ((c : Thread nD τ).loc b))
    (G : (w : Fin cfg1.W) → Buf (Elt F) ((cfg1.win w).arr.view.loc (c : Thread nD τ))) (hG : ∀ w, G w = W (Pipeline.arrRef spec1 w)) :
    (Pipeline.arrBufs (Ix := Unit) (Name := ℕ) (U := UR sig nD τ) (Lvl := ℕ) spec1 c W : sProp 𝕄) ⊢ (dat1 V c).arrays G := by
  rw [arrBufs1_eq, arrays1_eq V c W G hG, pointsTo_thirds]
  iintro ⟨⟨H0, H1, H2⟩, H3⟩
  isplitl [H0]; · iexact H0
  isplitl [H1]; · iexact H1
  isplitl [H2]; · iexact H2
  iexact H3

/-- EXIT: the four windows' arrays, all read off one valuation `W`, give back the two buffers whole at `W`. -/
theorem bufs_of_arrays1 (c : Dev nD) (W : (b : Ref sig .tc) → Buf (Elt F) ((c : Thread nD τ).loc b))
    (G : (w : Fin cfg1.W) → Buf (Elt F) ((cfg1.win w).arr.view.loc (c : Thread nD τ))) (hG : ∀ w, G w = W (Pipeline.arrRef spec1 w)) :
    (dat1 V c).arrays G ⊢ (Pipeline.arrBufs (Ix := Unit) (Name := ℕ) (U := UR sig nD τ) (Lvl := ℕ) spec1 c W : sProp 𝕄) := by
  rw [arrBufs1_eq, arrays1_eq V c W G hG, pointsTo_thirds]
  iintro ⟨H0, H1, H2, H3⟩
  isplitr [H3]
  · isplitl [H0]; · iexact H0
    isplitl [H1]; · iexact H1
    iexact H2
  · iexact H3

end Cert.Kernel.Hand

end
-- ==== Proof.K.Run.lean ====
/-
  The launch of the whole program: host reshapes, the first linear layer's region, a reshape, the attention region, two
  reshapes, the output projection's region, a reshape. Between two items a core holds every unscoped buffer whole at
  the contents the items before left there — each region's output array at what its write-backs fold to, computed from
  the contents the region was entered with —, its generator register and owes nothing. The run ends with the result
  buffer at the last valuation and the four arguments as launched.
-/
import proofs.«423178_j21577915695182_3_alg».proof.Proof.Gen.Kernel.Launch
import proofs.«423178_j21577915695182_3_alg».proof.Proof.Gen.Kernel.Skeleton
import proofs.«423178_j21577915695182_3_alg».proof.Proof.Gen.Kernel.Points
import proofs.«423178_j21577915695182_3_alg».proof.Proof.K.R0
import proofs.«423178_j21577915695182_3_alg».proof.Proof.K.R1
import proofs.«423178_j21577915695182_3_alg».proof.Proof.K.R2
import proofs.«423178_j21577915695182_3_alg».proof.Proof.K.Share1
import proofs.«423178_j21577915695182_3_alg».proof.Proof.K.RegionsV
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (RegionSeg)

variable (m : (ℓ : Loc nD τ sig) → Buf (Elt F) ℓ) (ρ : Dev nD → PrngReg)

/-! ## The buffer contents at each region's entry, and what each region leaves -/

/-- The contents region 0 is entered with. -/
abbrev Vr1 (c : Dev nD) (b : Ref sig .tc) : Buf (Elt F) ((c : Thread nD τ).loc b) := GenV.V1 m c b
/-- What region 0 leaves in the fused projection's array. -/
def X0 (c : Dev nD) : Buf (Elt F) ((c : Thread nD τ).loc main_v4) := (dat0 (Vr1 m) c).arrAt 2 cfg0.N
/-- The contents region 1 is entered with. -/
abbrev Vr3 (c : Dev nD) (b : Ref sig .tc) : Buf (Elt F) ((c : Thread nD τ).loc b) := GenV.V3 m (X0 m) c b
/-- What region 1 leaves in the attention outputs' array. -/
def X1 (c : Dev nD) : Buf (Elt F) ((c : Thread nD τ).loc main_v6) := (dat1 (Vr3 m) c).arrAt 3 cfg1.N
/-- The contents region 2 is entered with. -/
abbrev Vr5 (c : Dev nD) (b : Ref sig .tc) : Buf (Elt F) ((c : Thread nD τ).loc b) := GenV.V5 m (X0 m) (X1 m) c b
/-- What region 2 leaves in the projected array. -/
def X2 (c : Dev nD) : Buf (Elt F) ((c : Thread nD τ).loc main_v9) := (dat2 (Vr5 m) c).arrAt 3 cfg2.N

/-- Every pipeline's proof data, each at its region's entry contents. -/
def pdats : (p : Fin 3) → (c : Dev nD) → Dat τ (Elt F) Unit ℕ (UR sig nD τ) ℕ (Pipeline.pin (pcfgs (F := F)) GenV.adm p) c
  | ⟨0, _⟩ => fun c => dat0 (Vr1 m) c
  | ⟨1, _⟩ => fun c => dat1 (Vr3 m) c
  | ⟨2, _⟩ => fun c => dat2 (Vr5 m) c

abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

/-! ## Region 0 -/

theorem hF0 (c : Dev nD) (w : Fin cfg0.W) :
    (pdats m 0 c).arrAt w cfg0.N = (fun b : Ref sig .tc => GenV.V2 m (X0 m) c b) (Pipeline.arrRef spec0 w) := by
  match w with
  | ⟨0, _⟩ => exact (((dat0 (Vr1 m) c).arrAt_in 0 rfl _).trans (A_eq0 (Vr1 m) c 0)).trans (GenV.V2_of m (X0 m) c main_v1 (by decide)).symm
  | ⟨1, _⟩ => exact (((dat0 (Vr1 m) c).arrAt_in 1 rfl _).trans (A_eq0 (Vr1 m) c 1)).trans (GenV.V2_of m (X0 m) c main_v2 (by decide)).symm
  | ⟨2, _⟩ =>
    show _ = Function.update (GenV.V1 m c) (Proc.devRef .tc main_v4 : DevRef τ sig) (X0 m c) (Proc.devRef .tc main_v4)
    rw [Function.update_self]; rfl

theorem hrest0 (c : Dev nD) : ∀ b : Ref sig .tc, b ∉ Finset.univ.image (Pipeline.arrRef spec0) → GenV.V2 m (X0 m) c b = Vr1 m c b :=
  fun b hb => GenV.V2_of m (X0 m) c b fun h => hb (by
    rw [List.mem_singleton.mp h]; exact Finset.mem_image.mpr ⟨2, Finset.mem_univ _, rfl⟩)

set_option backward.isDefEq.respectTransparency.types false in
/-- Region 0 over the thread state. -/
def reg0 : RegionSeg (pcfgs (F := F)) GenV.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr1 m) c).loose
  hwaits := Pipeline.hwaits_of_owed_zero _ _ _ _ L lv 0 fun _ _ => rfl
  pre c := iprop(StableHlo.held (c : Thread nD τ) (Pipeline.ucRefs τ sig) (GenV.V1 m c) ∗ R c)
  post c := iprop(StableHlo.held (c : Thread nD τ) (Pipeline.ucRefs τ sig) (GenV.V2 m (X0 m) c) ∗ R c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit := Pipeline.arrays_of_unscopedBufs (p := 0) (pcfgs (F := F)) GenV.adm (pdats m) launch0.win launch0.arr_whole c
      ((pdats m 0 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) GenV.adm (Ix := Unit) (Name := ℕ) (U := UR sig nD τ) (Lvl := ℕ)
      launch0.win launch0.arr_whole c (pdats m) ((pdats m 0 c).share_full fun _ => rfl)
      (Vr1 m c) (fun b => GenV.V2 m (X0 m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

theorem hF2 (c : Dev nD) (w : Fin cfg2.W) :
    (pdats m 2 c).arrAt w cfg2.N = (fun b : Ref sig .tc => GenV.V6 m (X0 m) (X1 m) (X2 m) c b) (Pipeline.arrRef spec2 w) := by
  match w with
  | ⟨0, _⟩ => exact (((dat2 (Vr5 m) c).arrAt_in 0 rfl _).trans (A_eq2 (Vr5 m) c 0)).trans (GenV.V6_of m (X0 m) (X1 m) (X2 m) c main_v7 (by decide)).symm
  | ⟨1, _⟩ => exact (((dat2 (Vr5 m) c).arrAt_in 1 rfl _).trans (A_eq2 (Vr5 m) c 1)).trans (GenV.V6_of m (X0 m) (X1 m) (X2 m) c main_v3 (by decide)).symm
  | ⟨2, _⟩ => exact (((dat2 (Vr5 m) c).arrAt_in 2 rfl _).trans (A_eq2 (Vr5 m) c 2)).trans (GenV.V6_of m (X0 m) (X1 m) (X2 m) c main_v8 (by decide)).symm
  | ⟨3, _⟩ =>
    show _ = Function.update (GenV.V5 m (X0 m) (X1 m) c) (Proc.devRef .tc main_v9 : DevRef τ sig) (X2 m c) (Proc.devRef .tc main_v9)
    rw [Function.update_self]; rfl

theorem hrest2 (c : Dev nD) : ∀ b : Ref sig .tc, b ∉ Finset.univ.image (Pipeline.arrRef spec2) → GenV.V6 m (X0 m) (X1 m) (X2 m) c b = Vr5 m c b :=
  fun b hb => GenV.V6_of m (X0 m) (X1 m) (X2 m) c b fun h => hb (by
    rw [List.mem_singleton.mp h]; exact Finset.mem_image.mpr ⟨3, Finset.mem_univ _, rfl⟩)

set_option backward.isDefEq.respectTransparency.types false in
/-- Region 2 over the thread state. -/
def reg2 : RegionSeg (pcfgs (F := F)) GenV.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vr5 m) c).loose
  hwaits := Pipeline.hwaits_of_owed_zero _ _ _ _ L lv 2 fun _ _ => rfl
  pre c := iprop(StableHlo.held (c : Thread nD τ) (Pipeline.ucRefs τ sig) (GenV.V5 m (X0 m) (X1 m) c) ∗ R c)
  post c := iprop(StableHlo.held (c : Thread nD τ) (Pipeline.ucRefs τ sig) (GenV.V6 m (X0 m) (X1 m) (X2 m) c) ∗ R c)
  X c := iprop(∃ r, prngReg c r)
  Y c := iprop(∃ r, prngReg c r)
  Z c := Pipeline.unscopedRest (Ix := Unit) (Name := ℕ) (U := UR sig nD τ) (Lvl := ℕ) spec2 c (Vr5 m c)
  hentry c := by
    rw [Pipeline.ownSems0_none]
    have hsplit := Pipeline.arrays_of_unscopedBufs (p := 2) (pcfgs (F := F)) GenV.adm (pdats m) launch2.win launch2.arr_whole c
      ((pdats m 2 c).share_full fun _ => rfl) (Vr5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) GenV.adm (Ix := Unit) (Name := ℕ) (U := UR sig nD τ) (Lvl := ℕ)
      launch2.win launch2.arr_whole c (pdats m) ((pdats m 2 c).share_full fun _ => rfl)
      (Vr5 m c) (fun b => GenV.V6 m (X0 m) (X1 m) (X2 m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1: the three input windows share the fused projection's array -/

theorem hG1in (c : Dev nD) (w : Fin cfg1.W) : (pdats m 1 c).arrAt w 0 = Vr3 m c (Pipeline.arrRef spec1 w) :=
  (show (pdats m 1 c).arrAt w 0 = (dat1 (Vr3 m) c).A w from rfl).trans (A_eq1 (Vr3 m) c w)

theorem hF1 (c : Dev nD) (w : Fin cfg1.W) :
    (pdats m 1 c).arrAt w cfg1.N = (fun b : Ref sig .tc => GenV.V4 m (X0 m) (X1 m) c b) (Pipeline.arrRef spec1 w) := by
  match w with
  | ⟨0, _⟩ => exact (((dat1 (Vr3 m) c).arrAt_in 0 rfl _).trans (A_eq1 (Vr3 m) c 0)).trans (GenV.V4_of m (X0 m) (X1 m) c main_v5 (by decide)).symm
  | ⟨1, _⟩ => exact (((dat1 (Vr3 m) c).arrAt_in 1 rfl _).trans (A_eq1 (Vr3 m) c 1)).trans (GenV.V4_of m (X0 m) (X1 m) c main_v5 (by decide)).symm
  | ⟨2, _⟩ => exact (((dat1 (Vr3 m) c).arrAt_in 2 rfl _).trans (A_eq1 (Vr3 m) c 2)).trans (GenV.V4_of m (X0 m) (X1 m) c main_v5 (by decide)).symm
  | ⟨3, _⟩ =>
    show _ = Function.update (GenV.V3 m (X0 m) c) (Proc.devRef .tc main_v6 : DevRef τ sig) (X1 m c) (Proc.devRef .tc main_v6)
    rw [Function.update_self]; rfl

theorem hrest1 (c : Dev nD) : ∀ b : Ref sig .tc, b ∉ Finset.univ.image (Pipeline.arrRef spec1) → GenV.V4 m (X0 m) (X1 m) c b = Vr3 m c b :=
  fun b hb => GenV.V4_of m (X0 m) (X1 m) c b fun h => hb (by
    rw [List.mem_singleton.mp h]; exact Finset.mem_image.mpr ⟨3, Finset.mem_univ _, rfl⟩)

set_option backward.isDefEq.respectTransparency.types false in
/-- Region 1 over the thread state. -/
def reg1 : RegionSeg (pcfgs (F := F)) GenV.adm (pdats m) () defs₀ 𝒱₀ L lv 1 where
  win := winFacts₀1
  block_pos := block_pos1
  stage_whole := stage_whole1
  K := PEmpty
  osem k := k.elim
  ho := Pipeline.OwnSemFacts.none _
  hbody c := (body_obligation1 (Vr3 m) c).loose
  hwaits := Pipeline.hwaits_of_owed_zero _ _ _ _ L lv 1 fun _ _ => rfl
  pre c := iprop(StableHlo.held (c : Thread nD τ) (Pipeline.ucRefs τ sig) (GenV.V3 m (X0 m) c) ∗ R c)
  post c := iprop(StableHlo.held (c : Thread nD τ) (Pipeline.ucRefs τ sig) (GenV.V4 m (X0 m) (X1 m) c) ∗ R c)
  X c := iprop(∃ r, prngReg c r)
  Y c := iprop(∃ r, prngReg c r)
  Z c := Pipeline.unscopedRest (Ix := Unit) (Name := ℕ) (U := UR sig nD τ) (Lvl := ℕ) spec1 c (Vr3 m c)
  hentry c := by
    rw [Pipeline.ownSems0_none]
    have hsplit : (unscopedBufs c (Vr3 m c) : sProp 𝕄)
        ⊢ iprop((pdats m 1 c).arrays ((pdats m 1 c).arrAt · 0) ∗ Pipeline.unscopedRest spec1 c (Vr3 m c)) := by
      rw [Pipeline.unscopedBufs_split₀ cfgs 1 winFacts₀1.arr_unscoped c (Vr3 m c)]
      exact sep_mono (arrays1_of_bufs (Vr3 m) c (Vr3 m c) _ (hG1in m c)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (Vr3 m c))
        ⊢ (unscopedBufs c (fun b : Ref sig .tc => GenV.V4 m (X0 m) (X1 m) c b) : sProp 𝕄) := by
      rw [Pipeline.unscopedBufs_split₀ cfgs 1 winFacts₀1.arr_unscoped c (fun b : Ref sig .tc => GenV.V4 m (X0 m) (X1 m) c b)]
      refine sep_mono (bufs_of_arrays1 (Vr3 m) c _ _ (hF1 m c)) (Entails.of_eq ?_)
      unfold Pipeline.unscopedRest
      exact bigSep_congr fun b hb => by dsimp only; rw [hrest1 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of the program from memory `m` with zero counters terminates; the result buffer ends at the
    last valuation's contents and the four argument arrays as launched. -/
theorem run_value : θ_run defs (onTc (τ := τ) (main (F := F))) ⟨m, fun _ => 0, ρ⟩ (fun r => ∀ c : Dev nD,
      r.2.mem ((c.tc : Thread nD τ).loc main_v10) = GenV.V7 m (X0 m) (X1 m) (X2 m) c main_v10
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  GenV.frame_condV m (X0 m) (X1 m) (X2 m) emb₁ () 𝒱₀ L lv (fun _ _ => rfl) ρ (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (Pipeline.initEach L lv fun c => by
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun _ => .rfl)
    (reg1 m) (fun _ => .rfl) (fun _ => .rfl)
    (reg2 m) (fun _ => .rfl) (fun _ => .rfl)

end Cert.Kernel.Hand

end
-- ==== Proof.KI.R0.lean ====
/-
  The first linear layer's region, at the buffer contents `V` the region is entered from: the grid has eight points,
  point `t` reads rows 1024·t … 1024·t + 1023 of the activations and the whole weight matrix, and leaves in the
  output window's staging buffer the product of the two blocks (one store of the whole block).
-/
import proofs.«423178_j21577915695182_3_alg».proof.Proof.Gen.KernelIdeal.Launch
import proofs.«423178_j21577915695182_3_alg».proof.Proof.Gen.KernelIdeal.Skeleton
import proofs.«423178_j21577915695182_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_a : Rect S1024x1024 := Rect.unit (s := S1024x1024) ![0, 0] S1024x1024.size inb_S1024x1024_S1024x1024_0_0
abbrev r0_b : Rect S3072x1024 := Rect.unit (s := S3072x1024) ![0, 0] S3072x1024.size inb_S3072x1024_S3072x1024_0_0
abbrev r0_o : Rect S1024x3072 := Rect.unit (s := S1024x3072) ![0, 0] S1024x3072.size inb_S1024x3072_S1024x3072_0_0

/-- What the body leaves in the output window's buffer: its one store, of the product of the two input blocks. -/
def out0_2 (x0 : Vec F S1024x1024 .bf16) (x1 : Vec F S3072x1024 .bf16) : Vec F S1024x3072 .bf16 :=
  View.canon [⟨r0_o, k0_pay1 (View.ld x0 r0_a) (View.ld x1 r0_b)⟩]

theorem cover0_2 (p0 : Vec F S1024x3072 .bf16) (y : S1024x3072.Idx) :
    ∃ pc ∈ ([⟨r0_o, p0⟩] : List (View.Piece (Elt F) S1024x3072 .bf16)), y ∈ pc.1.set :=
  View.cover_of_tiled [⟨r0_o, p0⟩] S1024x3072.size (by rfl) y

set_option maxHeartbeats 1000000 in
/-- The body on whole staging buffers: the inputs' are kept, the output's ends at `out0_2` of the inputs'. -/
theorem sound_kernel0 (c : Dev nD) (E : Set ℕ) (i : grid0.Coords)
    (arg1 : Memref sig .tc .vmem S1024x1024 .bf16) (harg1 : arg1.IsWhole) (arg2 : Memref sig .tc .vmem S3072x1024 .bf16) (harg2 : arg2.IsWhole)
    (arg3 : Memref sig .tc .vmem S1024x3072 .bf16) (harg3 : arg3.IsWhole)
    (x0 : Vec F S1024x1024 .bf16) (x1 : Vec F S3072x1024 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__linear_nobias_kernel i arg1 harg1 arg2 harg2 arg3 harg3) K := by
  simp only [cc0__linear_nobias_kernel_eq_skeleton]; unfold cc0__linear_nobias_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of this pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of this pipeline, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
/-
  The attention region, at the buffer contents `V` the region is entered from. The grid is 4 × 8: point `(b, i)`
  reads query rows 256·i … 256·i + 255 of batch `b` (all sixteen heads) and the batch's 2048 key and value rows,
  all three windows blocks of the one fused projection array, and leaves in the output window's staging buffer, head by
  head, the softmax-weighted values of the block's rows. Each head's result is stored as one bf16 row of a two-row word:
  the store reads the word pair's block back and writes it with that head's rows replaced, so after the sixteen stores
  every entry of the buffer is the head's result there, whatever the buffer held before.
-/
import proofs.«423178_j21577915695182_3_alg».proof.Proof.Gen.KernelIdeal.Launch
import proofs.«423178_j21577915695182_3_alg».proof.Proof.Gen.KernelIdeal.Skeleton
import proofs.«423178_j21577915695182_3_alg».proof.Proof.Gen.KernelIdeal.Points
import Idealize.ShloMosaic.Lib.ValueIdx
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- One head's attention on its 256 query rows, 2048 key rows and 2048 value rows: the scaled scores, their row maxima,
    the exponentials, their row sums, the weighted values, the quotient — the body's operations for one head, in order. -/
def head1 (q : FVec F S256x64 .bf16) (k : FVec F S2048x64 .bf16) (v : FVec F S2048x64 .bf16) : FVec F S256x64 .bf16 :=
  have cst : FVec F S256x2048 .f32 := constant S256x2048 .f32 0x00000000#32
  have v6 : FVec F S256x2048 .f32 := matmul dot_S256x64_S2048x64_S256x2048_1_1_0_0_n_n none q k cst
  have cst_14 : F .f32 := Scalar.ofBits .f32 0x3E000000#32
  have v7 : FVec F S256x2048 .f32 := broadcast S256x2048 cst_14
  have v8 : FVec F S256x2048 .f32 := mulf v6 v7
  have v9 : FVec F S256 .f32 := multiReduction .maximumf [1] S256 v8 0xFF800000#32 reduces_S256x2048_S256 (.inl rfl) rfl
  have v10 : FVec F S256x1 .f32 := shapeCast S256x1 v9 shapeCasts_S256_S256x1
  have v11 : FVec F S256x2048 .f32 := broadcastTo S256x2048 v10 broadcasts_S256x1_S256x2048
  have v12 : FVec F S256x2048 .f32 := subf v8 v11
  have v13 : FVec F S256x2048 .f32 := exp v12
  have v14 : FVec F S256 .f32 := multiReduction .add [1] S256 v13 0x00000000#32 reduces_S256x2048_S256 (.inl rfl) rfl
  have v15 : FVec F S256x1 .f32 := shapeCast S256x1 v14 shapeCasts_S256_S256x1
  have v16 : FVec F S256x2048 .bf16 := truncf .bf16 v13 bitsLt_bf16_f32
  have cst_17 : FVec F S256x64 .f32 := constant S256x64 .f32 0x00000000#32
  have v17 : FVec F S256x64 .f32 := matmul dot_S256x2048_S2048x64_S256x64_1_0_0_1_n_n none v16 v cst_17
  have v18 : FVec F S256x64 .f32 := broadcastTo S256x64 v15 broadcasts_S256x1_S256x64
  have v19 : FVec F S256x64 .f32 := divf v17 v18
  have v20 : FVec F S256x64 .bf16 := truncf .bf16 v19 bitsLt_bf16_f32
  v20

/-- What the body leaves in the output window's buffer: at row `r`, head `h`, lane `d` of the block, head `h`'s
    attention of the query block's head-`h` rows against the key and value blocks' head-`h` rows, at `(r, d)`. -/
def out1_3 (x0 : Vec F S1x256x1x16x64 .bf16) (x1 : Vec F S1x2048x1x16x64 .bf16) (x2 : Vec F S1x2048x1x16x64 .bf16) : Vec F S1x256x16x64 .bf16 :=
  fun y => head1 (fun j => x0 (ix5 (0 : Fin 1) (j 0) (0 : Fin 1) (y 2) (j 1)))
    (fun j => x1 (ix5 (0 : Fin 1) (j 0) (0 : Fin 1) (y 2) (j 1)))
    (fun j => x2 (ix5 (0 : Fin 1) (j 0) (0 : Fin 1) (y 2) (j 1))) (ix2 (y 1) (y 3))

/-! ### The two shape casts of one head, read at an index -/

/-- One head's rows of a block `[1, n, 1, 16, 64]`, loaded as `[1, n, 1, 1, 64]` and viewed `[n, 64]`: row `i`, lane `l`
    is the block at `(0, i, 0, h, l)`. -/
theorem headRows_eq {α : Type} {n : ℕ} (X : (⟨5, ![1, n, 1, 16, 64]⟩ : Shape).Idx → α) (h : ℕ) (hh : h < 16)
    (inb : ∀ a, (![0, 0, 0, h, 0] : Fin 5 → ℕ) a + (![1, n, 1, 1, 64] : Fin 5 → ℕ) a ≤ (⟨5, ![1, n, 1, 16, 64]⟩ : Shape).size a)
    (c : (⟨5, ![1, n, 1, 1, 64]⟩ : Shape).ShapeCasts ⟨2, ![n, 64]⟩) :
    shapeCast ⟨2, ![n, 64]⟩ (fun x => X ((Rect.unit (s := ⟨5, ![1, n, 1, 16, 64]⟩) ![0, 0, 0, h, 0] ![1, n, 1, 1, 64] inb).idx x)) c
      = fun j => X (ix5 (0 : Fin 1) (j 0) (0 : Fin 1) (⟨h, hh⟩ : Fin 16) (j 1)) := by
  funext j
  refine (shapeCast_apply _ c j (ix5 (0 : Fin 1) (j 0) (0 : Fin 1) (0 : Fin 1) (j 1)) ?_).trans ?_
  · rw [Shape.rowMajor_val_five, Shape.rowMajor_val_two]
    show ((((0 * n + (j 0).val) * 1 + 0) * 1 + 0) * 64 + (j 1).val) = (j 0).val * 64 + (j 1).val
    simp only [Nat.zero_mul, Nat.zero_add, Nat.mul_one, Nat.add_zero]
  · refine congrArg X (funext fun a => Fin.ext ?_)
    match a with
    | ⟨0, _⟩ => rfl
    | ⟨1, _⟩ => show 0 + 1 * (j 0).val = (j 0).val; omega
    | ⟨2, _⟩ => rfl
    | ⟨3, _⟩ => show h + 1 * 0 = h; omega
    | ⟨4, _⟩ => show 0 + 1 * (j 1).val = (j 1).val; omega

/-- A `[256, 64]` value stored as a `[1, 256, 1, 64]` piece reads, at `(0, r, 0, l)`, the value at `(r, l)`. -/
theorem headPiece_apply {α : Type} (V : (⟨2, ![256, 64]⟩ : Shape).Idx → α)
    (c : (⟨2, ![256, 64]⟩ : Shape).ShapeCasts ⟨4, ![1, 256, 1, 64]⟩) (r : Fin 256) (l : Fin 64) :
    shapeCast ⟨4, ![1, 256, 1, 64]⟩ V c (ix4 (0 : Fin 1) r (0 : Fin 1) l) = V (ix2 r l) :=
  shapeCast_apply V c _ _ (by
    rw [Shape.rowMajor_val_four, Shape.rowMajor_val_two]
    show r.val * 64 + l.val = ((0 * 256 + r.val) * 1 + 0) * 64 + l.val
    simp only [Nat.zero_mul, Nat.zero_add, Nat.mul_one, Nat.add_zero])

/-- The value stored for head `h`, at row `r` and lane `l` of its piece, is `out1_3` there. -/
theorem headVal_apply (X0 : Vec F S1x256x1x16x64 .bf16) (X1 : Vec F S1x2048x1x16x64 .bf16) (X2 : Vec F S1x2048x1x16x64 .bf16)
    (h : ℕ) (hh : h < 16)
    (inbq : ∀ a, (![0, 0, 0, h, 0] : Fin 5 → ℕ) a + S1x256x1x1x64.size a ≤ S1x256x1x16x64.size a)
    (inbk : ∀ a, (![0, 0, 0, h, 0] : Fin 5 → ℕ) a + S1x2048x1x1x64.size a ≤ S1x2048x1x16x64.size a)
    (inbv : ∀ a, (![0, 0, 0, h, 0] : Fin 5 → ℕ) a + S1x2048x1x1x64.size a ≤ S1x2048x1x16x64.size a)
    (cq : S1x256x1x1x64.ShapeCasts S256x64) (ck : S1x2048x1x1x64.ShapeCasts S2048x64) (cv : S1x2048x1x1x64.ShapeCasts S2048x64)
    (co : S256x64.ShapeCasts S1x256x1x64) (r : Fin 256) (l : Fin 64) :
    shapeCast S1x256x1x64
        (head1 (shapeCast S256x64 (View.ld X0 (Rect.unit (s := S1x256x1x16x64) ![0, 0, 0, h, 0] S1x256x1x1x64.size inbq)) cq)
          (shapeCast S2048x64 (View.ld X1 (Rect.unit (s := S1x2048x1x16x64) ![0, 0, 0, h, 0] S1x2048x1x1x64.size inbk)) ck)
          (shapeCast S2048x64 (View.ld X2 (Rect.unit (s := S1x2048x1x16x64) ![0, 0, 0, h, 0] S1x2048x1x1x64.size inbv)) cv))
        co (ix4 (0 : Fin 1) r (0 : Fin 1) l)
      = out1_3 X0 X1 X2 (ix4 (0 : Fin 1) r (⟨h, hh⟩ : Fin 16) l) := by
  refine (headPiece_apply _ co r l).trans ?_
  have eq := headRows_eq X0 h hh inbq cq
  have ek := headRows_eq X1 h hh inbk ck
  have ev := headRows_eq X2 h hh inbv cv
  show head1 _ _ _ (ix2 r l) = head1 _ _ _ (ix2 r l)
  exact congrArg (fun t => t (ix2 r l)) (congr (congr (congrArg head1 eq) ek) ev)

/-! ### Two heads' stores into one two-row block -/

section Blocks
variable {sg : RefSig} {κ : Kind} {sp : Space} {Val : EltTy → Type} {e : EltTy}

/-- A block of two heads' rows in which head 0's are `A` and head 1's are `B`, whatever it held, read at an index. -/
theorem twoHeads_apply {α : Type} (old : S1x256x2x64.Idx → α) (A B : S1x256x1x64.Idx → α)
    (h0 : S1x256x2x64.Slices ![0, 0, 0, 0] S1x256x1x64) (h1 : S1x256x2x64.Slices ![0, 0, 1, 0] S1x256x1x64)
    (x : S1x256x2x64.Idx) :
    updateSlice (updateSlice old A ![0, 0, 0, 0] h0) B ![0, 0, 1, 0] h1 x
      = if (x 2).val = 0 then A (ix4 (0 : Fin 1) (x 1) (0 : Fin 1) (x 3)) else B (ix4 (0 : Fin 1) (x 1) (0 : Fin 1) (x 3)) := by
  have b0 : (x 0).val < 1 := (x 0).isLt
  have b1 : (x 1).val < 256 := (x 1).isLt
  have b2 : (x 2).val < 2 := (x 2).isLt
  have b3 : (x 3).val < 64 := (x 3).isLt
  by_cases hx : (x 2).val = 0
  · rw [if_pos hx]
    unfold updateSlice
    rw [dif_neg (fun hin => by have := (hin 2).1; change 1 ≤ (x 2).val at this; omega)]
    rw [dif_pos (fun a => match a with
      | ⟨0, _⟩ => ⟨Nat.zero_le _, by show (x 0).val < 0 + 1; omega⟩
      | ⟨1, _⟩ => ⟨Nat.zero_le _, by show (x 1).val < 0 + 256; omega⟩
      | ⟨2, _⟩ => ⟨Nat.zero_le _, by show (x 2).val < 0 + 1; omega⟩
      | ⟨3, _⟩ => ⟨Nat.zero_le _, by show (x 3).val < 0 + 64; omega⟩)]
    refine congrArg A (funext fun b => Fin.ext ?_)
    match b with
    | ⟨0, _⟩ => show (x 0).val - 0 = 0; omega
    | ⟨1, _⟩ => show (x 1).val - 0 = (x 1).val; omega
    | ⟨2, _⟩ => show (x 2).val - 0 = 0; omega
    | ⟨3, _⟩ => show (x 3).val - 0 = (x 3).val; omega
  · rw [if_neg hx]
    unfold updateSlice
    rw [dif_pos (fun a => match a with
      | ⟨0, _⟩ => ⟨Nat.zero_le _, by show (x 0).val < 0 + 1; omega⟩
      | ⟨1, _⟩ => ⟨Nat.zero_le _, by show (x 1).val < 0 + 256; omega⟩
      | ⟨2, _⟩ => ⟨by show 1 ≤ (x 2).val; omega, by show (x 2).val < 1 + 1; omega⟩
      | ⟨3, _⟩ => ⟨Nat.zero_le _, by show (x 3).val < 0 + 64; omega⟩)]
    refine congrArg B (funext fun b => Fin.ext ?_)
    match b with
    | ⟨0, _⟩ => show (x 0).val - 0 = 0; omega
    | ⟨1, _⟩ => show (x 1).val - 0 = (x 1).val; omega
    | ⟨2, _⟩ => show (x 2).val - 1 = 0; omega
    | ⟨3, _⟩ => show (x 3).val - 0 = (x 3).val; omega

variable (v : View sg κ sp S1x256x16x64 e) (f : v.ty.Contents Val) (G : S1x256x16x64.Idx → Val e)

/-- After the stores `L`, every entry of a head below `n` is `G`'s. -/
def HeadsDone (n : ℕ) (L : List (View.Piece Val S1x256x16x64 e)) : Prop :=
  ∀ y : S1x256x16x64.Idx, (y 2).val < n → v.read Val (v.writes Val f L) y = G y

theorem headsDone_zero (L : List (View.Piece Val S1x256x16x64 e)) : HeadsDone v f G 0 L :=
  fun y hy => absurd hy (Nat.not_lt_zero _)

/-- Two more heads: the block of heads `o`, `o + 1` stored once with head `o`'s rows replaced, read back, and stored again
    with head `o + 1`'s replaced too. -/
theorem headsDone_step [∀ e, Nonempty (Val e)] (o n : ℕ) (ho : o + 2 ≤ 16) (hn : n = o + 2)
    (inb : ∀ a, (![0, 0, o, 0] : Fin 4 → ℕ) a + S1x256x2x64.size a ≤ S1x256x16x64.size a)
    (old : (Rect.unit (s := S1x256x16x64) ![0, 0, o, 0] S1x256x2x64.size inb).shape.Idx → Val e)
    (A B : S1x256x1x64.Idx → Val e)
    (h0 : S1x256x2x64.Slices ![0, 0, 0, 0] S1x256x1x64) (h1 : S1x256x2x64.Slices ![0, 0, 1, 0] S1x256x1x64)
    (L : List (View.Piece Val S1x256x16x64 e))
    (hL : HeadsDone v f G o L)
    (hA : ∀ (r : Fin 256) (l : Fin 64), A (ix4 (0 : Fin 1) r (0 : Fin 1) l) = G (ix4 (0 : Fin 1) r (⟨o, by omega⟩ : Fin 16) l))
    (hB : ∀ (r : Fin 256) (l : Fin 64), B (ix4 (0 : Fin 1) r (0 : Fin 1) l) = G (ix4 (0 : Fin 1) r (⟨o + 1, by omega⟩ : Fin 16) l)) :
    HeadsDone v f G n
      (⟨Rect.unit (s := S1x256x16x64) ![0, 0, o, 0] S1x256x2x64.size inb,
          updateSlice (v.readCov (⟨Rect.unit (s := S1x256x16x64) ![0, 0, o, 0] S1x256x2x64.size inb, updateSlice old A ![0, 0, 0, 0] h0⟩ :: L)
            (Rect.unit (s := S1x256x16x64) ![0, 0, o, 0] S1x256x2x64.size inb).toLoadRect) B ![0, 0, 1, 0] h1⟩
        :: ⟨Rect.unit (s := S1x256x16x64) ![0, 0, o, 0] S1x256x2x64.size inb, updateSlice old A ![0, 0, 0, 0] h0⟩ :: L) := by
  subst hn
  intro y hy
  by_cases hlo : (y 2).val < o
  · rw [View.read_writes_cons_unit_of_not_mem v f inb _ _ y rfl 2 (Or.inl hlo),
      View.read_writes_cons_unit_of_not_mem v f inb _ _ y rfl 2 (Or.inl hlo)]
    exact hL y hlo
  · have b0 : (y 0).val < 1 := (y 0).isLt
    have b1 : (y 1).val < 256 := (y 1).isLt
    have b3 : (y 3).val < 64 := (y 3).isLt
    have hm : y ∈ (Rect.unit (s := S1x256x16x64) ![0, 0, o, 0] S1x256x2x64.size inb).set :=
      Rect.mem_set_unit.mpr fun a => match a with
        | ⟨0, _⟩ => ⟨Nat.zero_le _, by show (y 0).val < 0 + 1; omega⟩
        | ⟨1, _⟩ => ⟨Nat.zero_le _, by show (y 1).val < 0 + 256; omega⟩
        | ⟨2, _⟩ => ⟨by show o ≤ (y 2).val; omega, by show (y 2).val < o + 2; omega⟩
        | ⟨3, _⟩ => ⟨Nat.zero_le _, by show (y 3).val < 0 + 64; omega⟩
    obtain ⟨x, rfl⟩ := (Rect.unit (s := S1x256x16x64) ![0, 0, o, 0] S1x256x2x64.size inb).exists_idx_of_mem hm
    refine (View.read_writes_cons_emb v f _ _ _ x).trans ?_
    rw [View.readCov_cons_toLoadRect]
    refine (twoHeads_apply old A B h0 h1 x).trans ?_
    have c2 : (x 2).val < 2 := (x 2).isLt
    have e0 : ∀ (t : Fin 16), (t.val = o + (x 2).val) →
        ((Rect.unit (s := S1x256x16x64) ![0, 0, o, 0] S1x256x2x64.size inb).toLoadRect.idx x) = ix4 (0 : Fin 1) (x 1) t (x 3) := by
      intro t ht
      funext a
      refine Fin.ext ?_
      match a with
      | ⟨0, _⟩ => show 0 + 1 * (x 0).val = 0; have := (x 0).isLt; change (x 0).val < 1 at this; omega
      | ⟨1, _⟩ => show 0 + 1 * (x 1).val = (x 1).val; omega
      | ⟨2, _⟩ => show o + 1 * (x 2).val = t.val; omega
      | ⟨3, _⟩ => show 0 + 1 * (x 3).val = (x 3).val; omega
    by_cases hx : (x 2).val = 0
    · rw [if_pos hx]
      exact (hA _ _).trans (congrArg G (e0 ⟨o, by omega⟩ (by show o = o + (x 2).val; omega)).symm)
    · rw [if_neg hx]
      exact (hB _ _).trans (congrArg G (e0 ⟨o + 1, by omega⟩ (by show o + 1 = o + (x 2).val; omega)).symm)

end Blocks

theorem headsDone_all {sg : RefSig} {κ : Kind} {sp : Space} {Val : EltTy → Type} {e : EltTy}
    (v : View sg κ sp S1x256x16x64 e) (f : v.ty.Contents Val) (G : S1x256x16x64.Idx → Val e)
    (L : List (View.Piece Val S1x256x16x64 e)) (h : HeadsDone v f G 16 L) : v.read Val (v.writes Val f L) = G :=
  funext fun y => h y (y 2).isLt

set_option maxHeartbeats 4000000 in
/-- The body on whole staging buffers: the inputs' are kept, the output's ends at `out1_3` of the inputs', whatever it held. -/
theorem sound_kernel1 (c : Dev nD) (E : Set ℕ) (i : grid1.Coords)
    (arg2 : Memref sig .tc .vmem S1x256x1x16x64 .bf16) (harg2 : arg2.IsWhole)
    (arg3 : Memref sig .tc .vmem S1x2048x1x16x64 .bf16) (harg3 : arg3.IsWhole)
    (arg4 : Memref sig .tc .vmem S1x2048x1x16x64 .bf16) (harg4 : arg4.IsWhole)
    (arg5 : Memref sig .tc .vmem S1x256x16x64 .bf16) (harg5 : arg5.IsWhole)
    (x0 : Vec F S1x256x1x16x64 .bf16) (x1 : Vec F S1x2048x1x16x64 .bf16) (x2 : Vec F S1x2048x1x16x64 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1_3 x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine headsDone_all arg5.view f3 _ _ ?_
  -- heads 14, 15
  unfold sound_kernel1.sl.H3_15
  refine headsDone_step arg5.view f3 _ 14 16 (by decide) rfl _ _ _ _ _ _ _ ?_ (fun r l => ?_) (fun r l => ?_)
  rotate_left
  · exact headVal_apply (arg2.view.read (Elt F) f0) (arg3.view.read (Elt F) f1) (arg4.view.read (Elt F) f2) 14 (by decide) _ _ _ _ _ _ _ r l
  · exact headVal_apply (arg2.view.read (Elt F) f0) (arg3.view.read (Elt F) f1) (arg4.view.read (Elt F) f2) 15 (by decide) _ _ _ _ _ _ _ r l
  -- heads 12, 13
  unfold sound_kernel1.sl.H3_13
  refine headsDone_step arg5.view f3 _ 12 14 (by decide) rfl _ _ _ _ _ _ _ ?_ (fun r l => ?_) (fun r l => ?_)
  rotate_left
  · exact headVal_apply (arg2.view.read (Elt F) f0) (arg3.view.read (Elt F) f1) (arg4.view.read (Elt F) f2) 12 (by decide) _ _ _ _ _ _ _ r l
  · exact headVal_apply (arg2.view.read (Elt F) f0) (arg3.view.read (Elt F) f1) (arg4.view.read (Elt F) f2) 13 (by decide) _ _ _ _ _ _ _ r l
  -- heads 10, 11
  unfold sound_kernel1.sl.H3_11
  refine headsDone_step arg5.view f3 _ 10 12 (by decide) rfl _ _ _ _ _ _ _ ?_ (fun r l => ?_) (fun r l => ?_)
  rotate_left
  · exact headVal_apply (arg2.view.read (Elt F) f0) (arg3.view.read (Elt F) f1) (arg4.view.read (Elt F) f2) 10 (by decide) _ _ _ _ _ _ _ r l
  · exact headVal_apply (arg2.view.read (Elt F) f0) (arg3.view.read (Elt F) f1) (arg4.view.read (Elt F) f2) 11 (by decide) _ _ _ _ _ _ _ r l
  -- heads 8, 9
  unfold sound_kernel1.sl.H3_9
  refine headsDone_step arg5.view f3 _ 8 10 (by decide) rfl _ _ _ _ _ _ _ ?_ (fun r l => ?_) (fun r l => ?_)
  rotate_left
  · exact headVal_apply (arg2.view.read (Elt F) f0) (arg3.view.read (Elt F) f1) (arg4.view.read (Elt F) f2) 8 (by decide) _ _ _ _ _ _ _ r l
  · exact headVal_apply (arg2.view.read (Elt F) f0) (arg3.view.read (Elt F) f1) (arg4.view.read (Elt F) f2) 9 (by decide) _ _ _ _ _ _ _ r l
  -- heads 6, 7
  unfold sound_kernel1.sl.H3_7
  refine headsDone_step arg5.view f3 _ 6 8 (by decide) rfl _ _ _ _ _ _ _ ?_ (fun r l => ?_) (fun r l => ?_)
  rotate_left
  · exact headVal_apply (arg2.view.read (Elt F) f0) (arg3.view.read (Elt F) f1) (arg4.view.read (Elt F) f2) 6 (by decide) _ _ _ _ _ _ _ r l
  · exact headVal_apply (arg2.view.read (Elt F) f0) (arg3.view.read (Elt F) f1) (arg4.view.read (Elt F) f2) 7 (by decide) _ _ _ _ _ _ _ r l
  -- heads 4, 5
  unfold sound_kernel1.sl.H3_5
  refine headsDone_step arg5.view f3 _ 4 6 (by decide) rfl _ _ _ _ _ _ _ ?_ (fun r l => ?_) (fun r l => ?_)
  rotate_left
  · exact headVal_apply (arg2.view.read (Elt F) f0) (arg3.view.read (Elt F) f1) (arg4.view.read (Elt F) f2) 4 (by decide) _ _ _ _ _ _ _ r l
  · exact headVal_apply (arg2.view.read (Elt F) f0) (arg3.view.read (Elt F) f1) (arg4.view.read (Elt F) f2) 5 (by decide) _ _ _ _ _ _ _ r l
  -- heads 2, 3
  unfold sound_kernel1.sl.H3_3
  refine headsDone_step arg5.view f3 _ 2 4 (by decide) rfl _ _ _ _ _ _ _ ?_ (fun r l => ?_) (fun r l => ?_)
  rotate_left
  · exact headVal_apply (arg2.view.read (Elt F) f0) (arg3.view.read (Elt F) f1) (arg4.view.read (Elt F) f2) 2 (by decide) _ _ _ _ _ _ _ r l
  · exact headVal_apply (arg2.view.read (Elt F) f0) (arg3.view.read (Elt F) f1) (arg4.view.read (Elt F) f2) 3 (by decide) _ _ _ _ _ _ _ r l
  -- heads 0, 1
  unfold sound_kernel1.sl.H3_1
  refine headsDone_step arg5.view f3 _ 0 2 (by decide) rfl _ _ _ _ _ _ _ ?_ (fun r l => ?_) (fun r l => ?_)
  rotate_left
  · exact headVal_apply (arg2.view.read (Elt F) f0) (arg3.view.read (Elt F) f1) (arg4.view.read (Elt F) f2) 0 (by decide) _ _ _ _ _ _ _ r l
  · exact headVal_apply (arg2.view.read (Elt F) f0) (arg3.view.read (Elt F) f1) (arg4.view.read (Elt F) f2) 1 (by decide) _ _ _ _ _ _ _ r l
  exact headsDone_zero arg5.view f3 _ []

/-- The proof data of this pipeline on core `c`: the three input windows share the fused projection's array, each at a third
    of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of this pipeline, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
/-
  The output projection's region, at the buffer contents `V` the region is entered from: the grid has eight points,
  point `t` reads rows 1024·t … 1024·t + 1023 of the attention outputs, the whole weight matrix and the bias row, and
  leaves in the output window's staging buffer the product of the two blocks plus the bias (one store of the whole block).
-/
import proofs.«423178_j21577915695182_3_alg».proof.Proof.Gen.KernelIdeal.Launch
import proofs.«423178_j21577915695182_3_alg».proof.Proof.Gen.KernelIdeal.Skeleton
import proofs.«423178_j21577915695182_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_a : Rect S1024x1024 := Rect.unit (s := S1024x1024) ![0, 0] S1024x1024.size inb_S1024x1024_S1024x1024_0_0
abbrev r2_c : Rect S1x1024 := Rect.unit (s := S1x1024) ![0, 0] S1x1024.size inb_S1x1024_S1x1024_0_0

/-- What the body leaves in the output window's buffer: its one store, of the product of the two blocks plus the bias row. -/
def out2_3 (x0 : Vec F S1024x1024 .bf16) (x1 : Vec F S1024x1024 .bf16) (x2 : Vec F S1x1024 .f32) : Vec F S1024x1024 .f32 :=
  View.canon [⟨r2_a, k2_pay1 (View.ld x0 r2_a) (View.ld x1 r2_a) (View.ld x2 r2_c)⟩]

theorem cover2_3 (p0 : Vec F S1024x1024 .f32) (y : S1024x1024.Idx) :
    ∃ pc ∈ ([⟨r2_a, p0⟩] : List (View.Piece (Elt F) S1024x1024 .f32)), y ∈ pc.1.set :=
  View.cover_of_tiled [⟨r2_a, p0⟩] S1024x1024.size (by rfl) y

set_option maxHeartbeats 1000000 in
/-- The body on whole staging buffers: the inputs' are kept, the output's ends at `out2_3` of the inputs'. -/
theorem sound_kernel2 (c : Dev nD) (E : Set ℕ) (i : grid2.Coords)
    (arg1 : Memref sig .tc .vmem S1024x1024 .bf16) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S1024x1024 .f32) (harg4 : arg4.IsWhole)
    (x0 : Vec F S1024x1024 .bf16) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__linear_bias_kernel i arg1 harg1 arg2 harg2 arg3 harg3 arg4 harg4) K := by
  simp only [cc2__linear_bias_kernel_eq_skeleton]; unfold cc2__linear_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of this pipeline on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of this pipeline, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Share1.lean ====
/-
  The attention region's three input windows are blocks of ONE array, the fused projection. The region holds that array's
  buffer in three shares that compose to the full share — one per window — and its output array's buffer outright: so the
  two buffers behind the four windows, each whole at the full share, are exactly the region's arrays at contents read off
  the same valuation, and back.
-/
import proofs.«423178_j21577915695182_3_alg».proof.Proof.Gen.KernelIdeal.Launch
import proofs.«423178_j21577915695182_3_alg».proof.Proof.Gen.KernelIdeal.Skeleton
import proofs.«423178_j21577915695182_3_alg».proof.Proof.Gen.KernelIdeal.Points
import proofs.«423178_j21577915695182_3_alg».proof.Proof.KI.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- A buffer whole at the full share is the buffer at three shares: the left half, and the two halves of the right half. -/
theorem pointsTo_thirds {ℓ : Loc nD τ sig} (f : Buf (Elt F) ℓ) :
    (ℓ ↦{fullShare} f : sProp 𝕄) = iprop((ℓ ↦{fullShare.left} f) ∗ (ℓ ↦{fullShare.right.left} f) ∗ (ℓ ↦{fullShare.right.right} f)) := by
  have h1 := pointsTo_share (Ix := Unit) (Name := ℕ) (U := UR sig nD τ) (Lvl := ℕ) (ℓ := ℓ) (I := Finset.univ) (f := f) (PosShare.mem_left_op_right fullShare)
  have h2 := pointsTo_share (Ix := Unit) (Name := ℕ) (U := UR sig nD τ) (Lvl := ℕ) (ℓ := ℓ) (I := Finset.univ) (f := f) (PosShare.mem_left_op_right fullShare.right)
  rw [BI.Entails.antisymm h1.1 h1.2, BI.Entails.antisymm h2.1 h2.2]

/-- The two buffers behind the four windows, one by one. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v5) ↦{fullShare} W main_v5) ∗ (((c : Thread nD τ).loc main_v6) ↦{fullShare} W main_v6)) := by
  unfold Pipeline.arrBufs
  exact bigSep_eq_bigSepL_of_eq [main_v5, main_v6] (by decide) (by decide) _

/-- The four windows' arrays, read off one valuation, are the shared buffer at its three shares and the output's whole. -/
theorem arrays1_eq (c : Dev nD) (W : (b : Ref sig .tc) → Buf (Elt F) ((c : Thread nD τ).loc b))
    (G : (w : Fin cfg1.W) → Buf (Elt F) ((cfg1.win w).arr.view.loc (c : Thread nD τ))) (hG : ∀ w, G w = W (Pipeline.arrRef spec1 w)) :
    ((dat1 V c).arrays G : sProp 𝕄)
      = iprop((((c : Thread nD τ).loc main_v5) ↦{fullShare.left} W main_v5) ∗ (((c : Thread nD τ).loc main_v5) ↦{fullShare.right.left} W main_v5)
          ∗ (((c : Thread nD τ).loc main_v5) ↦{fullShare.right.right} W main_v5) ∗ (((c : Thread nD τ).loc main_v6) ↦{fullShare} W main_v6)) := by
  unfold Dat.arrays
  rw [bigSep_W1, (arr_whole1 0).set_eq_univ, (arr_whole1 3).set_eq_univ,
    hG 0, hG 1, hG 2, hG 3]
  rfl

/-- ENTRY: the two buffers whole at `W` give the four windows' arrays, the shared one split in three. -/
theorem arrays1_of_bufs (c : Dev nD) (W : (b : Ref sig .tc) → Buf (Elt F) ((c : Thread nD τ).loc b))
    (G : (w : Fin cfg1.W) → Buf (Elt F) ((cfg1.win w).arr.view.loc (c : Thread nD τ))) (hG : ∀ w, G w = W (Pipeline.arrRef spec1 w)) :
    (Pipeline.arrBufs (Ix := Unit) (Name := ℕ) (U := UR sig nD τ) (Lvl := ℕ) spec1 c W : sProp 𝕄) ⊢ (dat1 V c).arrays G := by
  rw [arrBufs1_eq, arrays1_eq V c W G hG, pointsTo_thirds]
  iintro ⟨⟨H0, H1, H2⟩, H3⟩
  isplitl [H0]; · iexact H0
  isplitl [H1]; · iexact H1
  isplitl [H2]; · iexact H2
  iexact H3

/-- EXIT: the four windows' arrays, all read off one valuation `W`, give back the two buffers whole at `W`. -/
theorem bufs_of_arrays1 (c : Dev nD) (W : (b : Ref sig .tc) → Buf (Elt F) ((c : Thread nD τ).loc b))
    (G : (w : Fin cfg1.W) → Buf (Elt F) ((cfg1.win w).arr.view.loc (c : Thread nD τ))) (hG : ∀ w, G w = W (Pipeline.arrRef spec1 w)) :
    (dat1 V c).arrays G ⊢ (Pipeline.arrBufs (Ix := Unit) (Name := ℕ) (U := UR sig nD τ) (Lvl := ℕ) spec1 c W : sProp 𝕄) := by
  rw [arrBufs1_eq, arrays1_eq V c W G hG, pointsTo_thirds]
  iintro ⟨H0, H1, H2, H3⟩
  isplitr [H3]
  · isplitl [H0]; · iexact H0
    isplitl [H1]; · iexact H1
    iexact H2
  · iexact H3

end Cert.KernelIdeal.Hand

end
-- ==== Proof.KI.Run.lean ====
/-
  The launch of the whole program: host reshapes, the first linear layer's region, a reshape, the attention region, two
  reshapes, the output projection's region, a reshape. Between two items a core holds every unscoped buffer whole at
  the contents the items before left there — each region's output array at what its write-backs fold to, computed from
  the contents the region was entered with —, its generator register and owes nothing. The run ends with the result
  buffer at the last valuation and the four arguments as launched.
-/
import proofs.«423178_j21577915695182_3_alg».proof.Proof.Gen.KernelIdeal.Launch
import proofs.«423178_j21577915695182_3_alg».proof.Proof.Gen.KernelIdeal.Skeleton
import proofs.«423178_j21577915695182_3_alg».proof.Proof.Gen.KernelIdeal.Points
import proofs.«423178_j21577915695182_3_alg».proof.Proof.KI.R0
import proofs.«423178_j21577915695182_3_alg».proof.Proof.KI.R1
import proofs.«423178_j21577915695182_3_alg».proof.Proof.KI.R2
import proofs.«423178_j21577915695182_3_alg».proof.Proof.KI.Share1
import proofs.«423178_j21577915695182_3_alg».proof.Proof.KI.RegionsV
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (RegionSeg)

variable (m : (ℓ : Loc nD τ sig) → Buf (Elt F) ℓ) (ρ : Dev nD → PrngReg)

/-! ## The buffer contents at each region's entry, and what each region leaves -/

/-- The contents region 0 is entered with. -/
abbrev Vr1 (c : Dev nD) (b : Ref sig .tc) : Buf (Elt F) ((c : Thread nD τ).loc b) := GenV.V1 m c b
/-- What region 0 leaves in the fused projection's array. -/
def X0 (c : Dev nD) : Buf (Elt F) ((c : Thread nD τ).loc main_v4) := (dat0 (Vr1 m) c).arrAt 2 cfg0.N
/-- The contents region 1 is entered with. -/
abbrev Vr3 (c : Dev nD) (b : Ref sig .tc) : Buf (Elt F) ((c : Thread nD τ).loc b) := GenV.V3 m (X0 m) c b
/-- What region 1 leaves in the attention outputs' array. -/
def X1 (c : Dev nD) : Buf (Elt F) ((c : Thread nD τ).loc main_v6) := (dat1 (Vr3 m) c).arrAt 3 cfg1.N
/-- The contents region 2 is entered with. -/
abbrev Vr5 (c : Dev nD) (b : Ref sig .tc) : Buf (Elt F) ((c : Thread nD τ).loc b) := GenV.V5 m (X0 m) (X1 m) c b
/-- What region 2 leaves in the projected array. -/
def X2 (c : Dev nD) : Buf (Elt F) ((c : Thread nD τ).loc main_v9) := (dat2 (Vr5 m) c).arrAt 3 cfg2.N

/-- Every pipeline's proof data, each at its region's entry contents. -/
def pdats : (p : Fin 3) → (c : Dev nD) → Dat τ (Elt F) Unit ℕ (UR sig nD τ) ℕ (Pipeline.pin (pcfgs (F := F)) GenV.adm p) c
  | ⟨0, _⟩ => fun c => dat0 (Vr1 m) c
  | ⟨1, _⟩ => fun c => dat1 (Vr3 m) c
  | ⟨2, _⟩ => fun c => dat2 (Vr5 m) c

abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

/-! ## Region 0 -/

theorem hF0 (c : Dev nD) (w : Fin cfg0.W) :
    (pdats m 0 c).arrAt w cfg0.N = (fun b : Ref sig .tc => GenV.V2 m (X0 m) c b) (Pipeline.arrRef spec0 w) := by
  match w with
  | ⟨0, _⟩ => exact (((dat0 (Vr1 m) c).arrAt_in 0 rfl _).trans (A_eq0 (Vr1 m) c 0)).trans (GenV.V2_of m (X0 m) c main_v1 (by decide)).symm
  | ⟨1, _⟩ => exact (((dat0 (Vr1 m) c).arrAt_in 1 rfl _).trans (A_eq0 (Vr1 m) c 1)).trans (GenV.V2_of m (X0 m) c main_v2 (by decide)).symm
  | ⟨2, _⟩ =>
    show _ = Function.update (GenV.V1 m c) (Proc.devRef .tc main_v4 : DevRef τ sig) (X0 m c) (Proc.devRef .tc main_v4)
    rw [Function.update_self]; rfl

theorem hrest0 (c : Dev nD) : ∀ b : Ref sig .tc, b ∉ Finset.univ.image (Pipeline.arrRef spec0) → GenV.V2 m (X0 m) c b = Vr1 m c b :=
  fun b hb => GenV.V2_of m (X0 m) c b fun h => hb (by
    rw [List.mem_singleton.mp h]; exact Finset.mem_image.mpr ⟨2, Finset.mem_univ _, rfl⟩)

set_option backward.isDefEq.respectTransparency.types false in
/-- Region 0 over the thread state. -/
def reg0 : RegionSeg (pcfgs (F := F)) GenV.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr1 m) c).loose
  hwaits := Pipeline.hwaits_of_owed_zero _ _ _ _ L lv 0 fun _ _ => rfl
  pre c := iprop(StableHlo.held (c : Thread nD τ) (Pipeline.ucRefs τ sig) (GenV.V1 m c) ∗ R c)
  post c := iprop(StableHlo.held (c : Thread nD τ) (Pipeline.ucRefs τ sig) (GenV.V2 m (X0 m) c) ∗ R c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit := Pipeline.arrays_of_unscopedBufs (p := 0) (pcfgs (F := F)) GenV.adm (pdats m) launch0.win launch0.arr_whole c
      ((pdats m 0 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) GenV.adm (Ix := Unit) (Name := ℕ) (U := UR sig nD τ) (Lvl := ℕ)
      launch0.win launch0.arr_whole c (pdats m) ((pdats m 0 c).share_full fun _ => rfl)
      (Vr1 m c) (fun b => GenV.V2 m (X0 m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

theorem hF2 (c : Dev nD) (w : Fin cfg2.W) :
    (pdats m 2 c).arrAt w cfg2.N = (fun b : Ref sig .tc => GenV.V6 m (X0 m) (X1 m) (X2 m) c b) (Pipeline.arrRef spec2 w) := by
  match w with
  | ⟨0, _⟩ => exact (((dat2 (Vr5 m) c).arrAt_in 0 rfl _).trans (A_eq2 (Vr5 m) c 0)).trans (GenV.V6_of m (X0 m) (X1 m) (X2 m) c main_v7 (by decide)).symm
  | ⟨1, _⟩ => exact (((dat2 (Vr5 m) c).arrAt_in 1 rfl _).trans (A_eq2 (Vr5 m) c 1)).trans (GenV.V6_of m (X0 m) (X1 m) (X2 m) c main_v3 (by decide)).symm
  | ⟨2, _⟩ => exact (((dat2 (Vr5 m) c).arrAt_in 2 rfl _).trans (A_eq2 (Vr5 m) c 2)).trans (GenV.V6_of m (X0 m) (X1 m) (X2 m) c main_v8 (by decide)).symm
  | ⟨3, _⟩ =>
    show _ = Function.update (GenV.V5 m (X0 m) (X1 m) c) (Proc.devRef .tc main_v9 : DevRef τ sig) (X2 m c) (Proc.devRef .tc main_v9)
    rw [Function.update_self]; rfl

theorem hrest2 (c : Dev nD) : ∀ b : Ref sig .tc, b ∉ Finset.univ.image (Pipeline.arrRef spec2) → GenV.V6 m (X0 m) (X1 m) (X2 m) c b = Vr5 m c b :=
  fun b hb => GenV.V6_of m (X0 m) (X1 m) (X2 m) c b fun h => hb (by
    rw [List.mem_singleton.mp h]; exact Finset.mem_image.mpr ⟨3, Finset.mem_univ _, rfl⟩)

set_option backward.isDefEq.respectTransparency.types false in
/-- Region 2 over the thread state. -/
def reg2 : RegionSeg (pcfgs (F := F)) GenV.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vr5 m) c).loose
  hwaits := Pipeline.hwaits_of_owed_zero _ _ _ _ L lv 2 fun _ _ => rfl
  pre c := iprop(StableHlo.held (c : Thread nD τ) (Pipeline.ucRefs τ sig) (GenV.V5 m (X0 m) (X1 m) c) ∗ R c)
  post c := iprop(StableHlo.held (c : Thread nD τ) (Pipeline.ucRefs τ sig) (GenV.V6 m (X0 m) (X1 m) (X2 m) c) ∗ R c)
  X c := iprop(∃ r, prngReg c r)
  Y c := iprop(∃ r, prngReg c r)
  Z c := Pipeline.unscopedRest (Ix := Unit) (Name := ℕ) (U := UR sig nD τ) (Lvl := ℕ) spec2 c (Vr5 m c)
  hentry c := by
    rw [Pipeline.ownSems0_none]
    have hsplit := Pipeline.arrays_of_unscopedBufs (p := 2) (pcfgs (F := F)) GenV.adm (pdats m) launch2.win launch2.arr_whole c
      ((pdats m 2 c).share_full fun _ => rfl) (Vr5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) GenV.adm (Ix := Unit) (Name := ℕ) (U := UR sig nD τ) (Lvl := ℕ)
      launch2.win launch2.arr_whole c (pdats m) ((pdats m 2 c).share_full fun _ => rfl)
      (Vr5 m c) (fun b => GenV.V6 m (X0 m) (X1 m) (X2 m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1: the three input windows share the fused projection's array -/

theorem hG1in (c : Dev nD) (w : Fin cfg1.W) : (pdats m 1 c).arrAt w 0 = Vr3 m c (Pipeline.arrRef spec1 w) :=
  (show (pdats m 1 c).arrAt w 0 = (dat1 (Vr3 m) c).A w from rfl).trans (A_eq1 (Vr3 m) c w)

theorem hF1 (c : Dev nD) (w : Fin cfg1.W) :
    (pdats m 1 c).arrAt w cfg1.N = (fun b : Ref sig .tc => GenV.V4 m (X0 m) (X1 m) c b) (Pipeline.arrRef spec1 w) := by
  match w with
  | ⟨0, _⟩ => exact (((dat1 (Vr3 m) c).arrAt_in 0 rfl _).trans (A_eq1 (Vr3 m) c 0)).trans (GenV.V4_of m (X0 m) (X1 m) c main_v5 (by decide)).symm
  | ⟨1, _⟩ => exact (((dat1 (Vr3 m) c).arrAt_in 1 rfl _).trans (A_eq1 (Vr3 m) c 1)).trans (GenV.V4_of m (X0 m) (X1 m) c main_v5 (by decide)).symm
  | ⟨2, _⟩ => exact (((dat1 (Vr3 m) c).arrAt_in 2 rfl _).trans (A_eq1 (Vr3 m) c 2)).trans (GenV.V4_of m (X0 m) (X1 m) c main_v5 (by decide)).symm
  | ⟨3, _⟩ =>
    show _ = Function.update (GenV.V3 m (X0 m) c) (Proc.devRef .tc main_v6 : DevRef τ sig) (X1 m c) (Proc.devRef .tc main_v6)
    rw [Function.update_self]; rfl

theorem hrest1 (c : Dev nD) : ∀ b : Ref sig .tc, b ∉ Finset.univ.image (Pipeline.arrRef spec1) → GenV.V4 m (X0 m) (X1 m) c b = Vr3 m c b :=
  fun b hb => GenV.V4_of m (X0 m) (X1 m) c b fun h => hb (by
    rw [List.mem_singleton.mp h]; exact Finset.mem_image.mpr ⟨3, Finset.mem_univ _, rfl⟩)

set_option backward.isDefEq.respectTransparency.types false in
/-- Region 1 over the thread state. -/
def reg1 : RegionSeg (pcfgs (F := F)) GenV.adm (pdats m) () defs₀ 𝒱₀ L lv 1 where
  win := winFacts₀1
  block_pos := block_pos1
  stage_whole := stage_whole1
  K := PEmpty
  osem k := k.elim
  ho := Pipeline.OwnSemFacts.none _
  hbody c := (body_obligation1 (Vr3 m) c).loose
  hwaits := Pipeline.hwaits_of_owed_zero _ _ _ _ L lv 1 fun _ _ => rfl
  pre c := iprop(StableHlo.held (c : Thread nD τ) (Pipeline.ucRefs τ sig) (GenV.V3 m (X0 m) c) ∗ R c)
  post c := iprop(StableHlo.held (c : Thread nD τ) (Pipeline.ucRefs τ sig) (GenV.V4 m (X0 m) (X1 m) c) ∗ R c)
  X c := iprop(∃ r, prngReg c r)
  Y c := iprop(∃ r, prngReg c r)
  Z c := Pipeline.unscopedRest (Ix := Unit) (Name := ℕ) (U := UR sig nD τ) (Lvl := ℕ) spec1 c (Vr3 m c)
  hentry c := by
    rw [Pipeline.ownSems0_none]
    have hsplit : (unscopedBufs c (Vr3 m c) : sProp 𝕄)
        ⊢ iprop((pdats m 1 c).arrays ((pdats m 1 c).arrAt · 0) ∗ Pipeline.unscopedRest spec1 c (Vr3 m c)) := by
      rw [Pipeline.unscopedBufs_split₀ cfgs 1 winFacts₀1.arr_unscoped c (Vr3 m c)]
      exact sep_mono (arrays1_of_bufs (Vr3 m) c (Vr3 m c) _ (hG1in m c)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (Vr3 m c))
        ⊢ (unscopedBufs c (fun b : Ref sig .tc => GenV.V4 m (X0 m) (X1 m) c b) : sProp 𝕄) := by
      rw [Pipeline.unscopedBufs_split₀ cfgs 1 winFacts₀1.arr_unscoped c (fun b : Ref sig .tc => GenV.V4 m (X0 m) (X1 m) c b)]
      refine sep_mono (bufs_of_arrays1 (Vr3 m) c _ _ (hF1 m c)) (Entails.of_eq ?_)
      unfold Pipeline.unscopedRest
      exact bigSep_congr fun b hb => by dsimp only; rw [hrest1 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of the program from memory `m` with zero counters terminates; the result buffer ends at the
    last valuation's contents and the four argument arrays as launched. -/
theorem run_value : θ_run defs (onTc (τ := τ) (main (F := F))) ⟨m, fun _ => 0, ρ⟩ (fun r => ∀ c : Dev nD,
      r.2.mem ((c.tc : Thread nD τ).loc main_v10) = GenV.V7 m (X0 m) (X1 m) (X2 m) c main_v10
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  GenV.frame_condV m (X0 m) (X1 m) (X2 m) emb₁ () 𝒱₀ L lv (fun _ _ => rfl) ρ (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (Pipeline.initEach L lv fun c => by
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun _ => .rfl)
    (reg1 m) (fun _ => .rfl) (fun _ => .rfl)
    (reg2 m) (fun _ => .rfl) (fun _ => .rfl)

end Cert.KernelIdeal.Hand

end
-- ==== Proof.Val.Spec.lean ====
/-
  The mathematics of one multi-head attention layer over the extended reals, in the two arrangements the two programs
  compute it in, and the law that joins them.

  A query row `q` against the keys `k` gives the scores `s m = (∑ d, q d · k m d) · 1/8`; with `M = max_m s m`
  and `p m = exp (s m − M)`, the one program forms `(∑ m, p m · v m d) / (∑ m, p m)` and the other
  `∑ m, (p m / (0 + ∑ m', p m')) · v m d`, its maximum taken once more against `-∞`. For real scores and values the
  weights `p m` are positive reals and their sum a positive real, so dividing the sum is dividing each term.
-/
import Idealize.ShloMosaic.PureOps.Ideal
import Idealize.ShloMosaic.PureOps.Ideal.Laws
import Idealize.ShloMosaic.Lib.ValueIdx
import Mathlib.Data.EReal.Operations
import Mathlib.Data.Finset.Lattice.Fold
import Mathlib.Analysis.SpecialFunctions.Exp
import Mathlib.Algebra.Order.BigOperators.Group.Finset

noncomputable section

namespace Cert.Val

open Idealize.ShloMosaic Idealize.ShloMosaic.ValueIdx

/-- The scale `1/8` and the reductions' `-∞`, as both programs spell them. -/
abbrev c8 : EReal := Ideal.ofBits .f32 0x3E000000#32
abbrev ninf : EReal := Ideal.ofBits .f32 0xFF800000#32

/-- A value that is a real number (neither infinity). -/
def IsReal (x : EReal) : Prop := ∃ r : ℝ, x = (r : EReal)

/-- The scaled scores of one query row against the 2048 keys. -/
def score (q : Fin 64 → EReal) (k : Fin 2048 → Fin 64 → EReal) (m : Fin 2048) : EReal :=
  (∑ d : Fin 64, q d * k m d) * c8

/-- A row's maximum, folded from `-∞`. -/
def rowMax (s : Fin 2048 → EReal) : EReal := (Finset.univ : Finset (Fin 2048)).fold max ninf s

/-- The unnormalised weights, against the row maximum. -/
def expo (s : Fin 2048 → EReal) (m : Fin 2048) : EReal := Ideal.exp (s m - rowMax s)

/-- One output entry, the weighted sum divided by the weights' sum. -/
def attnK (q : Fin 64 → EReal) (k v : Fin 2048 → Fin 64 → EReal) (d : Fin 64) : EReal :=
  Ideal.div (∑ m : Fin 2048, expo (score q k) m * v m d) (∑ m : Fin 2048, expo (score q k) m)

/-- The unnormalised weights against the maximum taken once more against `-∞`. -/
def expoR (s : Fin 2048 → EReal) (m : Fin 2048) : EReal := Ideal.exp (s m - max ninf (rowMax s))

/-- One output entry, the sum of the normalised weights times the values. -/
def attnR (q : Fin 64 → EReal) (k v : Fin 2048 → Fin 64 → EReal) (d : Fin 64) : EReal :=
  ∑ m : Fin 2048, Ideal.div (expoR (score q k) m) (0 + ∑ m' : Fin 2048, expoR (score q k) m') * v m d

/-! ## Real values: closure under the ring operations, and the two constants -/

theorem IsReal.zero : IsReal 0 := ⟨0, EReal.coe_zero.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of reals is a real. -/
theorem IsReal.sum {ι : Type} (t : Finset ι) (f : ι → EReal) (h : ∀ i ∈ t, IsReal (f i)) : IsReal (∑ i ∈ t, f i) :=
  Finset.sum_induction f IsReal (fun _ _ => IsReal.add) IsReal.zero h

/-- The coercion of the reals commutes with finite sums. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The pattern of `-∞` denotes the bottom element. -/
theorem ninf_eq : ninf = ⊥ := by
  simp [ninf, Ideal.ofBits, Ideal.ieee]

/-- The pattern of the scale denotes a real. -/
theorem c8_real : IsReal c8 := by
  refine ⟨(1 / 8 : ℝ), ?_⟩
  simp [c8, Ideal.ofBits, Ideal.ieee, -EReal.coe_mul]
  norm_num

/-- The maximum of real scores over the 2048 keys, folded from `-∞`, is a real. -/
theorem rowMax_real (sr : Fin 2048 → ℝ) : ∃ Mr : ℝ, rowMax (fun m => (sr m : EReal)) = (Mr : EReal) := by
  have h : rowMax (fun m => (sr m : EReal)) = (Finset.univ : Finset (Fin 2048)).sup (fun m => (sr m : EReal)) := by
    unfold rowMax
    rw [ninf_eq]
    rfl
  obtain ⟨i, -, hi⟩ := Finset.exists_mem_eq_sup (Finset.univ : Finset (Fin 2048)) ⟨0, Finset.mem_univ _⟩ (fun m => (sr m : EReal))
  exact ⟨sr i, h.trans hi⟩

/-- The law over real weights with a non-zero sum: dividing the weighted sum is dividing each weight. -/
theorem attn_law_real (p vr : Fin 2048 → ℝ) (hl : (∑ m : Fin 2048, p m) ≠ 0) :
    Ideal.div (∑ m : Fin 2048, (p m : EReal) * (vr m : EReal)) (∑ m : Fin 2048, (p m : EReal))
      = ∑ m : Fin 2048, Ideal.div (p m : EReal) (0 + ∑ m' : Fin 2048, (p m' : EReal)) * (vr m : EReal) := by
  rw [zero_add, ← coe_sum, Ideal.div_coe hl]
  simp only [Ideal.div_coe hl, ← EReal.coe_mul, ← coe_sum]
  rw [EReal.coe_eq_coe_iff, Finset.sum_mul]
  exact Finset.sum_congr rfl fun m _ => by ring

/-- The two arrangements agree on real queries, keys and values. -/
theorem attn_law (q : Fin 64 → EReal) (k v : Fin 2048 → Fin 64 → EReal)
    (hq : ∀ d, IsReal (q d)) (hk : ∀ m d, IsReal (k m d)) (hv : ∀ m d, IsReal (v m d)) (d : Fin 64) :
    attnK q k v d = attnR q k v d := by
  have hs : ∀ m, IsReal (score q k m) := fun m =>
    IsReal.mul (IsReal.sum _ _ fun d' _ => IsReal.mul (hq d') (hk m d')) c8_real
  unfold attnK attnR
  generalize score q k = s at hs ⊢
  choose sr hsr using hs
  obtain rfl : s = fun m => (sr m : EReal) := funext hsr
  choose vr hvr using fun m => hv m d
  obtain ⟨Mr, hM⟩ := rowMax_real sr
  have hK : ∀ m, expo (fun m => (sr m : EReal)) m = ((Real.exp (sr m - Mr) : ℝ) : EReal) := fun m => by
    unfold expo
    rw [hM, ← EReal.coe_sub, Ideal.exp_coe]
  have hR : ∀ m, expoR (fun m => (sr m : EReal)) m = ((Real.exp (sr m - Mr) : ℝ) : EReal) := fun m => by
    unfold expoR
    rw [hM, ninf_eq, max_eq_right bot_le, ← EReal.coe_sub, Ideal.exp_coe]
  simp only [hK, hR, hvr]
  exact attn_law_real _ _ (Finset.sum_pos (fun m _ => Real.exp_pos _) ⟨0, Finset.mem_univ _⟩).ne'

/-- Column `s·1024 + h·64 + d` of the fused projection: part `s` (query, key, value), head `h`, lane `d`. -/
def col (s : Fin 3) (h : Fin 16) (d : Fin 64) : Fin 3072 := ⟨s.val * 1024 + h.val * 64 + d.val, by omega⟩
/-- The head and the lane of a model column. -/
def hd (c : Fin 1024) : Fin 16 := ⟨c.val / 64, by omega⟩
def dd (c : Fin 1024) : Fin 64 := ⟨c.val % 64, by omega⟩

/-- The fused projection of token `(b, n)`, column `o`. -/
def QKV (x : Fin 4 → Fin 2048 → Fin 1024 → EReal) (w : Fin 3072 → Fin 1024 → EReal) (b : Fin 4) (n : Fin 2048) (o : Fin 3072) : EReal :=
  ∑ k : Fin 1024, x b n k * w o k

theorem QKV_real (x : Fin 4 → Fin 2048 → Fin 1024 → EReal) (w : Fin 3072 → Fin 1024 → EReal)
    (hx : ∀ b n k, IsReal (x b n k)) (hw : ∀ o k, IsReal (w o k)) (b : Fin 4) (n : Fin 2048) (o : Fin 3072) : IsReal (QKV x w b n o) := by
  exact IsReal.sum _ _ fun k _ => IsReal.mul (hx b n k) (hw o k)

/-- The attention output of token `(b, n)`, head `h`, lane `d`, in the first arrangement, -/
def AK (x : Fin 4 → Fin 2048 → Fin 1024 → EReal) (w : Fin 3072 → Fin 1024 → EReal) (b : Fin 4) (n : Fin 2048) (h : Fin 16) (d : Fin 64) : EReal :=
  attnK (fun d' => QKV x w b n (col 0 h d')) (fun m d' => QKV x w b m (col 1 h d')) (fun m d' => QKV x w b m (col 2 h d')) d
/-- and in the second. -/
def AR (x : Fin 4 → Fin 2048 → Fin 1024 → EReal) (w : Fin 3072 → Fin 1024 → EReal) (b : Fin 4) (n : Fin 2048) (h : Fin 16) (d : Fin 64) : EReal :=
  attnR (fun d' => QKV x w b n (col 0 h d')) (fun m d' => QKV x w b m (col 1 h d')) (fun m d' => QKV x w b m (col 2 h d')) d

theorem AK_eq_AR (x : Fin 4 → Fin 2048 → Fin 1024 → EReal) (w : Fin 3072 → Fin 1024 → EReal)
    (hx : ∀ b n k, IsReal (x b n k)) (hw : ∀ o k, IsReal (w o k)) (b : Fin 4) (n : Fin 2048) (h : Fin 16) (d : Fin 64) :
    AK x w b n h d = AR x w b n h d :=
  attn_law _ _ _ (fun _ => QKV_real x w hx hw _ _ _) (fun _ _ => QKV_real x w hx hw _ _ _) (fun _ _ => QKV_real x w hx hw _ _ _) d

/-- The layer's output entry `(b, n, o)`: the output projection of the attention outputs, plus the bias. -/
def OutK (x : Fin 4 → Fin 2048 → Fin 1024 → EReal) (w : Fin 3072 → Fin 1024 → EReal) (wp : Fin 1024 → Fin 1024 → EReal) (bias : Fin 1024 → EReal)
    (b : Fin 4) (n : Fin 2048) (o : Fin 1024) : EReal :=
  (∑ c : Fin 1024, AK x w b n (hd c) (dd c) * wp o c) + bias o
def OutR (x : Fin 4 → Fin 2048 → Fin 1024 → EReal) (w : Fin 3072 → Fin 1024 → EReal) (wp : Fin 1024 → Fin 1024 → EReal) (bias : Fin 1024 → EReal)
    (b : Fin 4) (n : Fin 2048) (o : Fin 1024) : EReal :=
  (∑ c : Fin 1024, AR x w b n (hd c) (dd c) * wp o c) + bias o

theorem Out_eq (x : Fin 4 → Fin 2048 → Fin 1024 → EReal) (w : Fin 3072 → Fin 1024 → EReal) (wp : Fin 1024 → Fin 1024 → EReal) (bias : Fin 1024 → EReal)
    (hx : ∀ b n k, IsReal (x b n k)) (hw : ∀ o k, IsReal (w o k)) (b : Fin 4) (n : Fin 2048) (o : Fin 1024) :
    OutK x w wp bias b n o = OutR x w wp bias b n o := by
  unfold OutK OutR
  simp only [AK_eq_AR x w hx hw]

/-! ## The same, over the arrays as the programs hold them (row-major index functions over literal shapes) -/

abbrev T4x2048x1024 : Shape := ⟨3, ![4, 2048, 1024]⟩
abbrev T3072x1024 : Shape := ⟨2, ![3072, 1024]⟩
abbrev T1024x1024 : Shape := ⟨2, ![1024, 1024]⟩
abbrev T1024 : Shape := ⟨1, ![1024]⟩
abbrev T8192x1024 : Shape := ⟨2, ![8192, 1024]⟩
abbrev T8192x3072 : Shape := ⟨2, ![8192, 3072]⟩
abbrev T1x1024 : Shape := ⟨2, ![1, 1024]⟩
abbrev T4x2048x3x16x64 : Shape := ⟨5, ![4, 2048, 3, 16, 64]⟩
abbrev T4x2048x16x64 : Shape := ⟨4, ![4, 2048, 16, 64]⟩

/-- The layer's output array from the four argument arrays, in the first arrangement, -/
def OutKA (a0 : T4x2048x1024.Idx → EReal) (a1 : T3072x1024.Idx → EReal) (a2 : T1024x1024.Idx → EReal) (a3 : T1024.Idx → EReal) :
    T4x2048x1024.Idx → EReal :=
  fun i => OutK (fun b n k => a0 (ix3 b n k)) (fun o k => a1 (ix2 o k)) (fun o c => a2 (ix2 o c)) (fun o => a3 (ix1 o)) (i 0) (i 1) (i 2)
/-- and in the second. -/
def OutRA (a0 : T4x2048x1024.Idx → EReal) (a1 : T3072x1024.Idx → EReal) (a2 : T1024x1024.Idx → EReal) (a3 : T1024.Idx → EReal) :
    T4x2048x1024.Idx → EReal :=
  fun i => OutR (fun b n k => a0 (ix3 b n k)) (fun o k => a1 (ix2 o k)) (fun o c => a2 (ix2 o c)) (fun o => a3 (ix1 o)) (i 0) (i 1) (i 2)

theorem OutA_eq (a0 : T4x2048x1024.Idx → EReal) (a1 : T3072x1024.Idx → EReal) (a2 : T1024x1024.Idx → EReal) (a3 : T1024.Idx → EReal)
    (h0 : ∀ i, IsReal (a0 i)) (h1 : ∀ i, IsReal (a1 i)) : OutKA a0 a1 a2 a3 = OutRA a0 a1 a2 a3 :=
  funext fun i => Out_eq _ _ _ _ (fun _ _ _ => h0 _) (fun _ _ => h1 _) _ _ _

/-- Rows times rows: `a` of shape [8192, 1024] against `w` of shape [3072, 1024], contracted over the second axis of both. -/
def Lin0 (a : T8192x1024.Idx → EReal) (w : T3072x1024.Idx → EReal) : T8192x3072.Idx → EReal :=
  fun i => ∑ k : Fin 1024, a (ix2 (i 0) k) * w (ix2 (i 1) k)

/-- The same against a [1024, 1024] matrix, plus a bias held as a one-row matrix. -/
def Lin2 (a : T8192x1024.Idx → EReal) (w : T1024x1024.Idx → EReal) (bias : T1x1024.Idx → EReal) : T8192x1024.Idx → EReal :=
  fun i => (∑ k : Fin 1024, a (ix2 (i 0) k) * w (ix2 (i 1) k)) + bias (ix2 (0 : Fin 1) (i 1))

/-- Attention over the fused projection array [4, 2048, 3, 16, 64] (batch, token, part, head, lane): entry
    (batch, token, head, lane) of the result. -/
def Att1 (a : T4x2048x3x16x64.Idx → EReal) : T4x2048x16x64.Idx → EReal :=
  fun i => attnK (fun d' => a (ix5 (i 0) (i 1) (0 : Fin 3) (i 2) d'))
    (fun m d' => a (ix5 (i 0) m (1 : Fin 3) (i 2) d')) (fun m d' => a (ix5 (i 0) m (2 : Fin 3) (i 2) d')) (i 3)

end Cert.Val

end
-- ==== Proof.Val.K0.lean ====
/-
  What the first linear layer's region leaves in its output array, at the extended reals: entry (R, o) is the sum over k
  of the activations' entry (R, k) times the weights' entry (o, k) — each grid point writes back the rows of its block,
  and the eight blocks tile the array.
-/
import proofs.«423178_j21577915695182_3_alg».proof.Proof.KI.R0
import proofs.«423178_j21577915695182_3_alg».proof.Proof.Val.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (V : (c : Dev nD) → (b : Ref sig .tc) → Buf (Elt Ideal) ((c : Thread nD τ).loc b))

namespace K0

/-- The zero offsets, as a constant function. -/
theorem hz0 : (![0, 0] : Fin 2 → Nat) = fun _ => 0 := funext fun a => by fin_cases a <;> rfl

/-- The contraction's index maps, axis by axis: the left operand is read at (row of the result, k), the right at (column of the result, k). -/
theorem lhs0_0 (i : S1024x3072.Idx) (q : dot_S1024x1024_S3072x1024_S1024x3072_1_1_0_0_n_n.contr.Idx) :
    (dot_S1024x1024_S3072x1024_S1024x3072_1_1_0_0_n_n.lhsIdx i q 0).val = (i 0).val := by
  unfold DotDims.lhsIdx
  rw [dif_neg (show ¬(0 : Fin S1024x1024.rank) ∈ dot_S1024x1024_S3072x1024_S1024x3072_1_1_0_0_n_n.lhsBatch by decide), dif_pos (show (0 : Fin S1024x1024.rank) ∈ dot_S1024x1024_S3072x1024_S1024x3072_1_1_0_0_n_n.lhsNonContracting by decide)]
  rfl
theorem lhs0_1 (i : S1024x3072.Idx) (q : dot_S1024x1024_S3072x1024_S1024x3072_1_1_0_0_n_n.contr.Idx) :
    (dot_S1024x1024_S3072x1024_S1024x3072_1_1_0_0_n_n.lhsIdx i q 1).val = (q ⟨0, by decide⟩).val :=
  dot_S1024x1024_S3072x1024_S1024x3072_1_1_0_0_n_n.lhsIdx_val_of_single rfl i q
theorem rhs0_0 (i : S1024x3072.Idx) (q : dot_S1024x1024_S3072x1024_S1024x3072_1_1_0_0_n_n.contr.Idx) :
    (dot_S1024x1024_S3072x1024_S1024x3072_1_1_0_0_n_n.rhsIdx i q 0).val = (i 1).val := by
  unfold DotDims.rhsIdx
  rw [dif_neg (show ¬(0 : Fin S3072x1024.rank) ∈ dot_S1024x1024_S3072x1024_S1024x3072_1_1_0_0_n_n.rhsBatch by decide), dif_pos (show (0 : Fin S3072x1024.rank) ∈ dot_S1024x1024_S3072x1024_S1024x3072_1_1_0_0_n_n.rhsNonContracting by decide)]
  rfl
theorem rhs0_1 (i : S1024x3072.Idx) (q : dot_S1024x1024_S3072x1024_S1024x3072_1_1_0_0_n_n.contr.Idx) :
    (dot_S1024x1024_S3072x1024_S1024x3072_1_1_0_0_n_n.rhsIdx i q 1).val = (q ⟨0, by decide⟩).val :=
  dot_S1024x1024_S3072x1024_S1024x3072_1_1_0_0_n_n.rhsIdx_val_of_single rfl i q

/-- The body's payload at an index: row p of the first block against row q of the second. -/
theorem pay0_apply (x0 : Vec Ideal S1024x1024 .bf16) (x1 : Vec Ideal S3072x1024 .bf16) (p : Fin 1024) (q : Fin 3072) :
    k0_pay1 (F := Ideal) x0 x1 (ix2 p q) = ∑ k : Fin 1024, x0 (ix2 p k) * x1 (ix2 q k) := by
  unfold k0_pay1
  rw [truncf_apply]
  simp only [shapeCast_self]
  refine (Ideal.matmul_constant_zero_apply (φ₁ := .bf16) (φ₂ := .bf16) dot_S1024x1024_S3072x1024_S1024x3072_1_1_0_0_n_n none x0 x1 (ix2 p q)).trans ?_
  rw [← Equiv.sum_comp (contrEquiv1 dot_S1024x1024_S3072x1024_S1024x3072_1_1_0_0_n_n 1024 rfl rfl).symm]
  refine Finset.sum_congr rfl fun k _ => ?_
  have hk := contrEquiv1_symm_val dot_S1024x1024_S3072x1024_S1024x3072_1_1_0_0_n_n 1024 rfl rfl k
  have el : dot_S1024x1024_S3072x1024_S1024x3072_1_1_0_0_n_n.lhsIdx (ix2 p q) ((contrEquiv1 dot_S1024x1024_S3072x1024_S1024x3072_1_1_0_0_n_n 1024 rfl rfl).symm k) = ix2 p k := funext fun a => Fin.ext (by
    match a with
    | ⟨0, _⟩ => exact lhs0_0 _ _
    | ⟨1, _⟩ => exact (lhs0_1 _ _).trans hk)
  have er : dot_S1024x1024_S3072x1024_S1024x3072_1_1_0_0_n_n.rhsIdx (ix2 p q) ((contrEquiv1 dot_S1024x1024_S3072x1024_S1024x3072_1_1_0_0_n_n 1024 rfl rfl).symm k) = ix2 q k := funext fun a => Fin.ext (by
    match a with
    | ⟨0, _⟩ => exact rhs0_0 _ _
    | ⟨1, _⟩ => exact (rhs0_1 _ _).trans hk)
  rw [el, er]

/-- The printed index maps, decided over the grid: the activations' and the output's block index is the point on the row axis,
    the weights' block is the whole matrix. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The activations' block at point t, at (p, k), is the array at row (block index)·1024 + p. -/
theorem iblk0_0_apply (c : Dev nD) (t : Fin cfg0.N) (p k : Fin 1024) (R : Fin 8192)
    (hR : R.val = win0_0.index t (0 : Fin 2) * 1024 + p.val) (h1 : win0_0.index t (1 : Fin 2) = 0) :
    (iblk0 V c 0 t : Vec Ideal S1024x1024 .bf16) (ix2 p k) = (V c main_v1 : S8192x1024.Idx → Elt Ideal .bf16) (ix2 R k) := by
  show V c main_v1 (((cfg0.win 0).blk t).view.emb (ix2 p k)) = _
  refine congrArg (V c main_v1) (funext fun a => Fin.ext ?_)
  match a with
  | ⟨0, _⟩ => show win0_0.index t (0 : Fin 2) * 1024 + 1 * p.val = R.val; omega
  | ⟨1, _⟩ => show win0_0.index t (1 : Fin 2) * 1024 + 1 * k.val = k.val; omega

/-- The weights' block at any point is the whole matrix. -/
theorem iblk0_1_apply (c : Dev nD) (t : Fin cfg0.N) (q : Fin 3072) (k : Fin 1024)
    (h0 : win0_1.index t (0 : Fin 2) = 0) (h1 : win0_1.index t (1 : Fin 2) = 0) :
    (iblk0 V c 1 t : Vec Ideal S3072x1024 .bf16) (ix2 q k) = (V c main_v2 : S3072x1024.Idx → Elt Ideal .bf16) (ix2 q k) := by
  show V c main_v2 (((cfg0.win 1).blk t).view.emb (ix2 q k)) = _
  refine congrArg (V c main_v2) (funext fun a => Fin.ext ?_)
  match a with
  | ⟨0, _⟩ => show win0_1.index t (0 : Fin 2) * 3072 + 1 * q.val = q.val; omega
  | ⟨1, _⟩ => show win0_1.index t (1 : Fin 2) * 1024 + 1 * k.val = k.val; omega

/-- What point t leaves, at an index of its block, is the sum at the array index the block places it at. -/
theorem flushed_pt0 (c : Dev nD) (t : Fin cfg0.N) (j : S1024x3072.Idx) :
    k0_pay1 (F := Ideal) (iblk0 V c 0 t) (iblk0 V c 1 t) j = Lin0 (V c main_v1) (V c main_v2) (((cfg0.win 2).blk t).view.emb j) := by
  obtain ⟨p, q, rfl⟩ : ∃ (p : Fin 1024) (q : Fin 3072), j = ix2 p q := ⟨j 0, j 1, eq_ix2 j⟩
  obtain ⟨e0, e1, e2, e3, e4, e5⟩ := idx_facts0 t
  rw [pay0_apply]
  unfold Lin0
  refine Finset.sum_congr rfl fun k _ => ?_
  have hR : ((((cfg0.win 2).blk t).view.emb (ix2 p q)) 0).val = win0_2.index t (0 : Fin 2) * 1024 + 1 * p.val := rfl
  have hQ : ((((cfg0.win 2).blk t).view.emb (ix2 p q)) 1).val = win0_2.index t (1 : Fin 2) * 3072 + 1 * q.val := rfl
  have hA := iblk0_0_apply V c t p k ((((cfg0.win 2).blk t).view.emb (ix2 p q)) 0) (by rw [hR, e4, e0]; omega) e1
  have hB := iblk0_1_apply V c t q k e2 e3
  have hq : (ix2 q k : S3072x1024.Idx) = ix2 ((((cfg0.win 2).blk t).view.emb (ix2 p q)) 1) k := by
    funext a; apply Fin.ext
    match a with
    | ⟨0, _⟩ => show q.val = ((((cfg0.win 2).blk t).view.emb (ix2 p q)) 1).val; rw [hQ, e5]; omega
    | ⟨1, _⟩ => rfl
  exact congrArg₂ (· * ·) hA (hB.trans (congrArg (V c main_v2) hq))

/-- What point t writes back is block t of the sums. -/
theorem flushed_eq0 (c : Dev nD) (t : Fin cfg0.N) :
    (dat0 (F := Ideal) V c).flushed 2 t = ((cfg0.win 2).blk t).view.read (Elt Ideal) (Lin0 (V c main_v1) (V c main_v2)) := by
  show (cfg0.win 2).cut (grid0.coords t) ((dat0 V c).after 2 t) = _
  rw [after0_2]
  unfold out0_2
  rw [View.canon_unit_zero hz0]
  simp only [View.ld_unit_zero (S := S1024x1024) hz0, View.ld_unit_zero (S := S3072x1024) hz0]
  funext j
  exact flushed_pt0 V c t j

/-- An index of the array is in point t's block iff each coordinate is in the block's range on its axis. -/
theorem mem_blk0 (t : Fin cfg0.N) (i : S8192x3072.Idx) :
    i ∈ ((cfg0.win 2).blk t).view.set ↔ ∀ a : Fin 2, win0_2.index t a * S1024x3072.size a ≤ (i a).val ∧ (i a).val < win0_2.index t a * S1024x3072.size a + S1024x3072.size a := by
  show i ∈ ((View.whole main_v4).slice (win0_2.rect t)).set ↔ _
  rw [View.set_slice_whole, Rect.mem_set_unit]
  exact Iff.rfl

/-- Row R lies in the block of point R / 1024: the eight blocks tile the array. -/
theorem cover0 (i : S8192x3072.Idx) : ∃ t : Fin cfg0.N, (cfg0.win 2).flush t = true ∧ i ∈ ((cfg0.win 2).blk t).view.set := by
  have hi0 : (i 0).val < 8192 := (i 0).isLt
  have hi1 : (i 1).val < 3072 := (i 1).isLt
  have hb : (i 0).val / 1024 < 8 := by omega
  obtain ⟨-, -, -, -, e4, e5⟩ := idx_facts0 ⟨(i 0).val / 1024, hb⟩
  have e4' : win0_2.index ⟨(i 0).val / 1024, hb⟩ (0 : Fin 2) = (i 0).val / 1024 := e4
  refine ⟨⟨(i 0).val / 1024, hb⟩, flush0_2 _, ?_⟩
  rw [mem_blk0]
  intro a
  match a with
  | ⟨0, _⟩ => show win0_2.index ⟨(i 0).val / 1024, hb⟩ (0 : Fin 2) * 1024 ≤ (i 0).val ∧ (i 0).val < win0_2.index ⟨(i 0).val / 1024, hb⟩ (0 : Fin 2) * 1024 + 1024; rw [e4']; omega
  | ⟨1, _⟩ => show win0_2.index ⟨(i 0).val / 1024, hb⟩ (1 : Fin 2) * 3072 ≤ (i 1).val ∧ (i 1).val < win0_2.index ⟨(i 0).val / 1024, hb⟩ (1 : Fin 2) * 3072 + 3072; rw [e5]; omega

end K0

open K0 in
/-- The array the region's output window writes, after the last point. -/
theorem arr0 (c : Dev nD) : (dat0 (F := Ideal) V c).arrAt 2 cfg0.N = Lin0 (V c main_v1) (V c main_v2) :=
  (dat0 V c).arrAt_eq_of_cover 2 (Lin0 (V c main_v1) (V c main_v2)) (fun t _ => flushed_eq0 V c t) cover0

end Cert.Val

end
-- ==== Proof.Val.K1.lean ====
/-
  What the attention region leaves in its output array, at the extended reals: entry (batch, token, head, lane) is that
  head's softmax-weighted sum of the batch's value rows, the weights from the token's query row against the batch's key
  rows — queries, keys and values the three parts of the one fused projection array.
-/
import proofs.«423178_j21577915695182_3_alg».proof.Proof.KI.R1
import proofs.«423178_j21577915695182_3_alg».proof.Proof.Val.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

/-! ## One head at an index -/

/-- The operand indices of the query-key product: both operands are contracted over their lanes. -/
theorem qk_lhs_0 (i : S256x2048.Idx) (p : dot_S256x64_S2048x64_S256x2048_1_1_0_0_n_n.contr.Idx) :
    (dot_S256x64_S2048x64_S256x2048_1_1_0_0_n_n.lhsIdx i p 0).val = (i 0).val := by
  unfold DotDims.lhsIdx
  rw [dif_neg (show ¬(0 : Fin S256x64.rank) ∈ dot_S256x64_S2048x64_S256x2048_1_1_0_0_n_n.lhsBatch by decide), dif_pos (show (0 : Fin S256x64.rank) ∈ dot_S256x64_S2048x64_S256x2048_1_1_0_0_n_n.lhsNonContracting by decide)]
  rfl
theorem qk_lhs_1 (i : S256x2048.Idx) (p : dot_S256x64_S2048x64_S256x2048_1_1_0_0_n_n.contr.Idx) :
    (dot_S256x64_S2048x64_S256x2048_1_1_0_0_n_n.lhsIdx i p 1).val = (p ⟨0, by decide⟩).val :=
  dot_S256x64_S2048x64_S256x2048_1_1_0_0_n_n.lhsIdx_val_of_single rfl i p
theorem qk_rhs_0 (i : S256x2048.Idx) (p : dot_S256x64_S2048x64_S256x2048_1_1_0_0_n_n.contr.Idx) :
    (dot_S256x64_S2048x64_S256x2048_1_1_0_0_n_n.rhsIdx i p 0).val = (i 1).val := by
  unfold DotDims.rhsIdx
  rw [dif_neg (show ¬(0 : Fin S2048x64.rank) ∈ dot_S256x64_S2048x64_S256x2048_1_1_0_0_n_n.rhsBatch by decide), dif_pos (show (0 : Fin S2048x64.rank) ∈ dot_S256x64_S2048x64_S256x2048_1_1_0_0_n_n.rhsNonContracting by decide)]
  rfl
theorem qk_rhs_1 (i : S256x2048.Idx) (p : dot_S256x64_S2048x64_S256x2048_1_1_0_0_n_n.contr.Idx) :
    (dot_S256x64_S2048x64_S256x2048_1_1_0_0_n_n.rhsIdx i p 1).val = (p ⟨0, by decide⟩).val :=
  dot_S256x64_S2048x64_S256x2048_1_1_0_0_n_n.rhsIdx_val_of_single rfl i p

/-- The query-key product at (row, key): the sum over the lanes. -/
theorem qk_apply (q : FVec Ideal S256x64 .bf16) (k : FVec Ideal S2048x64 .bf16) (r : Fin 256) (m : Fin 2048) :
    matmul dot_S256x64_S2048x64_S256x2048_1_1_0_0_n_n none q k (constant (F := Ideal) S256x2048 .f32 0x00000000#32) (ix2 r m)
      = ∑ d : Fin 64, q (ix2 r d) * k (ix2 m d) := by
  simp only [matmul]
  rw [Ideal.matmul_constant_zero_apply, ← Equiv.sum_comp (ValueIdx.contrEquiv1 dot_S256x64_S2048x64_S256x2048_1_1_0_0_n_n 64 rfl rfl).symm]
  refine Finset.sum_congr rfl fun d _ => ?_
  have hk := ValueIdx.contrEquiv1_symm_val dot_S256x64_S2048x64_S256x2048_1_1_0_0_n_n 64 rfl rfl d
  have el : dot_S256x64_S2048x64_S256x2048_1_1_0_0_n_n.lhsIdx (ix2 r m) ((ValueIdx.contrEquiv1 dot_S256x64_S2048x64_S256x2048_1_1_0_0_n_n 64 rfl rfl).symm d) = ix2 r d := funext fun a => Fin.ext (by
    match a with
    | ⟨0, _⟩ => exact qk_lhs_0 _ _
    | ⟨1, _⟩ => exact (qk_lhs_1 _ _).trans hk)
  have er : dot_S256x64_S2048x64_S256x2048_1_1_0_0_n_n.rhsIdx (ix2 r m) ((ValueIdx.contrEquiv1 dot_S256x64_S2048x64_S256x2048_1_1_0_0_n_n 64 rfl rfl).symm d) = ix2 m d := funext fun a => Fin.ext (by
    match a with
    | ⟨0, _⟩ => exact qk_rhs_0 _ _
    | ⟨1, _⟩ => exact (qk_rhs_1 _ _).trans hk)
  rw [el, er]

/-- The operand indices of the weight-value product: the weights' keys against the values' rows. -/
theorem pv_lhs_0 (i : S256x64.Idx) (p : dot_S256x2048_S2048x64_S256x64_1_0_0_1_n_n.contr.Idx) :
    (dot_S256x2048_S2048x64_S256x64_1_0_0_1_n_n.lhsIdx i p 0).val = (i 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
theorem pv_lhs_1 (i : S256x64.Idx) (p : dot_S256x2048_S2048x64_S256x64_1_0_0_1_n_n.contr.Idx) :
    (dot_S256x2048_S2048x64_S256x64_1_0_0_1_n_n.lhsIdx i p 1).val = (p ⟨0, by decide⟩).val :=
  dot_S256x2048_S2048x64_S256x64_1_0_0_1_n_n.lhsIdx_val_of_single rfl i p
theorem pv_rhs_0 (i : S256x64.Idx) (p : dot_S256x2048_S2048x64_S256x64_1_0_0_1_n_n.contr.Idx) :
    (dot_S256x2048_S2048x64_S256x64_1_0_0_1_n_n.rhsIdx i p 0).val = (p ⟨0, by decide⟩).val :=
  dot_S256x2048_S2048x64_S256x64_1_0_0_1_n_n.rhsIdx_val_of_single rfl i p
theorem pv_rhs_1 (i : S256x64.Idx) (p : dot_S256x2048_S2048x64_S256x64_1_0_0_1_n_n.contr.Idx) :
    (dot_S256x2048_S2048x64_S256x64_1_0_0_1_n_n.rhsIdx i p 1).val = (i 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl

/-- The weight-value product at (row, lane): the sum over the keys. -/
theorem pv_apply (p : FVec Ideal S256x2048 .bf16) (v : FVec Ideal S2048x64 .bf16) (r : Fin 256) (d : Fin 64) :
    matmul dot_S256x2048_S2048x64_S256x64_1_0_0_1_n_n none p v (constant (F := Ideal) S256x64 .f32 0x00000000#32) (ix2 r d)
      = ∑ m : Fin 2048, p (ix2 r m) * v (ix2 m d) := by
  simp only [matmul]
  rw [Ideal.matmul_constant_zero_apply, ← Equiv.sum_comp (ValueIdx.contrEquiv1 dot_S256x2048_S2048x64_S256x64_1_0_0_1_n_n 2048 rfl rfl).symm]
  refine Finset.sum_congr rfl fun m _ => ?_
  have hk := ValueIdx.contrEquiv1_symm_val dot_S256x2048_S2048x64_S256x64_1_0_0_1_n_n 2048 rfl rfl m
  have el : dot_S256x2048_S2048x64_S256x64_1_0_0_1_n_n.lhsIdx (ix2 r d) ((ValueIdx.contrEquiv1 dot_S256x2048_S2048x64_S256x64_1_0_0_1_n_n 2048 rfl rfl).symm m) = ix2 r m := funext fun a => Fin.ext (by
    match a with
    | ⟨0, _⟩ => exact pv_lhs_0 _ _
    | ⟨1, _⟩ => exact (pv_lhs_1 _ _).trans hk)
  have er : dot_S256x2048_S2048x64_S256x64_1_0_0_1_n_n.rhsIdx (ix2 r d) ((ValueIdx.contrEquiv1 dot_S256x2048_S2048x64_S256x64_1_0_0_1_n_n 2048 rfl rfl).symm m) = ix2 m d := funext fun a => Fin.ext (by
    match a with
    | ⟨0, _⟩ => exact (pv_rhs_0 _ _).trans hk
    | ⟨1, _⟩ => exact pv_rhs_1 _ _)
  rw [el, er]

/-- The index a row reduction reads: the row's index with the key inserted. -/
theorem row_lift (r : Fin 256) (m : Fin 2048) : reduces_S256x2048_S256.lift (ix1 r) m = ix2 r m :=
  funext fun a => Fin.ext (by
    match a with
    | ⟨0, _⟩ => rfl
    | ⟨1, _⟩ => rfl)

/-- A row's maximum over the keys. -/
theorem rowmax_apply (src : FVec Ideal S256x2048 .f32) (hφ : FKind.Formats .f32)
    (hacc : (0xFF800000#32 : BitVec 32) = 0xFF800000#32) (r : Fin 256) :
    multiReduction .maximumf [1] S256 src 0xFF800000#32 reduces_S256x2048_S256 hφ hacc (ix1 r)
      = rowMax (fun m => src (ix2 r m)) := by
  refine (Ideal.multiReduction_maximumf_single src _ reduces_S256x2048_S256 hφ hacc (ix1 r)).trans ?_
  unfold rowMax
  show (Finset.univ : Finset (Fin 2048)).fold max ninf (src ∘ reduces_S256x2048_S256.lift (ix1 r)) = _
  exact congrArg (fun f => (Finset.univ : Finset (Fin 2048)).fold max ninf f) (funext fun m => congrArg src (row_lift r m))

/-- A row's sum over the keys. -/
theorem rowsum_apply (src : FVec Ideal S256x2048 .f32) (hφ : FKind.Formats .f32)
    (hacc : (0x00000000#32 : BitVec 32) = 0x00000000#32) (r : Fin 256) :
    multiReduction .add [1] S256 src 0x00000000#32 reduces_S256x2048_S256 hφ hacc (ix1 r)
      = ∑ m : Fin 2048, src (ix2 r m) := by
  refine (Ideal.multiReduction_add_single src _ reduces_S256x2048_S256 hφ hacc (ix1 r)).trans ?_
  show ∑ m : Fin 2048, src (reduces_S256x2048_S256.lift (ix1 r) m) = _
  exact Finset.sum_congr rfl fun m _ => congrArg src (row_lift r m)

/-- A vector of 256 rows viewed as a column. -/
theorem col_cast_apply {α : Type} (v : S256.Idx → α) (r : Fin 256) (z : Fin 1) :
    shapeCast S256x1 v shapeCasts_S256_S256x1 (ix2 r z) = v (ix1 r) := by
  refine shapeCast_apply v shapeCasts_S256_S256x1 (ix2 r z) (ix1 r) ?_
  rw [Shape.rowMajor_val_one, Shape.rowMajor_val_two]
  show r.val = r.val * 1 + z.val
  have := z.isLt
  omega

/-- A column spread over the 2048 keys, -/
theorem col_bcast_keys_apply {α : Type} (v : S256x1.Idx → α) (r : Fin 256) (m : Fin 2048) :
    broadcastTo S256x2048 v broadcasts_S256x1_S256x2048 (ix2 r m) = v (ix2 r (0 : Fin 1)) := by
  refine broadcastTo_apply v broadcasts_S256x1_S256x2048 (ix2 r m) (ix2 r (0 : Fin 1)) fun a => ?_
  match a with
  | ⟨0, _⟩ => rfl
  | ⟨1, _⟩ => rfl
/-- and over the 64 lanes. -/
theorem col_bcast_lanes_apply {α : Type} (v : S256x1.Idx → α) (r : Fin 256) (d : Fin 64) :
    broadcastTo S256x64 v broadcasts_S256x1_S256x64 (ix2 r d) = v (ix2 r (0 : Fin 1)) := by
  refine broadcastTo_apply v broadcasts_S256x1_S256x64 (ix2 r d) (ix2 r (0 : Fin 1)) fun a => ?_
  match a with
  | ⟨0, _⟩ => rfl
  | ⟨1, _⟩ => rfl

theorem exp_apply' (a : FVec Ideal S256x2048 .f32) (i : S256x2048.Idx) : exp a i = Ideal.exp (a i) := rfl

/-- One head at (row, lane): the attention of the row's query against the keys and values. -/
theorem head1_apply (q : FVec Ideal S256x64 .bf16) (k v : FVec Ideal S2048x64 .bf16) (r : Fin 256) (d : Fin 64) :
    head1 q k v (ix2 r d) = attnK (fun d' => q (ix2 r d')) (fun m d' => k (ix2 m d')) (fun m d' => v (ix2 m d')) d := by
  unfold head1
  dsimp only
  simp only [truncf_apply, divf_apply, pv_apply, col_bcast_lanes_apply, col_cast_apply]
  rw [rowsum_apply]
  simp only [truncf_apply, exp_apply', subf_apply, col_bcast_keys_apply, col_cast_apply]
  rw [rowmax_apply]
  simp only [mulf_apply, qk_apply, broadcast_apply]
  unfold attnK expo score
  rfl

/-! ## From the blocks to the array -/

/-- Attention depends on its queries, keys and values entry by entry. -/
theorem attnK_congr {q q' : Fin 64 → EReal} {k k' v v' : Fin 2048 → Fin 64 → EReal}
    (hq : ∀ d, q d = q' d) (hk : ∀ m d, k m d = k' m d) (hv : ∀ m d, v m d = v' m d) (d : Fin 64) :
    attnK q k v d = attnK q' k' v' d := by
  rw [funext hq, (funext fun m => funext (hk m) : k = k'), (funext fun m => funext (hv m) : v = v')]

/-- What the body leaves at row `r`, head `h`, lane `d` of the output block. -/
theorem out1_3_apply (x0 : Vec Ideal S1x256x1x16x64 .bf16) (x1 x2 : Vec Ideal S1x2048x1x16x64 .bf16)
    (z : Fin 1) (r : Fin 256) (h : Fin 16) (d : Fin 64) :
    out1_3 x0 x1 x2 (ix4 z r h d)
      = attnK (fun d' => x0 (ix5 (0 : Fin 1) r (0 : Fin 1) h d')) (fun m d' => x1 (ix5 (0 : Fin 1) m (0 : Fin 1) h d'))
          (fun m d' => x2 (ix5 (0 : Fin 1) m (0 : Fin 1) h d')) d := by
  unfold out1_3
  exact head1_apply _ _ _ r d

variable (V : (c : Dev nD) → (b : Ref sig .tc) → Buf (Elt Ideal) ((c : Thread nD τ).loc b))

/-- The printed index maps over the grid: the query and output blocks move together over (batch, row block), the key
    and value blocks over the batch only, at parts 1 and 2 of the fused array. -/
theorem idx_facts1 : ∀ t : Fin cfg1.N,
    win1_0.index t (0 : Fin 5) = win1_3.index t (0 : Fin 4) ∧ win1_0.index t (1 : Fin 5) = win1_3.index t (1 : Fin 4)
    ∧ win1_0.index t (2 : Fin 5) = 0 ∧ win1_0.index t (3 : Fin 5) = 0 ∧ win1_0.index t (4 : Fin 5) = 0
    ∧ win1_1.index t (0 : Fin 5) = win1_3.index t (0 : Fin 4) ∧ win1_1.index t (1 : Fin 5) = 0
    ∧ win1_1.index t (2 : Fin 5) = 1 ∧ win1_1.index t (3 : Fin 5) = 0 ∧ win1_1.index t (4 : Fin 5) = 0
    ∧ win1_2.index t (0 : Fin 5) = win1_3.index t (0 : Fin 4) ∧ win1_2.index t (1 : Fin 5) = 0
    ∧ win1_2.index t (2 : Fin 5) = 2 ∧ win1_2.index t (3 : Fin 5) = 0 ∧ win1_2.index t (4 : Fin 5) = 0
    ∧ win1_3.index t (2 : Fin 4) = 0 ∧ win1_3.index t (3 : Fin 4) = 0
    ∧ win1_3.index t (0 : Fin 4) ≤ 3 ∧ win1_3.index t (1 : Fin 4) ≤ 7 :=
  (by decide +kernel : ∀ t : Fin grid1.N, _)

/-- Every (batch, row block) is some point's. -/
theorem idx_onto1 : ∀ (q0 : Fin 4) (q1 : Fin 8), ∃ t : Fin cfg1.N, win1_3.index t = ![q0.val, q1.val, 0, 0] :=
  (by decide +kernel : ∀ (q0 : Fin 4) (q1 : Fin 8), ∃ t : Fin grid1.N, win1_3.index t = ![q0.val, q1.val, 0, 0])

/-- The query block at a point: rows `256 i + r` of batch `b`, part 0. -/
theorem iblk1_0_apply (c : Dev nD) (t : Fin cfg1.N) (b : Fin 4) (n : Fin 2048) (r : Fin 256) (h : Fin 16) (d : Fin 64)
    (hb : b.val = win1_3.index t (0 : Fin 4)) (hn : n.val = win1_3.index t (1 : Fin 4) * 256 + r.val) :
    (iblk1 V c 0 t : Vec Ideal S1x256x1x16x64 .bf16) (ix5 (0 : Fin 1) r (0 : Fin 1) h d)
      = (V c main_v5 : S4x2048x3x16x64.Idx → Elt Ideal .bf16) (ix5 b n (0 : Fin 3) h d) := by
  obtain ⟨e0, e1, e2, e3, e4, -⟩ := idx_facts1 t
  unfold iblk1
  rw [View.read_apply]
  show (V c main_v5 : S4x2048x3x16x64.Idx → Elt Ideal .bf16) _ = V c main_v5 _
  congr 1
  funext a
  apply Fin.ext
  match a with
  | ⟨0, _⟩ => show win1_0.index t (0 : Fin 5) * 1 + 1 * 0 = b.val; omega
  | ⟨1, _⟩ => show win1_0.index t (1 : Fin 5) * 256 + 1 * r.val = n.val; omega
  | ⟨2, _⟩ => show win1_0.index t (2 : Fin 5) * 1 + 1 * 0 = 0; omega
  | ⟨3, _⟩ => show win1_0.index t (3 : Fin 5) * 16 + 1 * h.val = h.val; omega
  | ⟨4, _⟩ => show win1_0.index t (4 : Fin 5) * 64 + 1 * d.val = d.val; omega

/-- The key block at a point: all rows of batch `b`, part 1. -/
theorem iblk1_1_apply (c : Dev nD) (t : Fin cfg1.N) (b : Fin 4) (m : Fin 2048) (h : Fin 16) (d : Fin 64)
    (hb : b.val = win1_3.index t (0 : Fin 4)) :
    (iblk1 V c 1 t : Vec Ideal S1x2048x1x16x64 .bf16) (ix5 (0 : Fin 1) m (0 : Fin 1) h d)
      = (V c main_v5 : S4x2048x3x16x64.Idx → Elt Ideal .bf16) (ix5 b m (1 : Fin 3) h d) := by
  obtain ⟨-, -, -, -, -, e0, e1, e2, e3, e4, -⟩ := idx_facts1 t
  unfold iblk1
  rw [View.read_apply]
  show (V c main_v5 : S4x2048x3x16x64.Idx → Elt Ideal .bf16) _ = V c main_v5 _
  congr 1
  funext a
  apply Fin.ext
  match a with
  | ⟨0, _⟩ => show win1_1.index t (0 : Fin 5) * 1 + 1 * 0 = b.val; omega
  | ⟨1, _⟩ => show win1_1.index t (1 : Fin 5) * 2048 + 1 * m.val = m.val; omega
  | ⟨2, _⟩ => show win1_1.index t (2 : Fin 5) * 1 + 1 * 0 = 1; omega
  | ⟨3, _⟩ => show win1_1.index t (3 : Fin 5) * 16 + 1 * h.val = h.val; omega
  | ⟨4, _⟩ => show win1_1.index t (4 : Fin 5) * 64 + 1 * d.val = d.val; omega

/-- The value block at a point: all rows of batch `b`, part 2. -/
theorem iblk1_2_apply (c : Dev nD) (t : Fin cfg1.N) (b : Fin 4) (m : Fin 2048) (h : Fin 16) (d : Fin 64)
    (hb : b.val = win1_3.index t (0 : Fin 4)) :
    (iblk1 V c 2 t : Vec Ideal S1x2048x1x16x64 .bf16) (ix5 (0 : Fin 1) m (0 : Fin 1) h d)
      = (V c main_v5 : S4x2048x3x16x64.Idx → Elt Ideal .bf16) (ix5 b m (2 : Fin 3) h d) := by
  obtain ⟨-, -, -, -, -, -, -, -, -, -, e0, e1, e2, e3, e4, -⟩ := idx_facts1 t
  unfold iblk1
  rw [View.read_apply]
  show (V c main_v5 : S4x2048x3x16x64.Idx → Elt Ideal .bf16) _ = V c main_v5 _
  congr 1
  funext a
  apply Fin.ext
  match a with
  | ⟨0, _⟩ => show win1_2.index t (0 : Fin 5) * 1 + 1 * 0 = b.val; omega
  | ⟨1, _⟩ => show win1_2.index t (1 : Fin 5) * 2048 + 1 * m.val = m.val; omega
  | ⟨2, _⟩ => show win1_2.index t (2 : Fin 5) * 1 + 1 * 0 = 2; omega
  | ⟨3, _⟩ => show win1_2.index t (3 : Fin 5) * 16 + 1 * h.val = h.val; omega
  | ⟨4, _⟩ => show win1_2.index t (4 : Fin 5) * 64 + 1 * d.val = d.val; omega

/-- What a point writes back is its block of the attention of the fused array. -/
theorem flushed1_eq (c : Dev nD) (t : Fin cfg1.N) :
    (dat1 (F := Ideal) V c).flushed 3 t = ((cfg1.win 3).blk t).view.read (Elt Ideal) (Att1 (V c main_v5)) := by
  show (cfg1.win 3).cut (grid1.coords t) ((dat1 V c).after 3 t) = _
  rw [after1_3]
  obtain ⟨-, -, -, -, -, -, -, -, -, -, -, -, -, -, -, e2, e3, l0, l1⟩ := idx_facts1 t
  funext y
  obtain ⟨z, r, h, d, rfl⟩ : ∃ (z : Fin 1) (r : Fin 256) (h : Fin 16) (d : Fin 64), y = ix4 z r h d :=
    ⟨y 0, y 1, y 2, y 3, eq_ix4 y⟩
  rw [View.read_apply]
  show out1_3 (iblk1 V c 0 t) (iblk1 V c 1 t) (iblk1 V c 2 t) (ix4 z r h d)
    = Att1 (V c main_v5) (((cfg1.win 3).blk t).view.emb (ix4 z r h d))
  have hemb : ((cfg1.win 3).blk t).view.emb (ix4 z r h d)
      = ix4 (⟨win1_3.index t (0 : Fin 4), by omega⟩ : Fin 4) (⟨win1_3.index t (1 : Fin 4) * 256 + r.val, by omega⟩ : Fin 2048) h d := by
    funext a
    apply Fin.ext
    match a with
    | ⟨0, _⟩ => show win1_3.index t (0 : Fin 4) * 1 + 1 * z.val = win1_3.index t (0 : Fin 4); omega
    | ⟨1, _⟩ => show win1_3.index t (1 : Fin 4) * 256 + 1 * r.val = win1_3.index t (1 : Fin 4) * 256 + r.val; omega
    | ⟨2, _⟩ => show win1_3.index t (2 : Fin 4) * 16 + 1 * h.val = h.val; omega
    | ⟨3, _⟩ => show win1_3.index t (3 : Fin 4) * 64 + 1 * d.val = d.val; omega
  rw [hemb, out1_3_apply]
  unfold Att1
  exact attnK_congr (fun d' => iblk1_0_apply V c t _ _ r h d' rfl rfl) (fun m d' => iblk1_1_apply V c t _ m h d' rfl)
    (fun m d' => iblk1_2_apply V c t _ m h d' rfl) d

/-- An index of the output array is in a point's block iff each coordinate is in the block's range. -/
theorem mem_blk1 (t : Fin cfg1.N) (i : S4x2048x16x64.Idx) :
    i ∈ ((cfg1.win 3).blk t).view.set ↔ ∀ a : Fin 4, win1_3.index t a * S1x256x16x64.size a ≤ (i a).val
      ∧ (i a).val < win1_3.index t a * S1x256x16x64.size a + S1x256x16x64.size a := by
  show i ∈ ((View.whole main_v6).slice (win1_3.rect t)).set ↔ _
  rw [View.set_slice_whole, Rect.mem_set_unit]
  exact Iff.rfl

/-- Every entry of the output array lies in some point's block: row `n` of batch `b` in point (b, n / 256)'s. -/
theorem cover1 (i : S4x2048x16x64.Idx) : ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 16 := (i 2).isLt
  have hi3 : (i 3).val < 64 := (i 3).isLt
  obtain ⟨t, ht⟩ := idx_onto1 ⟨(i 0).val, hi0⟩ ⟨(i 1).val / 256, by omega⟩
  have q0 : win1_3.index t (0 : Fin 4) = (i 0).val := congrFun ht 0
  have q1 : win1_3.index t (1 : Fin 4) = (i 1).val / 256 := congrFun ht 1
  have q2 : win1_3.index t (2 : Fin 4) = 0 := congrFun ht 2
  have q3 : win1_3.index t (3 : Fin 4) = 0 := congrFun ht 3
  refine ⟨t, flush1_3 t, ?_⟩
  rw [mem_blk1]
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 256 ≤ (i 1).val ∧ (i 1).val < win1_3.index t (1 : Fin 4) * 256 + 256; omega
  | ⟨2, _⟩ => show win1_3.index t (2 : Fin 4) * 16 ≤ (i 2).val ∧ (i 2).val < win1_3.index t (2 : Fin 4) * 16 + 16; omega
  | ⟨3, _⟩ => show win1_3.index t (3 : Fin 4) * 64 ≤ (i 3).val ∧ (i 3).val < win1_3.index t (3 : Fin 4) * 64 + 64; omega

/-- The array the region's output window writes, after the last point. -/
theorem arr1 (c : Dev nD) : (dat1 (F := Ideal) V c).arrAt 3 cfg1.N = Att1 (V c main_v5) :=
  (dat1 (F := Ideal) V c).arrAt_eq_of_cover 3 (Att1 (V c main_v5)) (fun t _ => flushed1_eq V c t) cover1

end Cert.Val

end
-- ==== Proof.Val.K2.lean ====
/-
  What the output projection's region leaves in its output array, at the extended reals: entry (R, o) is the sum over k of
  the attention outputs' entry (R, k) times the weights' entry (o, k), plus the bias row's entry o.
-/
import proofs.«423178_j21577915695182_3_alg».proof.Proof.KI.R2
import proofs.«423178_j21577915695182_3_alg».proof.Proof.Val.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (V : (c : Dev nD) → (b : Ref sig .tc) → Buf (Elt Ideal) ((c : Thread nD τ).loc b))

namespace K2

/-- The zero offsets, as a constant function. -/
theorem hz2 : (![0, 0] : Fin 2 → Nat) = fun _ => 0 := funext fun a => by fin_cases a <;> rfl

/-- The contraction's index maps, axis by axis: the left operand is read at (row of the result, k), the right at (column of the result, k). -/
theorem lhs2_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs2_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs2_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs2_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The product of the two blocks at an index: row p of the first against row q of the second. -/
theorem mm2_apply (x0 x1 : Vec Ideal S1024x1024 .bf16) (p q : Fin 1024) :
    (matmul (F := Ideal) (φ₁ := .bf16) (φ₂ := .bf16) dot_S1024x1024_S1024x1024_S1024x1024_1_1_0_0_n_n none x0 x1 (constant (F := Ideal) S1024x1024 .f32 0x00000000#32) (ix2 p q) : EReal)
      = ∑ k : Fin 1024, (x0 (ix2 p k) : EReal) * (x1 (ix2 q k) : EReal) := by
  refine (Ideal.matmul_constant_zero_apply (φ₁ := .bf16) (φ₂ := .bf16) dot_S1024x1024_S1024x1024_S1024x1024_1_1_0_0_n_n none x0 x1 (ix2 p q)).trans ?_
  rw [← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k := funext fun a => Fin.ext (by
    match a with
    | ⟨0, _⟩ => exact lhs2_0 _ _
    | ⟨1, _⟩ => exact (lhs2_1 _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k := funext fun a => Fin.ext (by
    match a with
    | ⟨0, _⟩ => exact rhs2_0 _ _
    | ⟨1, _⟩ => exact (rhs2_1 _ _).trans hk)
  rw [el, er]

/-- The body's payload at an index: row p of the first block against row q of the second, plus the bias row at q. -/
theorem pay2_apply (x0 x1 : Vec Ideal S1024x1024 .bf16) (x2 : Vec Ideal S1x1024 .f32) (p q : Fin 1024) :
    (k2_pay1 (F := Ideal) x0 x1 x2 (ix2 p q) : EReal)
      = (∑ k : Fin 1024, (x0 (ix2 p k) : EReal) * (x1 (ix2 q k) : EReal)) + (x2 (ix2 (0 : Fin 1) q) : EReal) := by
  unfold k2_pay1
  rw [addf_apply]
  simp only [shapeCast_self]
  exact congrArg₂ (· + ·) (mm2_apply x0 x1 p q) (broadcastTo_1b_ab_apply x2 broadcasts_S1x1024_S1024x1024 p q)

/-- The printed index maps, decided over the grid: the activations' and the output's block index is the point on the row axis,
    the weights' and the bias row's block is the whole array. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The activations' block at point t, at (p, k), is the array at row (block index)·1024 + p. -/
theorem iblk2_0_apply (c : Dev nD) (t : Fin cfg2.N) (p k : Fin 1024) (R : Fin 8192)
    (hR : R.val = win2_0.index t (0 : Fin 2) * 1024 + p.val) (h1 : win2_0.index t (1 : Fin 2) = 0) :
    (iblk2 V c 0 t : Vec Ideal S1024x1024 .bf16) (ix2 p k) = (V c main_v7 : S8192x1024.Idx → Elt Ideal .bf16) (ix2 R k) := by
  show V c main_v7 (((cfg2.win 0).blk t).view.emb (ix2 p k)) = _
  refine congrArg (V c main_v7) (funext fun a => Fin.ext ?_)
  match a with
  | ⟨0, _⟩ => show win2_0.index t (0 : Fin 2) * 1024 + 1 * p.val = R.val; omega
  | ⟨1, _⟩ => show win2_0.index t (1 : Fin 2) * 1024 + 1 * k.val = k.val; omega

/-- The weights' block at any point is the whole matrix. -/
theorem iblk2_1_apply (c : Dev nD) (t : Fin cfg2.N) (q k : Fin 1024)
    (h0 : win2_1.index t (0 : Fin 2) = 0) (h1 : win2_1.index t (1 : Fin 2) = 0) :
    (iblk2 V c 1 t : Vec Ideal S1024x1024 .bf16) (ix2 q k) = (V c main_v3 : S1024x1024.Idx → Elt Ideal .bf16) (ix2 q k) := by
  show V c main_v3 (((cfg2.win 1).blk t).view.emb (ix2 q k)) = _
  refine congrArg (V c main_v3) (funext fun a => Fin.ext ?_)
  match a with
  | ⟨0, _⟩ => show win2_1.index t (0 : Fin 2) * 1024 + 1 * q.val = q.val; omega
  | ⟨1, _⟩ => show win2_1.index t (1 : Fin 2) * 1024 + 1 * k.val = k.val; omega

/-- The bias row's block at any point is the whole row. -/
theorem iblk2_2_apply (c : Dev nD) (t : Fin cfg2.N) (z : Fin 1) (q : Fin 1024)
    (h0 : win2_2.index t (0 : Fin 2) = 0) (h1 : win2_2.index t (1 : Fin 2) = 0) :
    (iblk2 V c 2 t : Vec Ideal S1x1024 .f32) (ix2 z q) = (V c main_v8 : S1x1024.Idx → Elt Ideal .f32) (ix2 z q) := by
  show V c main_v8 (((cfg2.win 2).blk t).view.emb (ix2 z q)) = _
  refine congrArg (V c main_v8) (funext fun a => Fin.ext ?_)
  match a with
  | ⟨0, _⟩ => show win2_2.index t (0 : Fin 2) * 1 + 1 * z.val = z.val; omega
  | ⟨1, _⟩ => show win2_2.index t (1 : Fin 2) * 1024 + 1 * q.val = q.val; omega

/-- What point t leaves, at an index of its block, is the sum plus the bias at the array index the block places it at. -/
theorem flushed_pt2 (c : Dev nD) (t : Fin cfg2.N) (j : S1024x1024.Idx) :
    k2_pay1 (F := Ideal) (iblk2 V c 0 t) (iblk2 V c 1 t) (iblk2 V c 2 t) j
      = Lin2 (V c main_v7) (V c main_v3) (V c main_v8) (((cfg2.win 3).blk t).view.emb j) := by
  obtain ⟨p, q, rfl⟩ : ∃ (p : Fin 1024) (q : Fin 1024), j = ix2 p q := ⟨j 0, j 1, eq_ix2 j⟩
  obtain ⟨e0, e1, e2, e3, e4, e5, e6, e7⟩ := idx_facts2 t
  refine (pay2_apply _ _ _ p q).trans ?_
  unfold Lin2
  have hR : ((((cfg2.win 3).blk t).view.emb (ix2 p q)) 0).val = win2_3.index t (0 : Fin 2) * 1024 + 1 * p.val := rfl
  have hQ : ((((cfg2.win 3).blk t).view.emb (ix2 p q)) 1).val = win2_3.index t (1 : Fin 2) * 1024 + 1 * q.val := rfl
  have hq : ∀ k : Fin 1024, (ix2 q k : S1024x1024.Idx) = ix2 ((((cfg2.win 3).blk t).view.emb (ix2 p q)) 1) k := fun k => by
    funext a; apply Fin.ext
    match a with
    | ⟨0, _⟩ => show q.val = ((((cfg2.win 3).blk t).view.emb (ix2 p q)) 1).val; rw [hQ, e7]; omega
    | ⟨1, _⟩ => rfl
  have hb : (ix2 (0 : Fin 1) q : S1x1024.Idx) = ix2 (0 : Fin 1) ((((cfg2.win 3).blk t).view.emb (ix2 p q)) 1) := by
    funext a; apply Fin.ext
    match a with
    | ⟨0, _⟩ => rfl
    | ⟨1, _⟩ => show q.val = ((((cfg2.win 3).blk t).view.emb (ix2 p q)) 1).val; rw [hQ, e7]; omega
  refine congrArg₂ (· + ·) (Finset.sum_congr rfl fun k _ => ?_) ?_
  · have hA := iblk2_0_apply V c t p k ((((cfg2.win 3).blk t).view.emb (ix2 p q)) 0) (by rw [hR, e6, e0]; omega) e1
    have hB := iblk2_1_apply V c t q k e2 e3
    exact congrArg₂ (· * ·) hA (hB.trans (congrArg (V c main_v3) (hq k)))
  · exact (iblk2_2_apply V c t 0 q e4 e5).trans (congrArg (V c main_v8) hb)

/-- What point t writes back is block t of the sums plus the bias. -/
theorem flushed_eq2 (c : Dev nD) (t : Fin cfg2.N) :
    (dat2 (F := Ideal) V c).flushed 3 t = ((cfg2.win 3).blk t).view.read (Elt Ideal) (Lin2 (V c main_v7) (V c main_v3) (V c main_v8)) := by
  show (cfg2.win 3).cut (grid2.coords t) ((dat2 V c).after 3 t) = _
  rw [after2_3]
  unfold out2_3
  rw [View.canon_unit_zero hz2]
  simp only [View.ld_unit_zero (S := S1024x1024) hz2, View.ld_unit_zero (S := S1x1024) hz2]
  funext j
  exact flushed_pt2 V c t j

/-- An index of the array is in point t's block iff each coordinate is in the block's range on its axis. -/
theorem mem_blk2 (t : Fin cfg2.N) (i : S8192x1024.Idx) :
    i ∈ ((cfg2.win 3).blk t).view.set ↔ ∀ a : Fin 2, win2_3.index t a * S1024x1024.size a ≤ (i a).val ∧ (i a).val < win2_3.index t a * S1024x1024.size a + S1024x1024.size a := by
  show i ∈ ((View.whole main_v9).slice (win2_3.rect t)).set ↔ _
  rw [View.set_slice_whole, Rect.mem_set_unit]
  exact Iff.rfl

/-- Row R lies in the block of point R / 1024: the eight blocks tile the array. -/
theorem cover2 (i : S8192x1024.Idx) : ∃ t : Fin cfg2.N, (cfg2.win 3).flush t = true ∧ i ∈ ((cfg2.win 3).blk t).view.set := by
  have hi0 : (i 0).val < 8192 := (i 0).isLt
  have hi1 : (i 1).val < 1024 := (i 1).isLt
  have hb : (i 0).val / 1024 < 8 := by omega
  obtain ⟨-, -, -, -, -, -, e6, e7⟩ := idx_facts2 ⟨(i 0).val / 1024, hb⟩
  have e6' : win2_3.index ⟨(i 0).val / 1024, hb⟩ (0 : Fin 2) = (i 0).val / 1024 := e6
  refine ⟨⟨(i 0).val / 1024, hb⟩, flush2_3 _, ?_⟩
  rw [mem_blk2]
  intro a
  match a with
  | ⟨0, _⟩ => show win2_3.index ⟨(i 0).val / 1024, hb⟩ (0 : Fin 2) * 1024 ≤ (i 0).val ∧ (i 0).val < win2_3.index ⟨(i 0).val / 1024, hb⟩ (0 : Fin 2) * 1024 + 1024; rw [e6']; omega
  | ⟨1, _⟩ => show win2_3.index ⟨(i 0).val / 1024, hb⟩ (1 : Fin 2) * 1024 ≤ (i 1).val ∧ (i 1).val < win2_3.index ⟨(i 0).val / 1024, hb⟩ (1 : Fin 2) * 1024 + 1024; rw [e7]; omega

end K2

open K2 in
/-- The array the region's output window writes, after the last point. -/
theorem arr2 (c : Dev nD) : (dat2 (F := Ideal) V c).arrAt 3 cfg2.N = Lin2 (V c main_v7) (V c main_v3) (V c main_v8) :=
  (dat2 V c).arrAt_eq_of_cover 3 (Lin2 (V c main_v7) (V c main_v3) (V c main_v8)) (fun t _ => flushed_eq2 V c t) cover2

end Cert.Val

end
-- ==== Proof.Val.Bridge.lean ====
/-
  The host reshapes around the three regions, at the extended reals: the activations flattened to [8192, 1024] rows
  R = b·2048 + n; the fused projection [8192, 3072] read as [4, 2048, 3, 16, 64] (column s·1024 + h·64 + d is part s,
  head h, lane d); the attention outputs [4, 2048, 16, 64] flattened to [8192, 1024] (column c is head c / 64, lane c % 64);
  the bias as a one-row matrix; the result [8192, 1024] read as [4, 2048, 1024]. A change of float format is the identity.
  Composed with what the three regions compute, the whole is the layer's output in the first arrangement.
-/
import proofs.«423178_j21577915695182_3_alg».proof.Proof.Gen.KernelIdeal
import proofs.«423178_j21577915695182_3_alg».proof.Proof.Val.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Val.Bridge

open Idealize.ShloMosaic Idealize.ShloMosaic.TcCoe Idealize.ShloMosaic.ValueIdx
open Cert.KernelIdeal Cert.KernelIdeal.Facts₀ Cert.Val

/-- Row `b·2048 + n` of the flattened arrays. -/
def row (b : Fin 4) (n : Fin 2048) : Fin 8192 := ⟨b.val * 2048 + n.val, by omega⟩

/-! ## The five reshapes read at coordinates: a reshape keeps the row-major position -/

section Layout
variable {α : Type}

/-- The activations flattened: row `b·2048 + n`, column `k` is entry `(b, n, k)`. -/
theorem flat3_apply (x : S4x2048x1024.Idx → α) (h : S4x2048x1024.ShapeCasts S8192x1024) (b : Fin 4) (n : Fin 2048) (k : Fin 1024) :
    shapeCast S8192x1024 x h (ix2 (row b n) k) = x (ix3 b n k) :=
  shapeCast_apply x h _ _ (by
    rw [Shape.rowMajor_val_three, Shape.rowMajor_val_two]
    show (b.val * 2048 + n.val) * 1024 + k.val = (b.val * 2048 + n.val) * 1024 + k.val
    rfl)

/-- The fused projection regrouped: entry `(b, n, s, h, d)` is row `b·2048 + n`, column `s·1024 + h·64 + d`. -/
theorem split5_apply (y : S8192x3072.Idx → α) (h : S8192x3072.ShapeCasts S4x2048x3x16x64)
    (b : Fin 4) (n : Fin 2048) (s : Fin 3) (hh : Fin 16) (d : Fin 64) :
    shapeCast S4x2048x3x16x64 y h (ix5 b n s hh d) = y (ix2 (row b n) (col s hh d)) :=
  shapeCast_apply y h _ _ (by
    rw [Shape.rowMajor_val_two, Shape.rowMajor_val_five]
    show (b.val * 2048 + n.val) * 3072 + (s.val * 1024 + hh.val * 64 + d.val)
      = ((((b.val * 2048 + n.val) * 3 + s.val) * 16 + hh.val) * 64 + d.val)
    omega)

/-- The attention outputs flattened: row `b·2048 + n`, column `c` is entry `(b, n, c / 64, c % 64)`. -/
theorem flat4_apply (z : S4x2048x16x64.Idx → α) (h : S4x2048x16x64.ShapeCasts S8192x1024) (b : Fin 4) (n : Fin 2048) (c : Fin 1024) :
    shapeCast S8192x1024 z h (ix2 (row b n) c) = z (ix4 b n (hd c) (dd c)) :=
  shapeCast_apply z h _ _ (by
    rw [Shape.rowMajor_val_four, Shape.rowMajor_val_two]
    show (((b.val * 2048 + n.val) * 16 + c.val / 64) * 64 + c.val % 64) = (b.val * 2048 + n.val) * 1024 + c.val
    omega)

/-- The result regrouped: entry `(b, n, o)` is row `b·2048 + n`, column `o`. -/
theorem split3_apply (u : S8192x1024.Idx → α) (h : S8192x1024.ShapeCasts S4x2048x1024) (b : Fin 4) (n : Fin 2048) (o : Fin 1024) :
    shapeCast S4x2048x1024 u h (ix3 b n o) = u (ix2 (row b n) o) :=
  shapeCast_apply u h _ _ (by
    rw [Shape.rowMajor_val_two, Shape.rowMajor_val_three]
    show (b.val * 2048 + n.val) * 1024 + o.val = (b.val * 2048 + n.val) * 1024 + o.val
    rfl)

end Layout

/-! ## The three regions' functions and the layer's output array read at coordinates -/

theorem Lin0_apply (a : T8192x1024.Idx → EReal) (w : T3072x1024.Idx → EReal) (R : Fin 8192) (o : Fin 3072) :
    Lin0 a w (ix2 R o) = ∑ k : Fin 1024, a (ix2 R k) * w (ix2 o k) := rfl

theorem Lin2_apply (a : T8192x1024.Idx → EReal) (w : T1024x1024.Idx → EReal) (bias : T1x1024.Idx → EReal) (R : Fin 8192) (o : Fin 1024) :
    Lin2 a w bias (ix2 R o) = (∑ k : Fin 1024, a (ix2 R k) * w (ix2 o k)) + bias (ix2 (0 : Fin 1) o) := rfl

theorem Att1_apply (a : T4x2048x3x16x64.Idx → EReal) (b : Fin 4) (n : Fin 2048) (hh : Fin 16) (d : Fin 64) :
    Att1 a (ix4 b n hh d) = attnK (fun d' => a (ix5 b n (0 : Fin 3) hh d'))
      (fun m d' => a (ix5 b m (1 : Fin 3) hh d')) (fun m d' => a (ix5 b m (2 : Fin 3) hh d')) d := rfl

theorem OutKA_apply (a0 : T4x2048x1024.Idx → EReal) (a1 : T3072x1024.Idx → EReal) (a2 : T1024x1024.Idx → EReal) (a3 : T1024.Idx → EReal)
    (b : Fin 4) (n : Fin 2048) (o : Fin 1024) :
    OutKA a0 a1 a2 a3 (ix3 b n o)
      = OutK (fun b n k => a0 (ix3 b n k)) (fun o k => a1 (ix2 o k)) (fun o c => a2 (ix2 o c)) (fun o => a3 (ix1 o)) b n o := rfl

/-! ## The chain, innermost first -/

/-- The first region over the flattened activations: row `b·2048 + n`, column `o` is the fused projection of token `(b, n)`. -/
theorem proj_apply (a0 : FVec Ideal S4x2048x1024 .f32) (a1 : FVec Ideal S3072x1024 .f32)
    (h0 : S4x2048x1024.ShapeCasts S8192x1024) (hb : FTy.bits .bf16 < FTy.bits .f32) (b : Fin 4) (n : Fin 2048) (o : Fin 3072) :
    Lin0 (truncf .bf16 (shapeCast S8192x1024 a0 h0) hb) (truncf .bf16 a1 hb) (ix2 (row b n) o)
      = QKV (fun b n k => a0 (ix3 b n k)) (fun o k => a1 (ix2 o k)) b n o := by
  rw [Lin0_apply]
  unfold QKV
  refine Finset.sum_congr rfl fun k _ => ?_
  rw [truncf_apply, truncf_apply, flat3_apply]

/-- The second region over the regrouped projection: entry `(b, n, h, d)` is the attention output of token `(b, n)`, head `h`, lane `d`. -/
theorem att_apply (a0 : FVec Ideal S4x2048x1024 .f32) (a1 : FVec Ideal S3072x1024 .f32)
    (h0 : S4x2048x1024.ShapeCasts S8192x1024) (hb : FTy.bits .bf16 < FTy.bits .f32) (h5 : S8192x3072.ShapeCasts S4x2048x3x16x64)
    (b : Fin 4) (n : Fin 2048) (hh : Fin 16) (d : Fin 64) :
    Att1 (shapeCast S4x2048x3x16x64 (Lin0 (truncf .bf16 (shapeCast S8192x1024 a0 h0) hb) (truncf .bf16 a1 hb)) h5) (ix4 b n hh d)
      = AK (fun b n k => a0 (ix3 b n k)) (fun o k => a1 (ix2 o k)) b n hh d := by
  have e : ∀ (m : Fin 2048) (s : Fin 3) (d' : Fin 64),
      shapeCast S4x2048x3x16x64 (Lin0 (truncf .bf16 (shapeCast S8192x1024 a0 h0) hb) (truncf .bf16 a1 hb)) h5 (ix5 b m s hh d')
        = QKV (fun b n k => a0 (ix3 b n k)) (fun o k => a1 (ix2 o k)) b m (col s hh d') := fun m s d' => by
    rw [split5_apply, proj_apply]
  rw [Att1_apply]
  unfold AK
  simp only [e]

/-- The kernel program's whole chain — flatten and narrow the inputs, project, regroup, attend, flatten, project with the bias,
    regroup — is the layer's output array (first arrangement) of the four argument arrays. -/
theorem bridge (a0 : FVec Ideal S4x2048x1024 .f32) (a1 : FVec Ideal S3072x1024 .f32) (a2 : FVec Ideal S1024x1024 .f32) (a3 : FVec Ideal S1024 .f32) :
    shapeCast S4x2048x1024
        (Lin2
          (shapeCast S8192x1024
            (Att1 (shapeCast S4x2048x3x16x64
              (Lin0 (truncf .bf16 (shapeCast S8192x1024 a0 shapeCasts_S4x2048x1024_S8192x1024) bitsLt_bf16_f32) (truncf .bf16 a1 bitsLt_bf16_f32))
              shapeCasts_S8192x3072_S4x2048x3x16x64))
            shapeCasts_S4x2048x16x64_S8192x1024)
          (truncf .bf16 a2 bitsLt_bf16_f32) (shapeCast S1x1024 a3 shapeCasts_S1024_S1x1024))
        shapeCasts_S8192x1024_S4x2048x1024
      = OutKA a0 a1 a2 a3 := by
  funext i
  obtain ⟨b, n, o, rfl⟩ : ∃ (b : Fin 4) (n : Fin 2048) (o : Fin 1024), i = ix3 b n o := ⟨i 0, i 1, i 2, eq_ix3 i⟩
  rw [split3_apply, Lin2_apply, OutKA_apply]
  unfold OutK
  refine congrArg₂ (· + ·) (Finset.sum_congr rfl fun c _ => ?_) (shapeCast_a_1a_apply a3 _ (0 : Fin 1) o)
  rw [flat4_apply, att_apply, truncf_apply]

end Cert.Val.Bridge

end
-- ==== Proof.Val.Final.lean ====
/-
  The kernel program's result buffer after the run, at the extended reals, is the layer's output (first arrangement) of the
  four argument arrays: the last valuation read back item by item — each host reshape and format change applied to what the
  item before left, each region's output array at the function of its entry arrays that the region computes.
-/
import proofs.«423178_j21577915695182_3_alg».proof.Proof.KI.Run
import proofs.«423178_j21577915695182_3_alg».proof.Proof.Val.K0
import proofs.«423178_j21577915695182_3_alg».proof.Proof.Val.K1
import proofs.«423178_j21577915695182_3_alg».proof.Proof.Val.K2
import proofs.«423178_j21577915695182_3_alg».proof.Proof.Val.Bridge
import Idealize.ShloMosaic.Lib.StableHlo.Run

set_option maxRecDepth 16384

noncomputable section

namespace Cert.Val

open Idealize.ShloMosaic Idealize.ShloMosaic.TcCoe Idealize.ShloMosaic.ValueIdx
open Idealize.SL Idealize.SL.Sem
open Cert.KernelIdeal Cert.KernelIdeal.Gen Cert.KernelIdeal.Hand

variable (m : (ℓ : Loc nD τ sig) → Buf (Elt Ideal) ℓ)

/-! ## The host stretches read at the buffers they write -/

section After
variable (W : Valuation τ sig (Elt Ideal))

theorem after0_v1 :
    (StableHlo.after (hostOps0 (F := Ideal)) W (Proc.devRef .tc main_v1) : FVec Ideal S8192x1024 .bf16)
      = truncf (F := Ideal) .bf16 (shapeCast S8192x1024 (W (Proc.devRef .tc main_arg0) : FVec Ideal S4x2048x1024 .f32) shapeCasts_S4x2048x1024_S8192x1024) bitsLt_bf16_f32 := by
  after_results
  rfl

theorem after0_v2 :
    (StableHlo.after (hostOps0 (F := Ideal)) W (Proc.devRef .tc main_v2) : FVec Ideal S3072x1024 .bf16)
      = truncf (F := Ideal) .bf16 (W (Proc.devRef .tc main_arg1) : FVec Ideal S3072x1024 .f32) bitsLt_bf16_f32 := by
  after_results

theorem after0_v3 :
    (StableHlo.after (hostOps0 (F := Ideal)) W (Proc.devRef .tc main_v3) : FVec Ideal S1024x1024 .bf16)
      = truncf (F := Ideal) .bf16 (W (Proc.devRef .tc main_arg2) : FVec Ideal S1024x1024 .f32) bitsLt_bf16_f32 := by
  after_results

theorem after1_v5 :
    (StableHlo.after (hostOps1 (F := Ideal)) W (Proc.devRef .tc main_v5) : FVec Ideal S4x2048x3x16x64 .bf16)
      = shapeCast S4x2048x3x16x64 (W (Proc.devRef .tc main_v4) : FVec Ideal S8192x3072 .bf16) shapeCasts_S8192x3072_S4x2048x3x16x64 := by
  after_results
  rfl

theorem after2_v7 :
    (StableHlo.after (hostOps2 (F := Ideal)) W (Proc.devRef .tc main_v7) : FVec Ideal S8192x1024 .bf16)
      = shapeCast S8192x1024 (W (Proc.devRef .tc main_v6) : FVec Ideal S4x2048x16x64 .bf16) shapeCasts_S4x2048x16x64_S8192x1024 := by
  after_results
  rfl

theorem after2_v8 :
    (StableHlo.after (hostOps2 (F := Ideal)) W (Proc.devRef .tc main_v8) : FVec Ideal S1x1024 .f32)
      = shapeCast S1x1024 (W (Proc.devRef .tc main_arg3) : FVec Ideal S1024 .f32) shapeCasts_S1024_S1x1024 := by
  after_results
  rfl

theorem after3_v10 :
    (StableHlo.after (hostOps3 (F := Ideal)) W (Proc.devRef .tc main_v10) : FVec Ideal S4x2048x1024 .f32)
      = shapeCast S4x2048x1024 (W (Proc.devRef .tc main_v9) : FVec Ideal S8192x1024 .f32) shapeCasts_S8192x1024_S4x2048x1024 := by
  after_results
  rfl

end After

/-! ## The valuations at the buffers the regions read and write -/

section Chain
variable (c : Dev nD)

/-- What a region leaves is what its output buffer holds right after it. -/
theorem V2_v4 : GenV.V2 m (X0 m) c (Proc.devRef .tc main_v4) = X0 m c := by
  show Function.update (GenV.V1 m c) (Proc.devRef .tc main_v4 : DevRef τ sig) (X0 m c) (Proc.devRef .tc main_v4) = _
  rw [Function.update_self]
theorem V4_v6 : GenV.V4 m (X0 m) (X1 m) c (Proc.devRef .tc main_v6) = X1 m c := by
  show Function.update (GenV.V3 m (X0 m) c) (Proc.devRef .tc main_v6 : DevRef τ sig) (X1 m c) (Proc.devRef .tc main_v6) = _
  rw [Function.update_self]
theorem V6_v9 : GenV.V6 m (X0 m) (X1 m) (X2 m) c (Proc.devRef .tc main_v9) = X2 m c := by
  show Function.update (GenV.V5 m (X0 m) (X1 m) c) (Proc.devRef .tc main_v9 : DevRef τ sig) (X2 m c) (Proc.devRef .tc main_v9) = _
  rw [Function.update_self]

/-- The first region's two entry arrays: the activations flattened and narrowed, the fused weights narrowed. -/
theorem Vr1_v1 : (Vr1 m c main_v1 : FVec Ideal S8192x1024 .bf16)
    = truncf (F := Ideal) .bf16 (shapeCast S8192x1024 (m ((c.tc : Thread nD τ).loc main_arg0) : FVec Ideal S4x2048x1024 .f32) shapeCasts_S4x2048x1024_S8192x1024) bitsLt_bf16_f32 :=
  after0_v1 (GenV.V0 m c)
theorem Vr1_v2 : (Vr1 m c main_v2 : FVec Ideal S3072x1024 .bf16)
    = truncf (F := Ideal) .bf16 (m ((c.tc : Thread nD τ).loc main_arg1) : FVec Ideal S3072x1024 .f32) bitsLt_bf16_f32 :=
  after0_v2 (GenV.V0 m c)

/-- The second region's entry array: the fused projection regrouped. -/
theorem Vr3_v5 : (Vr3 m c main_v5 : FVec Ideal S4x2048x3x16x64 .bf16)
    = shapeCast S4x2048x3x16x64 (X0 m c : FVec Ideal S8192x3072 .bf16) shapeCasts_S8192x3072_S4x2048x3x16x64 :=
  (after1_v5 (GenV.V2 m (X0 m) c)).trans
    (congrArg (fun z : FVec Ideal S8192x3072 .bf16 => shapeCast S4x2048x3x16x64 z shapeCasts_S8192x3072_S4x2048x3x16x64) (V2_v4 m c))

/-- The third region's three entry arrays: the attention outputs flattened, the output weights narrowed, the bias as one row. -/
theorem Vr5_v7 : (Vr5 m c main_v7 : FVec Ideal S8192x1024 .bf16)
    = shapeCast S8192x1024 (X1 m c : FVec Ideal S4x2048x16x64 .bf16) shapeCasts_S4x2048x16x64_S8192x1024 :=
  (after2_v7 (GenV.V4 m (X0 m) (X1 m) c)).trans
    (congrArg (fun z : FVec Ideal S4x2048x16x64 .bf16 => shapeCast S8192x1024 z shapeCasts_S4x2048x16x64_S8192x1024) (V4_v6 m c))
theorem V4_arg3 : GenV.V4 m (X0 m) (X1 m) c main_arg3 = m ((c.tc : Thread nD τ).loc main_arg3) :=
  (GenV.V4_of m (X0 m) (X1 m) c main_arg3 (by decide)).trans <| (GenV.V3_of m (X0 m) c main_arg3 (by decide)).trans <|
    (GenV.V2_of m (X0 m) c main_arg3 (by decide)).trans <| (GenV.V1_of m c main_arg3 (by decide)).trans rfl
theorem Vr5_v8 : (Vr5 m c main_v8 : FVec Ideal S1x1024 .f32)
    = shapeCast S1x1024 (m ((c.tc : Thread nD τ).loc main_arg3) : FVec Ideal S1024 .f32) shapeCasts_S1024_S1x1024 :=
  (after2_v8 (GenV.V4 m (X0 m) (X1 m) c)).trans
    (congrArg (fun z : FVec Ideal S1024 .f32 => shapeCast S1x1024 z shapeCasts_S1024_S1x1024) (V4_arg3 m c))
theorem Vr5_v3 : (Vr5 m c main_v3 : FVec Ideal S1024x1024 .bf16)
    = truncf (F := Ideal) .bf16 (m ((c.tc : Thread nD τ).loc main_arg2) : FVec Ideal S1024x1024 .f32) bitsLt_bf16_f32 :=
  (GenV.V5_of m (X0 m) (X1 m) c main_v3 (by decide)).trans <| (GenV.V4_of m (X0 m) (X1 m) c main_v3 (by decide)).trans <|
    (GenV.V3_of m (X0 m) c main_v3 (by decide)).trans <| (GenV.V2_of m (X0 m) c main_v3 (by decide)).trans <|
    after0_v3 (GenV.V0 m c)

/-- What the three regions leave, as functions of the argument arrays. -/
theorem X0_eq : (X0 m c : FVec Ideal S8192x3072 .bf16)
    = Lin0 (truncf (F := Ideal) .bf16 (shapeCast S8192x1024 (m ((c.tc : Thread nD τ).loc main_arg0) : FVec Ideal S4x2048x1024 .f32) shapeCasts_S4x2048x1024_S8192x1024) bitsLt_bf16_f32)
        (truncf (F := Ideal) .bf16 (m ((c.tc : Thread nD τ).loc main_arg1) : FVec Ideal S3072x1024 .f32) bitsLt_bf16_f32) := by
  unfold X0
  exact (arr0 (Vr1 m) c).trans (congrArg₂ Lin0 (Vr1_v1 m c) (Vr1_v2 m c))

theorem X1_eq : (X1 m c : FVec Ideal S4x2048x16x64 .bf16)
    = Att1 (shapeCast S4x2048x3x16x64 (X0 m c : FVec Ideal S8192x3072 .bf16) shapeCasts_S8192x3072_S4x2048x3x16x64) := by
  unfold X1
  exact (arr1 (Vr3 m) c).trans (congrArg Att1 (Vr3_v5 m c))

theorem X2_eq : (X2 m c : FVec Ideal S8192x1024 .f32)
    = Lin2 (shapeCast S8192x1024 (X1 m c : FVec Ideal S4x2048x16x64 .bf16) shapeCasts_S4x2048x16x64_S8192x1024)
        (truncf (F := Ideal) .bf16 (m ((c.tc : Thread nD τ).loc main_arg2) : FVec Ideal S1024x1024 .f32) bitsLt_bf16_f32)
        (shapeCast S1x1024 (m ((c.tc : Thread nD τ).loc main_arg3) : FVec Ideal S1024 .f32) shapeCasts_S1024_S1x1024) := by
  unfold X2
  refine (arr2 (Vr5 m) c).trans ?_
  rw [Vr5_v7, Vr5_v3, Vr5_v8]

end Chain

/-- The result buffer's final contents. -/
theorem final_value (c : Dev nD) :
    GenV.V7 m (X0 m) (X1 m) (X2 m) c main_v10
      = OutKA (m ((c.tc : Thread nD τ).loc main_arg0)) (m ((c.tc : Thread nD τ).loc main_arg1))
          (m ((c.tc : Thread nD τ).loc main_arg2)) (m ((c.tc : Thread nD τ).loc main_arg3)) := by
  refine ((after3_v10 (GenV.V6 m (X0 m) (X1 m) (X2 m) c)).trans ?_).trans
    (Bridge.bridge (m ((c.tc : Thread nD τ).loc main_arg0)) (m ((c.tc : Thread nD τ).loc main_arg1))
      (m ((c.tc : Thread nD τ).loc main_arg2)) (m ((c.tc : Thread nD τ).loc main_arg3)))
  rw [V6_v9, X2_eq, X1_eq, X0_eq]

end Cert.Val

end
-- ==== Proof.Val.Ref.lean ====
/-
  The reference program's result, at the extended reals, is the layer's output in the second arrangement: the fused
  projection, its split into queries, keys and values per head, the scaled scores, the softmax with its normalised weights,
  the weighted values, the heads merged back, the output projection and the bias.
-/
import proofs.«423178_j21577915695182_3_alg».proof.Proof.Gen.ReferenceIdeal.Run
import proofs.«423178_j21577915695182_3_alg».proof.Proof.Gen.ReferenceIdeal.Read
import proofs.«423178_j21577915695182_3_alg».proof.Proof.Val.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

set_option maxRecDepth 16384

noncomputable section

namespace Cert.Val.Ref

open Idealize.ShloMosaic Idealize.ShloMosaic.TcCoe Idealize.ShloMosaic.ValueIdx
open Idealize.SL Idealize.SL.Sem
open Cert.ReferenceIdeal Cert.ReferenceIdeal.Gen Cert.Val Cert.ReferenceIdeal.Read

/-- The token array and the fused weight matrix read by coordinates. -/
abbrev xc (x0 : (⟨S4x2048x1024, .f32⟩ : BufTy).Contents (Elt Ideal)) : Fin 4 → Fin 2048 → Fin 1024 → EReal :=
  fun b n k => x0 (ix3 b n k)
abbrev wc (x1 : (⟨S3072x1024, .f32⟩ : BufTy).Contents (Elt Ideal)) : Fin 3072 → Fin 1024 → EReal :=
  fun o k => x1 (ix2 o k)

section Stages
variable (x0 : (⟨S4x2048x1024, .f32⟩ : BufTy).Contents (Elt Ideal)) (x1 : (⟨S3072x1024, .f32⟩ : BufTy).Contents (Elt Ideal))

/-- The fused projection at token (b, n), column o. -/
theorem v0_at (b : Fin 4) (n : Fin 2048) (o : Fin 3072) :
    val_main_v0 (F := Ideal) x0 x1 (ix3 b n o) = QKV (xc x0) (wc x1) b n o := by
  rw [val_main_v0_apply]
  have el : ∀ k : Fin 1024, lidx_main_v0 (ix3 b n o) k = ix3 b n k := fun k => funext fun a => Fin.ext (by
    match a with | ⟨0, _⟩ => rfl | ⟨1, _⟩ => rfl | ⟨2, _⟩ => rfl)
  have er : ∀ k : Fin 1024, ridx_main_v0 (ix3 b n o) k = ix2 o k := fun k => funext fun a => Fin.ext (by
    match a with | ⟨0, _⟩ => rfl | ⟨1, _⟩ => rfl)
  simp only [el, er]
  rfl

/-- Split by part, head and lane, entry (b, n, s, h, d) is column s·1024 + h·64 + d. -/
theorem v1_at (b : Fin 4) (n : Fin 2048) (s : Fin 3) (h : Fin 16) (d : Fin 64) :
    val_main_v1 (F := Ideal) x0 x1 (ix5 b n s h d) = QKV (xc x0) (wc x1) b n (col s h d) := by
  rw [val_main_v1_apply]
  have e : idx_main_v1 (ix5 b n s h d) = ix3 b n (col s h d) := funext fun a => Fin.ext (by
    have hb := b.isLt; have hn := n.isLt; have hs := s.isLt; have hh := h.isLt; have hd := d.isLt
    match a with
    | ⟨0, _⟩ => show ((((b.val * 2048 + n.val) * 3 + s.val) * 16 + h.val) * 64 + d.val) / 6291456 = b.val; omega
    | ⟨1, _⟩ => show ((((b.val * 2048 + n.val) * 3 + s.val) * 16 + h.val) * 64 + d.val) / 3072 % 2048 = n.val; omega
    | ⟨2, _⟩ => show ((((b.val * 2048 + n.val) * 3 + s.val) * 16 + h.val) * 64 + d.val) % 3072 = s.val * 1024 + h.val * 64 + d.val; omega)
  rw [e, v0_at]

/-- The queries: part 0, rearranged to (batch, head, token, lane). -/
theorem v4_at (b : Fin 4) (h : Fin 16) (n : Fin 2048) (d : Fin 64) :
    val_main_v4 (F := Ideal) x0 x1 (ix4 b h n d) = QKV (xc x0) (wc x1) b n (col 0 h d) := by
  rw [val_main_v4_apply, val_main_v3_apply, val_main_v2_apply]
  have e : idx_main_v2 (idx_main_v3 (idx_main_v4 (ix4 b h n d))) = ix5 b n (0 : Fin 3) h d := funext fun a => Fin.ext (by
    have hb := b.isLt; have hn := n.isLt; have hh := h.isLt; have hd := d.isLt
    match a with
    | ⟨0, _⟩ => show (((b.val * 16 + h.val) * 2048 + n.val) * 64 + d.val) / 2097152 % 4 = b.val; omega
    | ⟨1, _⟩ => show (((b.val * 16 + h.val) * 2048 + n.val) * 64 + d.val) / 64 % 2048 = n.val; omega
    | ⟨2, _⟩ => rfl
    | ⟨3, _⟩ => show (((b.val * 16 + h.val) * 2048 + n.val) * 64 + d.val) / 131072 % 16 = h.val; omega
    | ⟨4, _⟩ => show (((b.val * 16 + h.val) * 2048 + n.val) * 64 + d.val) % 64 = d.val; omega)
  rw [e, v1_at]

/-- The keys: part 1. -/
theorem v6_at (b : Fin 4) (h : Fin 16) (n : Fin 2048) (d : Fin 64) :
    val_main_v6 (F := Ideal) x0 x1 (ix4 b h n d) = QKV (xc x0) (wc x1) b n (col 1 h d) := by
  rw [val_main_v6_apply, val_main_v5_apply, val_main_v2_apply]
  have e : idx_main_v2 (idx_main_v5 (idx_main_v6 (ix4 b h n d))) = ix5 b n (1 : Fin 3) h d := funext fun a => Fin.ext (by
    have hb := b.isLt; have hn := n.isLt; have hh := h.isLt; have hd := d.isLt
    match a with
    | ⟨0, _⟩ => show (((b.val * 16 + h.val) * 2048 + n.val) * 64 + d.val) / 2097152 % 4 = b.val; omega
    | ⟨1, _⟩ => show (((b.val * 16 + h.val) * 2048 + n.val) * 64 + d.val) / 64 % 2048 = n.val; omega
    | ⟨2, _⟩ => rfl
    | ⟨3, _⟩ => show (((b.val * 16 + h.val) * 2048 + n.val) * 64 + d.val) / 131072 % 16 = h.val; omega
    | ⟨4, _⟩ => show (((b.val * 16 + h.val) * 2048 + n.val) * 64 + d.val) % 64 = d.val; omega)
  rw [e, v1_at]

/-- The values: part 2. -/
theorem v8_at (b : Fin 4) (h : Fin 16) (n : Fin 2048) (d : Fin 64) :
    val_main_v8 (F := Ideal) x0 x1 (ix4 b h n d) = QKV (xc x0) (wc x1) b n (col 2 h d) := by
  rw [val_main_v8_apply, val_main_v7_apply, val_main_v2_apply]
  have e : idx_main_v2 (idx_main_v7 (idx_main_v8 (ix4 b h n d))) = ix5 b n (2 : Fin 3) h d := funext fun a => Fin.ext (by
    have hb := b.isLt; have hn := n.isLt; have hh := h.isLt; have hd := d.isLt
    match a with
    | ⟨0, _⟩ => show (((b.val * 16 + h.val) * 2048 + n.val) * 64 + d.val) / 2097152 % 4 = b.val; omega
    | ⟨1, _⟩ => show (((b.val * 16 + h.val) * 2048 + n.val) * 64 + d.val) / 64 % 2048 = n.val; omega
    | ⟨2, _⟩ => rfl
    | ⟨3, _⟩ => show (((b.val * 16 + h.val) * 2048 + n.val) * 64 + d.val) / 131072 % 16 = h.val; omega
    | ⟨4, _⟩ => show (((b.val * 16 + h.val) * 2048 + n.val) * 64 + d.val) % 64 = d.val; omega)
  rw [e, v1_at]

/-- The query row, the keys and the values of batch b, head h (query token n). -/
abbrev qf (b : Fin 4) (h : Fin 16) (n : Fin 2048) : Fin 64 → EReal := fun d => QKV (xc x0) (wc x1) b n (col 0 h d)
abbrev kf (b : Fin 4) (h : Fin 16) : Fin 2048 → Fin 64 → EReal := fun m d => QKV (xc x0) (wc x1) b m (col 1 h d)
abbrev vf (b : Fin 4) (h : Fin 16) : Fin 2048 → Fin 64 → EReal := fun m d => QKV (xc x0) (wc x1) b m (col 2 h d)

/-- The scaled scores. -/
theorem v11_at (b : Fin 4) (h : Fin 16) (n m : Fin 2048) :
    val_main_v11 (F := Ideal) x0 x1 (ix4 b h n m) = score (qf x0 x1 b h n) (kf x0 x1 b h) m := by
  rw [val_main_v11_apply, val_main_v10_apply, val_main_cst_apply, val_main_v9_apply]
  have el : ∀ k : Fin 64, lidx_main_v9 (ix4 b h n m) k = ix4 b h n k := fun k => funext fun a => Fin.ext (by
    match a with | ⟨0, _⟩ => rfl | ⟨1, _⟩ => rfl | ⟨2, _⟩ => rfl | ⟨3, _⟩ => rfl)
  have er : ∀ k : Fin 64, ridx_main_v9 (ix4 b h n m) k = ix4 b h m k := fun k => funext fun a => Fin.ext (by
    match a with | ⟨0, _⟩ => rfl | ⟨1, _⟩ => rfl | ⟨2, _⟩ => rfl | ⟨3, _⟩ => rfl)
  simp only [el, er, v4_at, v6_at, Ideal.mulf_def, Ideal.ofBits_def]
  rfl

/-- Coordinate k put back on the last axis of (b, h, n). -/
theorem lift_at (hr : S4x16x2048x2048.Reduces [3] S4x16x2048) (b : Fin 4) (h : Fin 16) (n : Fin 2048)
    (k : Fin (S4x16x2048x2048.size 3)) : hr.lift (ix3 b h n) k = ix4 b h n (⟨k.val, k.isLt⟩ : Fin 2048) := by
  funext c; apply Fin.ext
  fin_cases c <;> rfl

/-- A maximum-reduce over the last axis from -∞, at (b, h, n), is the fold of max over that row. -/
theorem reduce_max_at (y : FVec Ideal S4x16x2048x2048 .f32) (b : Fin 4) (h : Fin 16) (n : Fin 2048) :
    Host.reduce (FloatOps.maximumf (F := Ideal) (φ := .f32)) y (val_main_cst_0 (F := Ideal)) reducesTo_S4x16x2048x2048_S4x16x2048_d3 h_S_ (ix3 b h n)
      = (Finset.univ : Finset (Fin 2048)).fold max ninf (fun m => y (ix4 b h n m)) := by
  have hr : S4x16x2048x2048.Reduces [3] S4x16x2048 := by decide
  rw [Host.reduce_eq_fold_single (FloatOps.maximumf (F := Ideal) (φ := .f32)) y _ reducesTo_S4x16x2048x2048_S4x16x2048_d3 hr h_S_]
  have hf : (y ∘ hr.lift (ix3 b h n)) = fun k : Fin 2048 => y (ix4 b h n k) :=
    funext fun k => congrArg y (lift_at hr b h n k)
  exact congrArg (fun f => Finset.fold max ninf f (Finset.univ : Finset (Fin 2048))) hf

/-- The row maximum. -/
theorem v12_at (b : Fin 4) (h : Fin 16) (n : Fin 2048) :
    val_main_v12 (F := Ideal) x0 x1 (ix3 b h n) = rowMax (score (qf x0 x1 b h n) (kf x0 x1 b h)) := by
  unfold val_main_v12
  refine (reduce_max_at (val_main_v11 (F := Ideal) x0 x1) b h n).trans ?_
  simp only [v11_at]
  rfl

/-- The row maximum taken once more against -∞. -/
theorem v14_at (b : Fin 4) (h : Fin 16) (n : Fin 2048) :
    val_main_v14 (F := Ideal) x0 x1 (ix3 b h n) = max ninf (rowMax (score (qf x0 x1 b h n) (kf x0 x1 b h))) := by
  rw [val_main_v14_apply, val_main_v13_apply, val_main_cst_1_apply, v12_at]
  rfl

theorem v16_at (b : Fin 4) (h : Fin 16) (n m : Fin 2048) :
    val_main_v16 (F := Ideal) x0 x1 (ix4 b h n m) = max ninf (rowMax (score (qf x0 x1 b h n) (kf x0 x1 b h))) := by
  rw [val_main_v16_apply, val_main_v15_apply]
  have e : idx_main_v15 (idx_main_v16 (ix4 b h n m)) = ix3 b h n := funext fun a => Fin.ext (by
    match a with | ⟨0, _⟩ => rfl | ⟨1, _⟩ => rfl | ⟨2, _⟩ => rfl)
  rw [e, v14_at]

/-- The unnormalised weights. -/
theorem v18_at (b : Fin 4) (h : Fin 16) (n m : Fin 2048) :
    val_main_v18 (F := Ideal) x0 x1 (ix4 b h n m) = expoR (score (qf x0 x1 b h n) (kf x0 x1 b h)) m := by
  rw [val_main_v18_apply, val_main_v17_apply, v11_at, v16_at]
  rfl

/-- Their sum, from 0. -/
theorem v19_at (b : Fin 4) (h : Fin 16) (n : Fin 2048) :
    val_main_v19 (F := Ideal) x0 x1 (ix3 b h n) = 0 + ∑ m : Fin 2048, expoR (score (qf x0 x1 b h n) (kf x0 x1 b h)) m := by
  rw [val_main_v19_apply, val_main_cst_2_apply]
  have e : ∀ k : Fin 2048, idx_main_v19 (ix3 b h n) k = ix4 b h n k := fun k => funext fun a => Fin.ext (by
    match a with | ⟨0, _⟩ => rfl | ⟨1, _⟩ => rfl | ⟨2, _⟩ => rfl | ⟨3, _⟩ => rfl)
  simp only [e, v18_at, Ideal.ofBits_def, Ideal.ofBits_zero_f32]

theorem v21_at (b : Fin 4) (h : Fin 16) (n m : Fin 2048) :
    val_main_v21 (F := Ideal) x0 x1 (ix4 b h n m) = 0 + ∑ m' : Fin 2048, expoR (score (qf x0 x1 b h n) (kf x0 x1 b h)) m' := by
  rw [val_main_v21_apply, val_main_v20_apply]
  have e : idx_main_v20 (idx_main_v21 (ix4 b h n m)) = ix3 b h n := funext fun a => Fin.ext (by
    match a with | ⟨0, _⟩ => rfl | ⟨1, _⟩ => rfl | ⟨2, _⟩ => rfl)
  rw [e, v19_at]

/-- The normalised weights. -/
theorem v22_at (b : Fin 4) (h : Fin 16) (n m : Fin 2048) :
    val_main_v22 (F := Ideal) x0 x1 (ix4 b h n m)
      = Ideal.div (expoR (score (qf x0 x1 b h n) (kf x0 x1 b h)) m)
          (0 + ∑ m' : Fin 2048, expoR (score (qf x0 x1 b h n) (kf x0 x1 b h)) m') := by
  rw [val_main_v22_apply, v18_at, v21_at]
  rfl

/-- The attention output of (batch, head, token, lane). -/
theorem v23_at (b : Fin 4) (h : Fin 16) (n : Fin 2048) (d : Fin 64) :
    val_main_v23 (F := Ideal) x0 x1 (ix4 b h n d) = AR (xc x0) (wc x1) b n h d := by
  rw [val_main_v23_apply]
  have el : ∀ k : Fin 2048, lidx_main_v23 (ix4 b h n d) k = ix4 b h n k := fun k => funext fun a => Fin.ext (by
    match a with | ⟨0, _⟩ => rfl | ⟨1, _⟩ => rfl | ⟨2, _⟩ => rfl | ⟨3, _⟩ => rfl)
  have er : ∀ k : Fin 2048, ridx_main_v23 (ix4 b h n d) k = ix4 b h k d := fun k => funext fun a => Fin.ext (by
    match a with | ⟨0, _⟩ => rfl | ⟨1, _⟩ => rfl | ⟨2, _⟩ => rfl | ⟨3, _⟩ => rfl)
  simp only [el, er, v22_at, v8_at]
  rfl

/-- Heads moved behind tokens. -/
theorem v24_at (b : Fin 4) (n : Fin 2048) (h : Fin 16) (d : Fin 64) :
    val_main_v24 (F := Ideal) x0 x1 (ix4 b n h d) = AR (xc x0) (wc x1) b n h d := by
  rw [val_main_v24_apply]
  have e : idx_main_v24 (ix4 b n h d) = ix4 b h n d := funext fun a => Fin.ext (by
    match a with | ⟨0, _⟩ => rfl | ⟨1, _⟩ => rfl | ⟨2, _⟩ => rfl | ⟨3, _⟩ => rfl)
  rw [e, v23_at]

/-- Heads and lanes merged into one model axis: column c is head c / 64, lane c % 64. -/
theorem v25_at (b : Fin 4) (n : Fin 2048) (c : Fin 1024) :
    val_main_v25 (F := Ideal) x0 x1 (ix3 b n c) = AR (xc x0) (wc x1) b n (hd c) (dd c) := by
  rw [val_main_v25_apply]
  have e : idx_main_v25 (ix3 b n c) = ix4 b n (hd c) (dd c) := funext fun a => Fin.ext (by
    have hb := b.isLt; have hn := n.isLt; have hc := c.isLt
    match a with
    | ⟨0, _⟩ => show ((b.val * 2048 + n.val) * 1024 + c.val) / 2097152 = b.val; omega
    | ⟨1, _⟩ => show ((b.val * 2048 + n.val) * 1024 + c.val) / 1024 % 2048 = n.val; omega
    | ⟨2, _⟩ => show ((b.val * 2048 + n.val) * 1024 + c.val) / 64 % 16 = c.val / 64; omega
    | ⟨3, _⟩ => show ((b.val * 2048 + n.val) * 1024 + c.val) % 64 = c.val % 64; omega)
  rw [e, v24_at]

end Stages

section Out
variable (x0 : (⟨S4x2048x1024, .f32⟩ : BufTy).Contents (Elt Ideal)) (x1 : (⟨S3072x1024, .f32⟩ : BufTy).Contents (Elt Ideal))
  (x2 : (⟨S1024x1024, .f32⟩ : BufTy).Contents (Elt Ideal)) (x3 : (⟨S1024, .f32⟩ : BufTy).Contents (Elt Ideal))

/-- The output projection. -/
theorem v26_at (b : Fin 4) (n : Fin 2048) (o : Fin 1024) :
    val_main_v26 (F := Ideal) x0 x1 x2 (ix3 b n o)
      = ∑ c : Fin 1024, AR (xc x0) (wc x1) b n (hd c) (dd c) * x2 (ix2 o c) := by
  rw [val_main_v26_apply]
  have el : ∀ k : Fin 1024, lidx_main_v26 (ix3 b n o) k = ix3 b n k := fun k => funext fun a => Fin.ext (by
    match a with | ⟨0, _⟩ => rfl | ⟨1, _⟩ => rfl | ⟨2, _⟩ => rfl)
  have er : ∀ k : Fin 1024, ridx_main_v26 (ix3 b n o) k = ix2 o k := fun k => funext fun a => Fin.ext (by
    match a with | ⟨0, _⟩ => rfl | ⟨1, _⟩ => rfl)
  simp only [el, er, v25_at]

/-- The bias, broadcast over batch and token. -/
theorem v28_at (b : Fin 4) (n : Fin 2048) (o : Fin 1024) :
    val_main_v28 (F := Ideal) x3 (ix3 b n o) = x3 (ix1 o) := by
  rw [val_main_v28_apply, val_main_v27_apply]
  have e : idx_main_v27 (idx_main_v28 (ix3 b n o)) = ix1 o := funext fun a => Fin.ext (by
    match a with | ⟨0, _⟩ => rfl)
  rw [e]

/-- The result stage at (b, n, o) is the layer's output entry. -/
theorem v29_at (b : Fin 4) (n : Fin 2048) (o : Fin 1024) :
    val_main_v29 (F := Ideal) x0 x1 x2 x3 (ix3 b n o) = OutRA x0 x1 x2 x3 (ix3 b n o) := by
  rw [val_main_v29_apply, v26_at, v28_at]
  rfl

end Out

/-- The reference run's result term is the layer's output array (second arrangement) of the four argument arrays. -/
theorem ref_value (m : (ℓ : Loc nD τ sig) → Buf (Elt Ideal) ℓ) (c : Dev nD) :
    Cert.ReferenceIdeal.Value.res_main_v29 (F := Ideal) m c
      = OutRA (m ((c.tc : Thread nD τ).loc main_arg0)) (m ((c.tc : Thread nD τ).loc main_arg1))
          (m ((c.tc : Thread nD τ).loc main_arg2)) (m ((c.tc : Thread nD τ).loc main_arg3)) := by
  rw [Read.val_main_v29_eq]
  funext i
  obtain ⟨b, n, o, rfl⟩ : ∃ (b : Fin 4) (n : Fin 2048) (o : Fin 1024), i = ix3 b n o := ⟨i 0, i 1, i 2, eq_ix3 i⟩
  exact v29_at _ _ _ _ b n o

end Cert.Val.Ref

end
-- ==== Proof.Val.Fin.lean ====
/-
  From the precondition — every float input finite — to: every entry of the activations and of the fused projection's
  weights is a real number.
-/
import proofs.«423178_j21577915695182_3_alg».proof.Defs
import proofs.«423178_j21577915695182_3_alg».proof.Proof.Gen.Pre_finite_inputs
import proofs.«423178_j21577915695182_3_alg».proof.Proof.Val.Spec
import Idealize.ShloMosaic.Lib.ValueIdx
import Idealize.ShloMosaic.Lib.ReduceAll

noncomputable section

namespace Cert.Val.Fin

open Idealize.ShloMosaic Idealize.ShloMosaic.TcCoe Idealize.ShloMosaic.ValueIdx
open Idealize.SL Idealize.SL.Sem
open Cert.Val

/-- The rank-0 shape has one index. -/
instance : Subsingleton Cert.Pre_finite_inputs.S_.Idx := ⟨fun a b => funext fun d => d.elim0⟩

/-- The pattern of `+∞` denotes the top element. -/
theorem pinf_eq : Ideal.ofBits .f32 0x7F800000#32 = (⊤ : EReal) := by simp [Ideal.ofBits, Ideal.ieee]

/-- An extended real whose absolute value `max x (-x)` compares below `+∞` is a real number. -/
theorem isReal_of_abs_lt (x : EReal) (h : Ideal.cmp .olt (max x (-x)) (Ideal.ofBits .f32 0x7F800000#32) = 1#1) :
    IsReal x := by
  rw [pinf_eq] at h
  have hlt : max x (-x) < ⊤ := by
    by_contra hn
    simp [Ideal.cmp, hn] at h
  induction x using EReal.rec with
  | bot => simp at hlt
  | coe r => exact ⟨r, rfl⟩
  | top => simp at hlt

/-- The precondition's function at the extended reals is all ones only if every entry of its first two arguments is real. -/
theorem real_of_pre [Cert.Pre_finite_inputs.Facts]
    (a0 : T4x2048x1024.Idx → EReal) (a1 : T3072x1024.Idx → EReal) (a2 : T1024x1024.Idx → EReal) (a3 : T1024.Idx → EReal)
    (h : Cert.Pre_finite_inputs.fn (F := Ideal) a0 a1 a2 a3 = (fun _ => 1#1)) :
    (∀ i, IsReal (a0 i)) ∧ (∀ i, IsReal (a1 i)) := by
  have h0 := congrFun h ValueIdx.ix0
  dsimp only [Cert.Pre_finite_inputs.fn, Cert.Pre_finite_inputs.fn_part1] at h0
  obtain ⟨h13, -⟩ := IntOp.andi_eq_one.1 h0
  obtain ⟨h8, -⟩ := IntOp.andi_eq_one.1 h13
  obtain ⟨h3, h7⟩ := IntOp.andi_eq_one.1 h8
  refine ⟨fun i => ?_, fun i => ?_⟩
  · exact isReal_of_abs_lt _ (Host.reduce_andi_all _ _ _ _ _ h3 i)
  · exact isReal_of_abs_lt _ (Host.reduce_andi_all _ _ _ _ _ h7 i)

end Cert.Val.Fin

end
-- ==== Proof.lean ====
/-
  A multi-head attention layer — the fused query/key/value projection, sixteen heads of softmax attention over 2048 tokens,
  the output projection with its bias — computed by three pipelined kernel regions among host reshapes, against the same
  layer written with whole-array operations.

  Frames. Each kernel program's run is the launch of its seven items over the buffers' contents between them (the same text
  at the word-level instance and at the extended reals); the whole-array program's run is its operations in order. All end
  with the four argument arrays as launched.

  Values, at the extended reals. The kernel program's result is, entry (b, n, o), the bias plus the sum over the model
  columns c of the head-(c / 64) attention output of token (b, n) at lane c % 64 times the projection weight (o, c), where a
  head's output divides the exponential-weighted sum of the value rows by the weights' sum; the whole-array program
  normalises the weights first and then sums. On finite activations and projection weights every score and value is a
  real number, the weights are positive reals, and the two agree.
-/
import proofs.«423178_j21577915695182_3_alg».proof.Defs
import proofs.«423178_j21577915695182_3_alg».proof.Proof.Gen.Kernel
import proofs.«423178_j21577915695182_3_alg».proof.Proof.Gen.KernelIdeal
import proofs.«423178_j21577915695182_3_alg».proof.Proof.Gen.ReferenceIdeal
import proofs.«423178_j21577915695182_3_alg».proof.Proof.Gen.Pre_finite_inputs
import proofs.«423178_j21577915695182_3_alg».proof.Proof.Gen.ReferenceIdeal.Run
import proofs.«423178_j21577915695182_3_alg».proof.Proof.K.Run
import proofs.«423178_j21577915695182_3_alg».proof.Proof.KI.Run
import proofs.«423178_j21577915695182_3_alg».proof.Proof.Val.Final
import proofs.«423178_j21577915695182_3_alg».proof.Proof.Val.Ref
import proofs.«423178_j21577915695182_3_alg».proof.Proof.Val.Fin
import Idealize.ShloMosaic.Adequacy
import Idealize.ShloMosaic.Init

noncomputable section

namespace Cert.Proof

open Idealize.ShloMosaic Idealize.SL.Sem

/-- The word-level kernel program runs to its end and leaves its arguments as launched. -/
theorem frame_k : @Cert.frame_Kernel Cert.Kernel.Gen.facts Cert.Pre_finite_inputs.Gen.facts := fun m ρ _ =>
  (θ_run Cert.Kernel.defs _ _).mono (fun _ h c => (h c).2) (Cert.Kernel.Hand.run_value (F := Bits) m ρ)

/-- The same program read at the extended reals likewise. -/
theorem frame_ki : @Cert.frame_KernelIdeal Cert.KernelIdeal.Gen.facts Cert.Pre_finite_inputs.Gen.facts := fun m ρ _ =>
  (θ_run Cert.KernelIdeal.defs _ _).mono (fun _ h c => (h c).2) (Cert.KernelIdeal.Hand.run_value (F := Ideal) m ρ)

/-- The whole-array program's run, its result dropped. -/
theorem frame_ri : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.Value.run (F := Ideal) m ρ)

/-- Both programs end with the layer's output of the arguments: the kernel program's in the first arrangement, the
    whole-array program's in the second, equal on finite activations and projection weights. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.Val.OutRA
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)), ?_, ?_⟩
  · refine (θ_run Cert.KernelIdeal.defs _ _).mono (fun _ h c => ⟨(h c).1.trans ?_, (h c).2⟩)
      (Cert.KernelIdeal.Hand.run_value (F := Ideal) m ρ)
    obtain ⟨h0, h1⟩ := Cert.Val.Fin.real_of_pre _ _ _ _ (hpre c)
    rw [Cert.Val.final_value m c, Cert.Val.OutA_eq _ _ _ _ h0 h1]
    dsimp only
    rw [(hagree c).1, (hagree c).2.1, (hagree c).2.2.1, (hagree c).2.2.2]
  · refine (θ_run Cert.ReferenceIdeal.defs _ _).mono (fun _ h c => ⟨(h c).1.trans ?_, (h c).2⟩)
      (Cert.ReferenceIdeal.Value.run (F := Ideal) m' ρ')
    exact Cert.Val.Ref.ref_value m' c

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
